-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x3200000 : Shape := ⟨2, ![2, 3200000]⟩
abbrev S1500x16 : Shape := ⟨2, ![1500, 16]⟩
abbrev S16x32 : Shape := ⟨2, ![16, 32]⟩
abbrev S32 : Shape := ⟨1, ![32]⟩
abbrev S32x41 : Shape := ⟨2, ![32, 41]⟩
abbrev S41 : Shape := ⟨1, ![41]⟩
abbrev S_ : Shape := ⟨0, ![]⟩

class Facts : Prop where
  bcast_S_S1500x16 : S_.BroadcastsInDim S1500x16 (![] : Fin 0 → Fin S1500x16.rank)
  reducesTo_S1500x16_S_d0_1 : S1500x16.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x41 : S_.BroadcastsInDim S32x41 (![] : Fin 0 → Fin S32x41.rank)
  reducesTo_S32x41_S_d0_1 : S32x41.ReducesTo [0, 1] S_
  bcast_S_S41 : S_.BroadcastsInDim S41 (![] : Fin 0 → Fin S41.rank)
  reducesTo_S41_S_d0 : S41.ReducesTo [0] S_

variable [Facts]

def fn_part1 {F : FTy → Type} [FloatOps F] (main_arg7 : FVec F S41 .f32) (main_v13 : IVec S_ 1) (main_v16 : IVec S32x41 1) : IVec S_ 1 :=
  let main_c_5 : IVec S_ 1 := constantI S_ 1 1#1
  let main_v17 : IVec S_ 1 := (fun x v => Host.reduce IntOp.andi x v reducesTo_S32x41_S_d0_1 h_S_) main_v16 main_c_5
  let main_v18 : IVec S_ 1 := andi main_v13 main_v17
  let main_v19 : FVec F S41 .f32 := Host.absf main_arg7
  let main_cst_6 : FVec F S_ .f32 := constant S_ .f32 0x7F800000#32
  let main_v20 : FVec F S41 .f32 := broadcastInDim S41 ![] bcast_S_S41 main_cst_6
  let main_v21 : IVec S41 1 := cmpf .olt main_v19 main_v20
  let main_c_7 : IVec S_ 1 := constantI S_ 1 1#1
  let main_v22 : IVec S_ 1 := (fun x v => Host.reduce IntOp.andi x v reducesTo_S41_S_d0 h_S_) main_v21 main_c_7
  let main_v23 : IVec S_ 1 := andi main_v18 main_v22
  main_v23

def fn {F : FTy → Type} [FloatOps F] (main_arg0 : IVec S100000 32) (main_arg1 : IVec S2x3200000 32) (main_arg2 : IVec S100000 32) (main_arg3 : FVec F S1500x16 .f32) (main_arg4 : FVec F S16x32 .f32) (main_arg5 : FVec F S32 .f32) (main_arg6 : FVec F S32x41 .f32) (main_arg7 : FVec F S41 .f32) : IVec S_ 1 :=
  let main_v0 : FVec F S1500x16 .f32 := Host.absf main_arg3
  let main_cst : FVec F S_ .f32 := constant S_ .f32 0x7F800000#32
  let main_v1 : FVec F S1500x16 .f32 := broadcastInDim S1500x16 ![] bcast_S_S1500x16 main_cst
  let main_v2 : IVec S1500x16 1 := cmpf .olt main_v0 main_v1
  let main_c : IVec S_ 1 := constantI S_ 1 1#1
  let main_v3 : IVec S_ 1 := (fun x v => Host.reduce IntOp.andi x v reducesTo_S1500x16_S_d0_1 h_S_) main_v2 main_c
  let main_v4 : FVec F S16x32 .f32 := Host.absf main_arg4
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S32 .f32 := Host.absf main_arg5
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x41 .f32 := Host.absf main_arg6
  let main_cst_4 : FVec F S_ .f32 := constant S_ .f32 0x7F800000#32
  let main_v15 : FVec F S32x41 .f32 := broadcastInDim S32x41 ![] bcast_S_S32x41 main_cst_4
  let main_v16 : IVec S32x41 1 := cmpf .olt main_v14 main_v15
  fn_part1 (F := F) main_arg7 main_v13 main_v16
-- ==== Kernel.lean ====
abbrev S100000 : Shape := ⟨1, ![100000]⟩
abbrev S2x3200000 : Shape := ⟨2, ![2, 3200000]⟩
abbrev S1500x16 : Shape := ⟨2, ![1500, 16]⟩
abbrev S16x32 : Shape := ⟨2, ![16, 32]⟩
abbrev S32 : Shape := ⟨1, ![32]⟩
abbrev S32x41 : Shape := ⟨2, ![32, 41]⟩
abbrev S41 : Shape := ⟨1, ![41]⟩
abbrev S100000x1 : Shape := ⟨2, ![100000, 1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S1500x32 : Shape := ⟨2, ![1500, 32]⟩
abbrev S100000x32 : Shape := ⟨2, ![100000, 32]⟩
abbrev S3300000x32 : Shape := ⟨2, ![3300000, 32]⟩
abbrev S1x32 : Shape := ⟨2, ![1, 32]⟩
abbrev S100000x41 : Shape := ⟨2, ![100000, 41]⟩
abbrev S2000x32 : Shape := ⟨2, ![2000, 32]⟩
abbrev S2000x1 : Shape := ⟨2, ![2000, 1]⟩
abbrev S2000x41 : Shape := ⟨2, ![2000, 41]⟩
abbrev S3300000x41 : Shape := ⟨2, ![3300000, 41]⟩
abbrev S1x41 : Shape := ⟨2, ![1, 41]⟩
abbrev S2x256x41 : Shape := ⟨3, ![2, 256, 41]⟩
abbrev S1x256x41 : Shape := ⟨3, ![1, 256, 41]⟩
abbrev S256x41 : Shape := ⟨2, ![256, 41]⟩
abbrev S2000x256 : Shape := ⟨2, ![2000, 256]⟩

abbrev nBuf : Space → Nat
  | .hbm => 79
  | .vmem => 17
  | .smem => 0
  | _ => 0

abbrev bufTy : (tb : Table) → Fin (tcTables nBuf tb) → BufTy
  | .hbm, ⟨0, _⟩ => ⟨S100000, .i32⟩
  | .hbm, ⟨1, _⟩ => ⟨S2x3200000, .i32⟩
  | .hbm, ⟨2, _⟩ => ⟨S100000, .i32⟩
  | .hbm, ⟨3, _⟩ => ⟨S1500x16, .f32⟩
  | .hbm, ⟨4, _⟩ => ⟨S16x32, .f32⟩
  | .hbm, ⟨5, _⟩ => ⟨S32, .f32⟩
  | .hbm, ⟨6, _⟩ => ⟨S32x41, .f32⟩
  | .hbm, ⟨7, _⟩ => ⟨S41, .f32⟩
  | .hbm, ⟨8, _⟩ => ⟨S100000x1, .i32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S1500x32, .f32⟩
  | .hbm, ⟨32, _⟩ => ⟨S_, .i32⟩
  | .hbm, ⟨33, _⟩ => ⟨S100000, .i32⟩
  | .hbm, ⟨34, _⟩ => ⟨S100000, .i1⟩
  | .hbm, ⟨35, _⟩ => ⟨S_, .i32⟩
  | .hbm, ⟨36, _⟩ => ⟨S100000, .i32⟩
  | .hbm, ⟨37, _⟩ => ⟨S100000, .i32⟩
  | .hbm, ⟨38, _⟩ => ⟨S100000, .i32⟩
  | .hbm, ⟨39, _⟩ => ⟨S100000x1, .i32⟩
  | .hbm, ⟨40, _⟩ => ⟨S100000x32, .f32⟩
  | .hbm, ⟨41, _⟩ => ⟨S100000x32, .f32⟩
  | .hbm, ⟨42, _⟩ => ⟨S100000x32, .f32⟩
  | .hbm, ⟨43, _⟩ => ⟨S100000x32, .bf16⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000x32, .bf16⟩
  | .hbm, ⟨53, _⟩ => ⟨S3300000x32, .f32⟩
  | .hbm, ⟨54, _⟩ => ⟨S_, .f32⟩
  | .hbm, ⟨55, _⟩ => ⟨S100000x32, .f32⟩
  | .hbm, ⟨56, _⟩ => ⟨S3300000x1, .i32⟩
  | .hbm, ⟨57, _⟩ => ⟨S100000x32, .f32⟩
  | .hbm, ⟨58, _⟩ => ⟨S1x32, .f32⟩
  | .hbm, ⟨59, _⟩ => ⟨S32x41, .bf16⟩
  | .hbm, ⟨60, _⟩ => ⟨S100000x41, .bf16⟩
  | .hbm, ⟨61, _⟩ => ⟨S_, .i32⟩
  | .hbm, ⟨62, _⟩ => ⟨S3300000, .i32⟩
  | .hbm, ⟨63, _⟩ => ⟨S3300000, .i1⟩
  | .hbm, ⟨64, _⟩ => ⟨S_, .i32⟩
  | .hbm, ⟨65, _⟩ => ⟨S3300000, .i32⟩
  | .hbm, ⟨66, _⟩ => ⟨S3300000, .i32⟩
  | .hbm, ⟨67, _⟩ => ⟨S3300000, .i32⟩
  | .hbm, ⟨68, _⟩ => ⟨S3300000x1, .i32⟩
  | .hbm, ⟨69, _⟩ => ⟨S3300000x41, .bf16⟩
  | .hbm, ⟨70, _⟩ => ⟨S3300000x41, .f32⟩
  | .hbm, ⟨71, _⟩ => ⟨S_, .f32⟩
  | .hbm, ⟨72, _⟩ => ⟨S100000x41, .f32⟩
  | .hbm, ⟨73, _⟩ => ⟨S3300000x1, .i32⟩
  | .hbm, ⟨74, _⟩ => ⟨S100000x41, .f32⟩
  | .hbm, ⟨75, _⟩ => ⟨S1x41, .f32⟩
  | .hbm, ⟨76, _⟩ => ⟨S2x256x41, .f32⟩
  | .hbm, ⟨77, _⟩ => ⟨S_, .f32⟩
  | .hbm, ⟨78, _⟩ => ⟨S256x41, .f32⟩
  | .local _ .vmem, ⟨0, _⟩ => ⟨S2000x32, .f32⟩
  | .local _ .vmem, ⟨1, _⟩ => ⟨S2000x32, .f32⟩
  | .local _ .vmem, ⟨2, _⟩ => ⟨S2000x1, .f32⟩
  | .local _ .vmem, ⟨3, _⟩ => ⟨S2000x1, .f32⟩
  | .local _ .vmem, ⟨4, _⟩ => ⟨S1x32, .f32⟩
  | .local _ .vmem, ⟨5, _⟩ => ⟨S32x41, .bf16⟩
  | .local _ .vmem, ⟨6, _⟩ => ⟨S2000x41, .bf16⟩
  | .local _ .vmem, ⟨7, _⟩ => ⟨S2000x41, .bf16⟩
  | .local _ .vmem, ⟨8, _⟩ => ⟨S2000x1, .i32⟩
  | .local _ .vmem, ⟨9, _⟩ => ⟨S2000x1, .i32⟩
  | .local _ .vmem, ⟨10, _⟩ => ⟨S2000x41, .f32⟩
  | .local _ .vmem, ⟨11, _⟩ => ⟨S2000x41, .f32⟩
  | .local _ .vmem, ⟨12, _⟩ => ⟨S2000x1, .f32⟩
  | .local _ .vmem, ⟨13, _⟩ => ⟨S2000x1, .f32⟩
  | .local _ .vmem, ⟨14, _⟩ => ⟨S1x41, .f32⟩
  | .local _ .vmem, ⟨15, _⟩ => ⟨S1x256x41, .f32⟩
  | .local _ .vmem, ⟨16, _⟩ => ⟨S1x256x41, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_7 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x41 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x41 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2000x41 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x41 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x41 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S100000_S100000x1 : S100000.ShapeCasts S100000x1
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bitsLt_bf16_f32 : FTy.bits .bf16 < FTy.bits .f32
  bcast_S_S100000x32 : S_.BroadcastsInDim S100000x32 (![] : Fin 0 → Fin S100000x32.rank)
  shapeCasts_S32_S1x32 : S32.ShapeCasts S1x32
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x32 : S2000x1.Broadcasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x41_S32x41_0_0 : ∀ a, (![0, 0] : Fin 2 → Nat) a + S32x41.size a ≤ S32x41.size a
  h_S32x41 : 0 < S32x41.numel
  shapeCasts_S32x41_S32x41 : S32x41.ShapeCasts S32x41
  broadcasts_S2000x1_S2000x41 : S2000x1.Broadcasts S2000x41
  inb_S2000x41_S2000x41_0_0 : ∀ a, (![0, 0] : Fin 2 → Nat) a + S2000x41.size a ≤ S2000x41.size a
  h_S2000x41 : 0 < S2000x41.numel
  packedbf16_S2000x41_S2000x41_0_0 : (Rect.unit (s := S2000x41) ![0, 0] S2000x41.size inb_S2000x41_S2000x41_0_0).PackedRows (EltTy.packing .bf16)
  bcast_S_S100000x41 : S_.BroadcastsInDim S100000x41 (![] : Fin 0 → Fin S100000x41.rank)
  shapeCasts_S41_S1x41 : S41.ShapeCasts S1x41
  inb_S1x256x41_S1x256x41_0_0_0 : ∀ a, (![0, 0, 0] : Fin 3 → Nat) a + S1x256x41.size a ≤ S1x256x41.size a
  h_S1x256x41 : 0 < S1x256x41.numel
  shapeCasts_S1x256x41_S256x41 : S1x256x41.ShapeCasts S256x41
  shapeCasts_S256x41_S1x256x41 : S256x41.ShapeCasts S1x256x41
  iota_S2000x256_d1_w32 : S2000x256.Iotas .tc 32 [1]
  broadcasts_S2000x1_S2000x256 : S2000x1.Broadcasts S2000x256
  natLt_1_32 : 1 < 32
  shapeCasts_S2000x41_S2000x41 : S2000x41.ShapeCasts S2000x41
  inb_S1x41_S1x41_0_0 : ∀ a, (![0, 0] : Fin 2 → Nat) a + S1x41.size a ≤ S1x41.size a
  h_S1x41 : 0 < S1x41.numel
  shapeCasts_S1x41_S1x41 : S1x41.ShapeCasts S1x41
  broadcasts_S1x41_S2000x41 : S1x41.Broadcasts S2000x41
  reducesTo_S2x256x41_S256x41_d0 : S2x256x41.ReducesTo [0] S256x41
  h_S_ : 0 < S_.numel
  scatter_S100000_S3300000x1_S3300000_n_0_0_1_wf : ScatterDims.WF S100000 S3300000x1 S3300000 [] [0] [0] 1
  dot_S1500x16_S16x32_S1500x32_1_0_0_1_n_n_wf : DotDims.WF S1500x16 S16x32 S1500x32 [1] [0] [0] [1] [] []
  gather_S1500x32_S100000x1_S100000x32_1_0_n_n_0_1_132_wf : GatherDims.WF S1500x32 S100000x1 S100000x32 [1] [0] [] [0] [] 1 ![1, 32]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S2000x32_S32x41_S2000x41_1_0_0_1_n_n_wf : DotDims.WF S2000x32 S32x41 S2000x41 [1] [0] [0] [1] [] []
  gather_S100000x41_S3300000x1_S3300000x41_1_0_n_n_0_1_141_wf : GatherDims.WF S100000x41 S3300000x1 S3300000x41 [1] [0] [] [0] [] 1 ![1, 41]
  scatter_S100000x41_S3300000x1_S3300000x41_1_0_0_1_wf : ScatterDims.WF S100000x41 S3300000x1 S3300000x41 [1] [0] [0] 1
  dot_S2000x256_S2000x41_S256x41_0_0_1_1_n_n_wf : DotDims.WF S2000x256 S2000x41 S256x41 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S100000x32.size a
  hwx0_0 : ∀ i : grid0.Coords, EltTy.bits .f32 = 32 ∨ (Rect.block (s := S100000x32) S2000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x41.size a ≤ S32x41.size a
  hwx0_3 : ∀ i : grid0.Coords, EltTy.bits .bf16 = 32 ∨ (Rect.block (s := S32x41) S32x41.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x41.size a ≤ S100000x41.size a
  hwx0_4 : ∀ i : grid0.Coords, EltTy.bits .bf16 = 32 ∨ (Rect.block (s := S100000x41) S2000x41.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1.size a ≤ S100000x1.size a
  hwx1_0 : ∀ i : grid1.Coords, EltTy.bits .i32 = 32 ∨ (Rect.block (s := S100000x1) S2000x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x41.size a ≤ S100000x41.size a
  hwx1_1 : ∀ i : grid1.Coords, EltTy.bits .f32 = 32 ∨ (Rect.block (s := S100000x41) S2000x41.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x41.size a ≤ S1x41.size a
  hwx1_3 : ∀ i : grid1.Coords, EltTy.bits .f32 = 32 ∨ (Rect.block (s := S1x41) S1x41.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x41.size a ≤ S2x256x41.size a
  hwx1_4 : ∀ i : grid1.Coords, EltTy.bits .f32 = 32 ∨ (Rect.block (s := S2x256x41) S1x256x41.size (cc1_transform_4 i) (hinb1_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S1500x16_S16x32_S1500x32_1_0_0_1_n_n : DotDims S1500x16 S16x32 S1500x32 where
  lhsContracting := [1]
  rhsContracting := [0]
  lhsNonContracting := [0]
  rhsNonContracting := [1]
  lhsBatch := []
  rhsBatch := []
  wf := dot_S1500x16_S16x32_S1500x32_1_0_0_1_n_n_wf
def gather_S1500x32_S100000x1_S100000x32_1_0_n_n_0_1_132 : GatherDims S1500x32 S100000x1 S100000x32 where
  offsetDims := [1]
  collapsedSliceDims := [0]
  operandBatchingDims := []
  startIndicesBatchingDims := []
  startIndexMap := [0]
  indexVectorDim := 1
  sliceSizes := ![1, 32]
  wf := gather_S1500x32_S100000x1_S100000x32_1_0_n_n_0_1_132_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S2000x32_S32x41_S2000x41_1_0_0_1_n_n : DotDims S2000x32 S32x41 S2000x41 where
  lhsContracting := [1]
  rhsContracting := [0]
  lhsNonContracting := [0]
  rhsNonContracting := [1]
  lhsBatch := []
  rhsBatch := []
  wf := dot_S2000x32_S32x41_S2000x41_1_0_0_1_n_n_wf
def gather_S100000x41_S3300000x1_S3300000x41_1_0_n_n_0_1_141 : GatherDims S100000x41 S3300000x1 S3300000x41 where
  offsetDims := [1]
  collapsedSliceDims := [0]
  operandBatchingDims := []
  startIndicesBatchingDims := []
  startIndexMap := [0]
  indexVectorDim := 1
  sliceSizes := ![1, 41]
  wf := gather_S100000x41_S3300000x1_S3300000x41_1_0_n_n_0_1_141_wf
def scatter_S100000x41_S3300000x1_S3300000x41_1_0_0_1 : ScatterDims S100000x41 S3300000x1 S3300000x41 where
  updateWindowDims := [1]
  insertedWindowDims := [0]
  scatterDimsToOperandDims := [0]
  indexVectorDim := 1
  wf := scatter_S100000x41_S3300000x1_S3300000x41_1_0_0_1_wf
def dot_S2000x256_S2000x41_S256x41_0_0_1_1_n_n : DotDims S2000x256 S2000x41 S256x41 where
  lhsContracting := [0]
  rhsContracting := [0]
  lhsNonContracting := [1]
  rhsNonContracting := [1]
  lhsBatch := []
  rhsBatch := []
  wf := dot_S2000x256_S2000x41_S256x41_0_0_1_1_n_n_wf

abbrev win0_0 : Pipeline.Window sig grid0 :=
  Pipeline.Window.ofSpec (Memref.whole main_v38) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S32x41.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S2000x41.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S2000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S2000x41.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1x41.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S1x256x41.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000 : Shape := ⟨1, ![100000]⟩
abbrev S2x3200000 : Shape := ⟨2, ![2, 3200000]⟩
abbrev S1500x16 : Shape := ⟨2, ![1500, 16]⟩
abbrev S16x32 : Shape := ⟨2, ![16, 32]⟩
abbrev S32 : Shape := ⟨1, ![32]⟩
abbrev S32x41 : Shape := ⟨2, ![32, 41]⟩
abbrev S41 : Shape := ⟨1, ![41]⟩
abbrev S_ : Shape := ⟨0, ![]⟩
abbrev S100000x1 : Shape := ⟨2, ![100000, 1]⟩
abbrev S100000x16 : Shape := ⟨2, ![100000, 16]⟩
abbrev S100000x32 : Shape := ⟨2, ![100000, 32]⟩
abbrev S1x3200000 : Shape := ⟨2, ![1, 3200000]⟩
abbrev S3200000 : Shape := ⟨1, ![3200000]⟩
abbrev S3300000 : Shape := ⟨1, ![3300000]⟩
abbrev S3300000x1 : Shape := ⟨2, ![3300000, 1]⟩
abbrev S3300000x32 : Shape := ⟨2, ![3300000, 32]⟩
abbrev S1x32 : Shape := ⟨2, ![1, 32]⟩
abbrev S100000x41 : Shape := ⟨2, ![100000, 41]⟩
abbrev S3300000x41 : Shape := ⟨2, ![3300000, 41]⟩
abbrev S1x41 : Shape := ⟨2, ![1, 41]⟩
abbrev S256x41 : Shape := ⟨2, ![256, 41]⟩

abbrev nBuf : Space → Nat
  | .hbm => 144
  | .vmem => 0
  | .smem => 0
  | _ => 0

abbrev hbmTy0_0 (i : Nat) : BufTy := match i % 128 with
  | 0 => ⟨S100000, .i32⟩
  | 1 => ⟨S2x3200000, .i32⟩
  | 2 => ⟨S100000, .i32⟩
  | 3 => ⟨S1500x16, .f32⟩
  | 4 => ⟨S16x32, .f32⟩
  | 5 => ⟨S32, .f32⟩
  | 6 => ⟨S32x41, .f32⟩
  | 7 => ⟨S41, .f32⟩
  | 8 => ⟨S_, .i32⟩
  | 9 => ⟨S100000, .i32⟩
  | 10 => ⟨S100000, .i1⟩
  | 11 => ⟨S_, .i32⟩
  | 12 => ⟨S100000, .i32⟩
  | 13 => ⟨S100000, .i32⟩
  | 14 => ⟨S100000, .i32⟩
  | 15 => ⟨S100000x1, .i32⟩
  | 16 => ⟨S100000x16, .f32⟩
  | 17 => ⟨S100000x32, .f32⟩
  | 18 => ⟨S100000, .i32⟩
  | 19 => ⟨S1x3200000, .i32⟩
  | 20 => ⟨S3200000, .i32⟩
  | 21 => ⟨S3300000, .i32⟩
  | 22 => ⟨S1x3200000, .i32⟩
  | 23 => ⟨S3200000, .i32⟩
  | 24 => ⟨S3300000, .i32⟩
  | 25 => ⟨S_, .f32⟩
  | 26 => ⟨S3300000, .f32⟩
  | 27 => ⟨S_, .f32⟩
  | 28 => ⟨S100000, .f32⟩
  | 29 => ⟨S3300000x1, .i32⟩
  | 30 => ⟨S100000, .f32⟩
  | 31 => ⟨S_, .f32⟩
  | 32 => ⟨S100000, .f32⟩
  | 33 => ⟨S100000, .i1⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S_, .i32⟩
  | 49 => ⟨S3300000, .i32⟩
  | 50 => ⟨S3300000, .i1⟩
  | 51 => ⟨S_, .i32⟩
  | 52 => ⟨S3300000, .i32⟩
  | 53 => ⟨S3300000, .i32⟩
  | 54 => ⟨S3300000, .i32⟩
  | 55 => ⟨S3300000x1, .i32⟩
  | 56 => ⟨S3300000, .f32⟩
  | 57 => ⟨S3300000, .f32⟩
  | 58 => ⟨S_, .i32⟩
  | 59 => ⟨S3300000, .i32⟩
  | 60 => ⟨S3300000, .i1⟩
  | 61 => ⟨S_, .i32⟩
  | 62 => ⟨S3300000, .i32⟩
  | 63 => ⟨S3300000, .i32⟩
  | 64 => ⟨S3300000, .i32⟩
  | 65 => ⟨S3300000x1, .i32⟩
  | 66 => ⟨S3300000x32, .f32⟩
  | 67 => ⟨S3300000x1, .f32⟩
  | 68 => ⟨S3300000x32, .f32⟩
  | 69 => ⟨S3300000x32, .f32⟩
  | 70 => ⟨S_, .f32⟩
  | 71 => ⟨S100000x32, .f32⟩
  | 72 => ⟨S3300000x1, .i32⟩
  | 73 => ⟨S100000x32, .f32⟩
  | 74 => ⟨S1x32, .f32⟩
  | 75 => ⟨S100000x32, .f32⟩
  | 76 => ⟨S100000x32, .f32⟩
  | 77 => ⟨S_, .f32⟩
  | 78 => ⟨S100000x32, .f32⟩
  | 79 => ⟨S100000x32, .f32⟩
  | 80 => ⟨S100000x41, .f32⟩
  | 81 => ⟨S100000, .i32⟩
  | 82 => ⟨S1x3200000, .i32⟩
  | 83 => ⟨S3200000, .i32⟩
  | 84 => ⟨S3300000, .i32⟩
  | 85 => ⟨S1x3200000, .i32⟩
  | 86 => ⟨S3200000, .i32⟩
  | 87 => ⟨S3300000, .i32⟩
  | 88 => ⟨S_, .f32⟩
  | 89 => ⟨S3300000, .f32⟩
  | 90 => ⟨S_, .f32⟩
  | 91 => ⟨S100000, .f32⟩
  | 92 => ⟨S3300000x1, .i32⟩
  | 93 => ⟨S100000, .f32⟩
  | 94 => ⟨S_, .f32⟩
  | 95 => ⟨S100000, .f32⟩
  | 96 => ⟨S100000, .i1⟩
  | 97 => ⟨S100000, .f32⟩
  | 98 => ⟨S_, .f32⟩
  | 99 => ⟨S_, .f32⟩
  | 100 => ⟨S100000, .f32⟩
  | 101 => ⟨S100000, .f32⟩
  | 102 => ⟨S_, .i32⟩
  | 103 => ⟨S3300000, .i32⟩
  | 104 => ⟨S3300000, .i1⟩
  | 105 => ⟨S_, .i32⟩
  | 106 => ⟨S3300000, .i32⟩
  | 107 => ⟨S3300000, .i32⟩
  | 108 => ⟨S3300000, .i32⟩
  | 109 => ⟨S3300000x1, .i32⟩
  | 110 => ⟨S3300000, .f32⟩
  | 111 => ⟨S_, .i32⟩
  | 112 => ⟨S3300000, .i32⟩
  | 113 => ⟨S3300000, .i1⟩
  | 114 => ⟨S_, .i32⟩
  | 115 => ⟨S3300000, .i32⟩
  | 116 => ⟨S3300000, .i32⟩
  | 117 => ⟨S3300000, .i32⟩
  | 118 => ⟨S3300000x1, .i32⟩
  | 119 => ⟨S3300000, .f32⟩
  | 120 => ⟨S3300000, .f32⟩
  | 121 => ⟨S_, .i32⟩
  | 122 => ⟨S3300000, .i32⟩
  | 123 => ⟨S3300000, .i1⟩
  | 124 => ⟨S_, .i32⟩
  | 125 => ⟨S3300000, .i32⟩
  | 126 => ⟨S3300000, .i32⟩
  | 127 => ⟨S3300000, .i32⟩
  | _ => ⟨S100000, .i32⟩

abbrev hbmTy0_1 (i : Nat) : BufTy := match i % 128 with
  | 0 => ⟨S3300000x1, .i32⟩
  | 1 => ⟨S3300000x41, .f32⟩
  | 2 => ⟨S3300000x1, .f32⟩
  | 3 => ⟨S3300000x41, .f32⟩
  | 4 => ⟨S3300000x41, .f32⟩
  | 5 => ⟨S_, .f32⟩
  | 6 => ⟨S100000x41, .f32⟩
  | 7 => ⟨S3300000x1, .i32⟩
  | 8 => ⟨S100000x41, .f32⟩
  | 9 => ⟨S1x41, .f32⟩
  | 10 => ⟨S100000x41, .f32⟩
  | 11 => ⟨S100000x41, .f32⟩
  | 12 => ⟨S_, .f32⟩
  | 13 => ⟨S256x41, .f32⟩
  | 14 => ⟨S100000x1, .i32⟩
  | 15 => ⟨S256x41, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_14 : Ref sig .tc := ⟨.hbm, 98, rfl⟩
abbrev main_call2_v0 : Ref sig .tc := ⟨.hbm, 99, rfl⟩
abbrev main_call2_v1 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_c_16 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_17 : Ref sig .tc := ⟨.hbm, 111, rfl⟩
abbrev main_v78 : Ref sig .tc := ⟨.hbm, 112, rfl⟩
abbrev main_v79 : Ref sig .tc := ⟨.hbm, 113, rfl⟩
abbrev main_c_18 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_c_19 : Ref sig .tc := ⟨.hbm, 121, rfl⟩
abbrev main_v86 : Ref sig .tc := ⟨.hbm, 122, rfl⟩
abbrev main_v87 : Ref sig .tc := ⟨.hbm, 123, rfl⟩
abbrev main_c_20 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_21 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_22 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x41_0_1 : S3300000x1.BroadcastsInDim S3300000x41 (![0, 1] : Fin 2 → Fin S3300000x41.rank)
  bcast_S_S100000x41 : S_.BroadcastsInDim S100000x41 (![] : Fin 0 → Fin S100000x41.rank)
  bcast_S41_S1x41_1 : S41.BroadcastsInDim S1x41 (![1] : Fin 1 → Fin S1x41.rank)
  bcast_S1x41_S100000x41_0_1 : S1x41.BroadcastsInDim S100000x41 (![0, 1] : Fin 2 → Fin S100000x41.rank)
  bcast_S_S256x41 : S_.BroadcastsInDim S256x41 (![] : Fin 0 → Fin S256x41.rank)
  gather_S1500x16_S100000x1_S100000x16_1_0_n_n_0_1_116_wf : GatherDims.WF S1500x16 S100000x1 S100000x16 [1] [0] [] [0] [] 1 ![1, 16]
  dot_S100000x16_S16x32_S100000x32_1_0_0_1_n_n_wf : DotDims.WF S100000x16 S16x32 S100000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x41_S100000x41_1_0_0_1_n_n_wf : DotDims.WF S100000x32 S32x41 S100000x41 [1] [0] [0] [1] [] []
  gather_S100000x41_S3300000x1_S3300000x41_1_0_n_n_0_1_141_wf : GatherDims.WF S100000x41 S3300000x1 S3300000x41 [1] [0] [] [0] [] 1 ![1, 41]
  scatter_S100000x41_S3300000x1_S3300000x41_1_0_0_1_wf : ScatterDims.WF S100000x41 S3300000x1 S3300000x41 [1] [0] [0] 1
  scatter_S256x41_S100000x1_S100000x41_1_0_0_1_wf : ScatterDims.WF S256x41 S100000x1 S100000x41 [1] [0] [0] 1

variable [Facts₀]

def gather_S1500x16_S100000x1_S100000x16_1_0_n_n_0_1_116 : GatherDims S1500x16 S100000x1 S100000x16 where
  offsetDims := [1]
  collapsedSliceDims := [0]
  operandBatchingDims := []
  startIndicesBatchingDims := []
  startIndexMap := [0]
  indexVectorDim := 1
  sliceSizes := ![1, 16]
  wf := gather_S1500x16_S100000x1_S100000x16_1_0_n_n_0_1_116_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x41_S100000x41_1_0_0_1_n_n : DotDims S100000x32 S32x41 S100000x41 where
  lhsContracting := [1]
  rhsContracting := [0]
  lhsNonContracting := [0]
  rhsNonContracting := [1]
  lhsBatch := []
  rhsBatch := []
  wf := dot_S100000x32_S32x41_S100000x41_1_0_0_1_n_n_wf
def gather_S100000x41_S3300000x1_S3300000x41_1_0_n_n_0_1_141 : GatherDims S100000x41 S3300000x1 S3300000x41 where
  offsetDims := [1]
  collapsedSliceDims := [0]
  operandBatchingDims := []
  startIndicesBatchingDims := []
  startIndexMap := [0]
  indexVectorDim := 1
  sliceSizes := ![1, 41]
  wf := gather_S100000x41_S3300000x1_S3300000x41_1_0_n_n_0_1_141_wf
def scatter_S100000x41_S3300000x1_S3300000x41_1_0_0_1 : ScatterDims S100000x41 S3300000x1 S3300000x41 where
  updateWindowDims := [1]
  insertedWindowDims := [0]
  scatterDimsToOperandDims := [0]
  indexVectorDim := 1
  wf := scatter_S100000x41_S3300000x1_S3300000x41_1_0_0_1_wf
def scatter_S256x41_S100000x1_S100000x41_1_0_0_1 : ScatterDims S256x41 S100000x1 S100000x41 where
  updateWindowDims := [1]
  insertedWindowDims := [0]
  scatterDimsToOperandDims := [0]
  indexVectorDim := 1
  wf := scatter_S256x41_S100000x1_S100000x41_1_0_0_1_wf

class Facts : Prop extends Facts₀ where

variable [Facts]
-- ==== Proof.Model.lean ====
import Idealize.ShloMosaic.PureOps.Ideal
import Idealize.ShloMosaic.Lib.ValueIdx

/-!
  The two dense stages of the graph network, as plain functions on extended reals.

  A node row of the first stage: the aggregated messages are scaled by the node's inverse
  root degree, the bias is added, negative entries are cut to zero, the row is multiplied by
  the second weight matrix, and the product is scaled by the inverse root degree once more.

  The pooling stage: the 100000 nodes are split in two halves of 25 blocks of 2000 rows; for
  each half and each graph number, the rows whose graph number matches are added up.
-/

noncomputable section

open scoped BigOperators

namespace Cert.Model

open Idealize.ShloMosaic Idealize.ShloMosaic.ValueIdx

/-- A rank-2 array of extended reals. -/
abbrev Arr2 (a b : ℕ) : Type := (⟨2, ![a, b]⟩ : Shape).Idx → EReal

/-- `(relu (tmp · dinv + b) · w) · dinv`, row by row. -/
def layer (tmp : Arr2 100000 32) (dinv : Arr2 100000 1) (b : Arr2 1 32) (w : Arr2 32 41) : Arr2 100000 41 :=
  fun i => (∑ k : Fin 32, max (tmp (ix2 (i 0) k) * dinv (ix2 (i 0) 0) + b (ix2 0 k)) 0 * w (ix2 k (i 1)))
    * dinv (ix2 (i 0) 0)

/-- Row `r` of block `t` of half `c`. -/
def node (c : Fin 2) (t : Fin 25) (r : Fin 2000) : Fin 100000 :=
  ⟨(c.val * 25 + t.val) * 2000 + r.val, by have := c.isLt; have := t.isLt; have := r.isLt; omega⟩

/-- One where the graph number `g` is the word `b`, zero elsewhere. -/
def hot (b : BitVec 32) (g : Fin 256) : EReal := if BitVec.ofNat 32 g.val = b then 1 else 0

/-- The value a node contributes to its graph's pooled row: `tmp · dinv + b`. -/
def contrib (tmp : Arr2 100000 41) (dinv : Arr2 100000 1) (b : Arr2 1 41) (n : Fin 100000) (f : Fin 41) : EReal :=
  tmp (ix2 n f) * dinv (ix2 n 0) + b (ix2 0 f)

/-- The two partial pools: half `i 0`, graph `i 1`, feature `i 2`. -/
def pool (batch : (⟨2, ![100000, 1]⟩ : Shape).Idx → BitVec 32) (tmp : Arr2 100000 41) (dinv : Arr2 100000 1)
    (b : Arr2 1 41) : (⟨3, ![2, 256, 41]⟩ : Shape).Idx → EReal :=
  fun i => ∑ t : Fin 25, ∑ r : Fin 2000,
    hot (batch (ix2 (node (i 0) t r) 0)) (i 1) * contrib tmp dinv b (node (i 0) t r) (i 2)

end Cert.Model

end
-- ==== Proof.KStages.lean ====
import proofs.«406518_j76175539962263_2_alg».proof.Proof.Gen.KernelIdeal
import proofs.«406518_j76175539962263_2_alg».proof.Proof.Model
import Idealize.ShloMosaic.PureOps.Ideal
import Idealize.ShloMosaic.PureOps.Contract

/-!
  The kernel program's value, stage by stage, as functions of its eight arguments.

  Integer side: `row` and `col` are the edge list's two rows, each followed by the self loops
  0 … 99999; `wrap` is the negative-index wrap of an indexing gather; `colI` / `rowG` are the
  index columns of the scatters and of the gathers.  `deg` counts, per node, the edges that
  land on it; `dinv` is its inverse square root (0 where the count is 0).

  Float side: the embedding table times the first weight matrix, gathered per node and scaled
  by `dinv` (`pre1`); gathered along `row` and added up along `col` (`tmp1`); the dense stage
  `Model.layer` (`pre2`); gathered and added up again (`tmp2`); the two partial pools
  (`Model.pool`) and their sum (`out`).
-/

noncomputable section

namespace Cert.KernelIdeal.KStages

open Cert.KernelIdeal Cert.KernelIdeal.Gen Idealize.ShloMosaic

abbrev IArr (s : Shape) : Type := IVec s 32
abbrev FArr (s : Shape) : Type := FVec Ideal s .f32
abbrev HArr (s : Shape) : Type := FVec Ideal s .bf16

/-- The edge list's row `r` followed by the self loops. -/
def edgeRow (off : Fin 2 → ℕ) (h : S2x3200000.Slices off S1x3200000) (a1 : IArr S2x3200000) : IArr S3300000 :=
  concatenate S3300000 0 [⟨S3200000, shapeCast _ (extractStridedSlice S1x3200000 off a1 h) shapeCasts_S1x3200000_S3200000⟩,
    ⟨S100000, iotaInDim S100000 32 0⟩] concatenates_S3200000_S100000_S3300000_d0

def row (a1 : IArr S2x3200000) : IArr S3300000 := edgeRow ![0, 0] slices_S2x3200000_S1x3200000_0_0 a1
def col (a1 : IArr S2x3200000) : IArr S3300000 := edgeRow ![1, 0] slices_S2x3200000_S1x3200000_1_0 a1

/-- The index column of the scatters. -/
def colI (a1 : IArr S2x3200000) : IArr S3300000x1 :=
  broadcastInDim S3300000x1 ![0] bcast_S3300000_S3300000x1_0 (col a1)

/-- The index column of the gathers along `row`: a negative word has 100000 added. -/
def rowG (a1 : IArr S2x3200000) : IArr S3300000x1 :=
  broadcastInDim S3300000x1 ![0] bcast_S3300000_S3300000x1_0
    (select (cmpi .slt (row a1) (broadcastInDim S3300000 ![] bcast_S_S3300000 (constantI S_ 32 0#32)))
      (addi (row a1) (broadcastInDim S3300000 ![] bcast_S_S3300000 (constantI S_ 32 100000#32))) (row a1))

/-- The same wrap of `col` (the edgewise form gathers the scale along `col` too). -/
def colG (a1 : IArr S2x3200000) : IArr S3300000x1 :=
  broadcastInDim S3300000x1 ![0] bcast_S3300000_S3300000x1_0
    (select (cmpi .slt (col a1) (broadcastInDim S3300000 ![] bcast_S_S3300000 (constantI S_ 32 0#32)))
      (addi (col a1) (broadcastInDim S3300000 ![] bcast_S_S3300000 (constantI S_ 32 100000#32))) (col a1))

/-- The index column of the embedding gather: a negative word has 1500 added. -/
def idG (a0 : IArr S100000) : IArr S100000x1 :=
  broadcastInDim S100000x1 ![0] bcast_S100000_S100000x1_0
    (select (cmpi .slt a0 (broadcastInDim S100000 ![] bcast_S_S100000 (constantI S_ 32 0#32)))
      (addi a0 (broadcastInDim S100000 ![] bcast_S_S100000 (constantI S_ 32 1500#32))) a0)

def deg (a1 : IArr S2x3200000) : FArr S100000 :=
  Host.scatterAdd (F := Ideal) scatter_S100000_S3300000x1_S3300000_n_0_0_1
    (broadcastInDim S100000 ![] bcast_S_S100000 (constant (F := Ideal) S_ .f32 0x00000000#32)) (colI a1)
    (broadcastInDim S3300000 ![] bcast_S_S3300000 (constant (F := Ideal) S_ .f32 0x3F800000#32))

def dinv (a1 : IArr S2x3200000) : FArr S100000 :=
  select (cmpf (F := Ideal) .ogt (deg a1) (broadcastInDim S100000 ![] bcast_S_S100000 (constant (F := Ideal) S_ .f32 0x00000000#32)))
    (Host.rsqrt (F := Ideal) (deg a1)) (broadcastInDim S100000 ![] bcast_S_S100000 (id (constant (F := Ideal) S_ .f32 0x00000000#32)))

def dinv2 (a1 : IArr S2x3200000) : FArr S100000x1 := shapeCast _ (dinv a1) shapeCasts_S100000_S100000x1

def pre1 (a0 : IArr S100000) (a1 : IArr S2x3200000) (a3 : FArr S1500x16) (a4 : FArr S16x32) : HArr S100000x32 :=
  truncf (F := Ideal) .bf16 (mulf (F := Ideal)
    (Host.gather gather_S1500x32_S100000x1_S100000x32_1_0_n_n_0_1_132
      (Host.dotGeneral (F := Ideal) dot_S1500x16_S16x32_S1500x32_1_0_0_1_n_n none a3 a4) (idG a0))
    (broadcastInDim S100000x32 ![0, 1] bcast_S100000x1_S100000x32_0_1 (dinv2 a1))) bitsLt_bf16_f32

def tmp1 (a0 : IArr S100000) (a1 : IArr S2x3200000) (a3 : FArr S1500x16) (a4 : FArr S16x32) : FArr S100000x32 :=
  Host.scatterAdd (F := Ideal) scatter_S100000x32_S3300000x1_S3300000x32_1_0_0_1
    (broadcastInDim S100000x32 ![] bcast_S_S100000x32 (constant (F := Ideal) S_ .f32 0x00000000#32)) (colI a1)
    (extf (F := Ideal) .f32 (Host.gather gather_S100000x32_S3300000x1_S3300000x32_1_0_n_n_0_1_132 (pre1 a0 a1 a3 a4) (rowG a1))
      bitsLt_bf16_f32)

def pre2 (a0 : IArr S100000) (a1 : IArr S2x3200000) (a3 : FArr S1500x16) (a4 : FArr S16x32) (a5 : FArr S32)
    (a6 : FArr S32x41) : HArr S100000x41 :=
  Cert.Model.layer (tmp1 a0 a1 a3 a4) (dinv2 a1) (shapeCast _ a5 shapeCasts_S32_S1x32)
    (truncf (F := Ideal) .bf16 a6 bitsLt_bf16_f32)

def tmp2 (a0 : IArr S100000) (a1 : IArr S2x3200000) (a3 : FArr S1500x16) (a4 : FArr S16x32) (a5 : FArr S32)
    (a6 : FArr S32x41) : FArr S100000x41 :=
  Host.scatterAdd (F := Ideal) scatter_S100000x41_S3300000x1_S3300000x41_1_0_0_1
    (broadcastInDim S100000x41 ![] bcast_S_S100000x41 (constant (F := Ideal) S_ .f32 0x00000000#32)) (colI a1)
    (extf (F := Ideal) .f32 (Host.gather gather_S100000x41_S3300000x1_S3300000x41_1_0_n_n_0_1_141 (pre2 a0 a1 a3 a4 a5 a6) (rowG a1))
      bitsLt_bf16_f32)

def part (a0 : IArr S100000) (a1 : IArr S2x3200000) (a2 : IArr S100000) (a3 : FArr S1500x16) (a4 : FArr S16x32)
    (a5 : FArr S32) (a6 : FArr S32x41) (a7 : FArr S41) : FArr S2x256x41 :=
  Cert.Model.pool (shapeCast _ a2 shapeCasts_S100000_S100000x1) (tmp2 a0 a1 a3 a4 a5 a6) (dinv2 a1)
    (shapeCast _ a7 shapeCasts_S41_S1x41)

/-- The kernel program's result. -/
def out (a0 : IArr S100000) (a1 : IArr S2x3200000) (a2 : IArr S100000) (a3 : FArr S1500x16) (a4 : FArr S16x32)
    (a5 : FArr S32) (a6 : FArr S32x41) (a7 : FArr S41) : FArr S256x41 :=
  Host.reduceAdd (F := Ideal) (part a0 a1 a2 a3 a4 a5 a6 a7) (constant (F := Ideal) S_ .f32 0x00000000#32) reducesTo_S2x256x41_S256x41_d0 h_S_

end Cert.KernelIdeal.KStages

end
-- ==== Proof.K1Value.lean ====
import proofs.«406518_j76175539962263_2_alg».proof.Proof.Gen.KernelIdeal.Frame
import proofs.«406518_j76175539962263_2_alg».proof.Proof.Model
import Idealize.ShloMosaic.Lib.ValueIdx
import Idealize.ShloMosaic.Lib.Pipeline.Value
import Idealize.ShloMosaic.PureOps.Ideal.Laws

/-!
  The first dense stage of the graph network, as the array the first row-blocked region leaves behind.

  The region walks 50 blocks of 2000 node rows. At each block it scales the rows of aggregated messages by the
  nodes' inverse root degrees, adds the bias row, cuts negative entries to zero, multiplies by the second weight
  matrix and scales by the inverse root degrees once more. Here: the stored block entry by entry (the matrix product
  as a sum over the 32 shared coordinates), each loaded block as rows of its array, the stored block as a block row of
  `Cert.Model.layer`, and, the 50 blocks tiling the 100000 rows, the whole output array as `Cert.Model.layer` of the
  arrays the region finds.
-/

set_option maxRecDepth 16384

noncomputable section

open scoped BigOperators

namespace Cert.KernelIdeal.K1

open Cert.KernelIdeal Cert.KernelIdeal.Gen Idealize.ShloMosaic Idealize.ShloMosaic.TcCoe Idealize.SL.Sem
open Idealize.ShloMosaic.ValueIdx
open Idealize.ShloMosaic.Pipeline (Dat)

/-! ## The matrix product's index maps -/

theorem lhs_axis0 (i : S2000x41.Idx) (q : dot_S2000x32_S32x41_S2000x41_1_0_0_1_n_n.contr.Idx) :
    (dot_S2000x32_S32x41_S2000x41_1_0_0_1_n_n.lhsIdx i q 0).val = (i 0).val := by
  unfold DotDims.lhsIdx
  rw [dif_neg (show ¬(0 : Fin S2000x32.rank) ∈ dot_S2000x32_S32x41_S2000x41_1_0_0_1_n_n.lhsBatch by decide), dif_pos (show (0 : Fin S2000x32.rank) ∈ dot_S2000x32_S32x41_S2000x41_1_0_0_1_n_n.lhsNonContracting by decide)]
  rfl
theorem lhs_axis1 (i : S2000x41.Idx) (q : dot_S2000x32_S32x41_S2000x41_1_0_0_1_n_n.contr.Idx) :
    (dot_S2000x32_S32x41_S2000x41_1_0_0_1_n_n.lhsIdx i q 1).val = (q ⟨0, by decide⟩).val :=
  dot_S2000x32_S32x41_S2000x41_1_0_0_1_n_n.lhsIdx_val_of_single rfl i q
theorem rhs_axis0 (i : S2000x41.Idx) (q : dot_S2000x32_S32x41_S2000x41_1_0_0_1_n_n.contr.Idx) :
    (dot_S2000x32_S32x41_S2000x41_1_0_0_1_n_n.rhsIdx i q 0).val = (q ⟨0, by decide⟩).val :=
  dot_S2000x32_S32x41_S2000x41_1_0_0_1_n_n.rhsIdx_val_of_single rfl i q
theorem rhs_axis1 (i : S2000x41.Idx) (q : dot_S2000x32_S32x41_S2000x41_1_0_0_1_n_n.contr.Idx) :
    (dot_S2000x32_S32x41_S2000x41_1_0_0_1_n_n.rhsIdx i q 1).val = (i 1).val := by
  unfold DotDims.rhsIdx
  rw [dif_neg (show ¬(1 : Fin S32x41.rank) ∈ dot_S2000x32_S32x41_S2000x41_1_0_0_1_n_n.rhsBatch by decide), dif_pos (show (1 : Fin S32x41.rank) ∈ dot_S2000x32_S32x41_S2000x41_1_0_0_1_n_n.rhsNonContracting by decide)]
  rfl

/-- The product of a block of rows with the weight matrix, into the zero accumulator, entry by entry:
    the sum over the 32 shared coordinates. -/
theorem matmul_rows_apply (l : FVec Ideal S2000x32 .bf16) (r : FVec Ideal S32x41 .bf16) (p : Fin 2000) (q : Fin 41) :
    matmul (F := Ideal) dot_S2000x32_S32x41_S2000x41_1_0_0_1_n_n none l r (constant (F := Ideal) S2000x41 .f32 0x00000000#32) (ix2 p q)
      = ∑ k : Fin 32, l (ix2 p k) * r (ix2 k q) := by
  show FloatOps.matmul dot_S2000x32_S32x41_S2000x41_1_0_0_1_n_n none l r (constant (F := Ideal) S2000x41 .f32 0x00000000#32) (ix2 p q) = _
  rw [Ideal.matmul_constant_zero_apply, ← Equiv.sum_comp (ValueIdx.contrEquiv1 dot_S2000x32_S32x41_S2000x41_1_0_0_1_n_n 32 rfl rfl).symm]
  refine Finset.sum_congr rfl fun k _ => ?_
  have hk := ValueIdx.contrEquiv1_symm_val dot_S2000x32_S32x41_S2000x41_1_0_0_1_n_n 32 rfl rfl k
  have el : dot_S2000x32_S32x41_S2000x41_1_0_0_1_n_n.lhsIdx (ix2 p q) ((ValueIdx.contrEquiv1 dot_S2000x32_S32x41_S2000x41_1_0_0_1_n_n 32 rfl rfl).symm k) = ix2 p k := funext fun a => Fin.ext (by
    match a with
    | ⟨0, _⟩ => exact lhs_axis0 _ _
    | ⟨1, _⟩ => exact (lhs_axis1 _ _).trans hk)
  have er : dot_S2000x32_S32x41_S2000x41_1_0_0_1_n_n.rhsIdx (ix2 p q) ((ValueIdx.contrEquiv1 dot_S2000x32_S32x41_S2000x41_1_0_0_1_n_n 32 rfl rfl).symm k) = ix2 k q := funext fun a => Fin.ext (by
    match a with
    | ⟨0, _⟩ => exact (rhs_axis0 _ _).trans hk
    | ⟨1, _⟩ => exact rhs_axis1 _ _)
  rw [el, er]

/-! ## The layout operations at an index -/

/-- A column of 2000 entries spread over 32 columns reads its row's entry. -/
theorem spread_col32 (x : FVec Ideal S2000x1 .f32) (p : Fin 2000) (k : Fin 32) :
    broadcastTo S2000x32 x broadcasts_S2000x1_S2000x32 (ix2 p k) = x (ix2 p 0) := by
  refine broadcastTo_apply x _ (ix2 p k) (ix2 p 0) fun a => ?_
  match a with
  | ⟨0, _⟩ => rfl
  | ⟨1, _⟩ => rfl

/-- A column of 2000 entries spread over 41 columns reads its row's entry. -/
theorem spread_col41 (x : FVec Ideal S2000x1 .f32) (p : Fin 2000) (q : Fin 41) :
    broadcastTo S2000x41 x broadcasts_S2000x1_S2000x41 (ix2 p q) = x (ix2 p 0) := by
  refine broadcastTo_apply x _ (ix2 p q) (ix2 p 0) fun a => ?_
  match a with
  | ⟨0, _⟩ => rfl
  | ⟨1, _⟩ => rfl

/-- A row of 32 entries spread over 2000 rows reads its column's entry. -/
theorem spread_row32 (x : FVec Ideal S1x32 .f32) (p : Fin 2000) (k : Fin 32) :
    broadcastTo S2000x32 x broadcasts_S1x32_S2000x32 (ix2 p k) = x (ix2 0 k) := by
  refine broadcastTo_apply x _ (ix2 p k) (ix2 0 k) fun a => ?_
  match a with
  | ⟨0, _⟩ => rfl
  | ⟨1, _⟩ => rfl

/-! ## What the body stores, entry by entry -/

/-- The stored block at row `p`, column `q`: the row scaled by its node's factor, shifted by the bias, cut at
    zero, multiplied by the weight matrix, and scaled by the node's factor again. -/
theorem stored_apply (x0 : Vec Ideal S2000x32 .f32) (x1 : Vec Ideal S2000x1 .f32) (x2 : Vec Ideal S1x32 .f32)
    (x3 : Vec Ideal S32x41 .bf16) (p : Fin 2000) (q : Fin 41) :
    k0_pay1 (F := Ideal) x0 x1 x2 x3 x1 (ix2 p q)
      = (∑ k : Fin 32, max (x0 (ix2 p k) * x1 (ix2 p 0) + x2 (ix2 0 k)) 0 * x3 (ix2 k q)) * x1 (ix2 p 0) := by
  unfold k0_pay1
  simp only [shapeCast_self]
  rw [truncf_apply, mulf_apply, spread_col41, matmul_rows_apply]
  refine congrArg (· * x1 (ix2 p 0)) (Finset.sum_congr rfl fun k _ => ?_)
  rw [truncf_apply, maximumf_apply, addf_apply, mulf_apply, spread_col32, spread_row32, broadcast_apply]
  show max _ (Ideal.ofBits .f32 0x00000000#32) * _ = _
  rw [Ideal.ofBits_zero_f32]

/-- The stored block's entry, when the loaded blocks are the arrays' entries of array row `r`: the first dense stage
    at row `r`, column `q`. -/
theorem stored_is_layer (A0 : Cert.Model.Arr2 100000 32) (A1 : Cert.Model.Arr2 100000 1) (A2 : Cert.Model.Arr2 1 32)
    (A3 : Cert.Model.Arr2 32 41)
    (x0 : Vec Ideal S2000x32 .f32) (x1 : Vec Ideal S2000x1 .f32) (x2 : Vec Ideal S1x32 .f32) (x3 : Vec Ideal S32x41 .bf16)
    (p : Fin 2000) (q : Fin 41) (r : Fin 100000)
    (h0 : ∀ k : Fin 32, x0 (ix2 p k) = A0 (ix2 r k)) (h1 : x1 (ix2 p 0) = A1 (ix2 r 0))
    (h2 : ∀ k : Fin 32, x2 (ix2 0 k) = A2 (ix2 0 k)) (h3 : ∀ k : Fin 32, x3 (ix2 k q) = A3 (ix2 k q)) :
    k0_pay1 (F := Ideal) x0 x1 x2 x3 x1 (ix2 p q) = Cert.Model.layer A0 A1 A2 A3 (ix2 r q) := by
  rw [stored_apply]
  show _ = (∑ k : Fin 32, max (A0 (ix2 r k) * A1 (ix2 r 0) + A2 (ix2 0 k)) 0 * A3 (ix2 k q)) * A1 (ix2 r 0)
  rw [h1]
  refine congrArg (· * A1 (ix2 r 0)) (Finset.sum_congr rfl fun k _ => ?_)
  rw [h0, h2, h3]

/-! ## The blocks of the arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at grid point `t`: the three row-blocked arrays at block row `t`, the bias row and
    the weight matrix whole. -/
theorem block_places : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The message block at point `t` is rows `2000 t … 2000 t + 1999` of the message array. -/
theorem messages_block (c : Dev nD) (t : Fin cfg0.N) (p : Fin 2000) (k : Fin 32) (r : Fin 100000)
    (hr : r.val = t.val * 2000 + p.val) :
    (iblk0 (F := Ideal) V c 0 t : Vec Ideal S2000x32 .f32) (ix2 p k) = (V c main_v38 : Vec Ideal S100000x32 .f32) (ix2 r k) := by
  obtain ⟨e0, e1, -⟩ := block_places t
  unfold iblk0
  rw [View.read_apply]
  show (V c main_v38 : Vec Ideal S100000x32 .f32) _ = _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 32 + 1 * k.val = k.val; rw [e1]; omega

/-- The factor block at point `t` is rows `2000 t … 2000 t + 1999` of the factor column. -/
theorem factors_block (c : Dev nD) (t : Fin cfg0.N) (p : Fin 2000) (r : Fin 100000)
    (hr : r.val = t.val * 2000 + p.val) :
    (iblk0 (F := Ideal) V c 1 t : Vec Ideal S2000x1 .f32) (ix2 p 0) = (V c main_v16 : Vec Ideal S100000x1 .f32) (ix2 r 0) := by
  obtain ⟨-, -, e2, e3, -⟩ := block_places t
  unfold iblk0
  rw [View.read_apply]
  show (V c main_v16 : Vec Ideal S100000x1 .f32) _ = _
  congr 1
  funext a
  apply Fin.ext
  match a with
  | ⟨0, _⟩ => show win0_1.index t (0 : Fin 2) * 2000 + 1 * p.val = r.val; rw [e2, hr]; omega
  | ⟨1, _⟩ => show win0_1.index t (1 : Fin 2) * 1 + 1 * 0 = 0; rw [e3]

/-- The bias block at every point is the whole bias row. -/
theorem bias_block (c : Dev nD) (t : Fin cfg0.N) (k : Fin 32) :
    (iblk0 (F := Ideal) V c 2 t : Vec Ideal S1x32 .f32) (ix2 0 k) = (V c main_v39 : Vec Ideal S1x32 .f32) (ix2 0 k) := by
  obtain ⟨-, -, -, -, e4, e5, -⟩ := block_places t
  unfold iblk0
  rw [View.read_apply]
  show (V c main_v39 : Vec Ideal S1x32 .f32) _ = _
  congr 1
  funext a
  apply Fin.ext
  match a with
  | ⟨0, _⟩ => show win0_2.index t (0 : Fin 2) * 1 + 1 * 0 = 0; rw [e4]
  | ⟨1, _⟩ => show win0_2.index t (1 : Fin 2) * 32 + 1 * k.val = k.val; rw [e5]; omega

/-- The weight block at every point is the whole weight matrix. -/
theorem weights_block (c : Dev nD) (t : Fin cfg0.N) (k : Fin 32) (q : Fin 41) :
    (iblk0 (F := Ideal) V c 3 t : Vec Ideal S32x41 .bf16) (ix2 k q) = (V c main_v40 : Vec Ideal S32x41 .bf16) (ix2 k q) := by
  obtain ⟨-, -, -, -, -, -, e6, e7, -⟩ := block_places t
  unfold iblk0
  rw [View.read_apply]
  show (V c main_v40 : Vec Ideal S32x41 .bf16) _ = _
  congr 1
  funext a
  apply Fin.ext
  match a with
  | ⟨0, _⟩ => show win0_3.index t (0 : Fin 2) * 32 + 1 * k.val = k.val; rw [e6]; omega
  | ⟨1, _⟩ => show win0_3.index t (1 : Fin 2) * 41 + 1 * q.val = q.val; rw [e7]; omega

/-! ## What one grid point writes back -/

/-- At grid point `t` the stored block is block row `t` of the first dense stage of the arrays the region finds. -/
theorem written_block (c : Dev nD) (t : Fin cfg0.N) :
    (dat0 (F := Ideal) V c).flushed 4 t
      = ((cfg0.win 4).blk t).view.read (Elt Ideal)
          (Cert.Model.layer (V c main_v38) (V c main_v16) (V c main_v39) (V c main_v40)) := by
  show (cfg0.win 4).cut (grid0.coords t) ((dat0 V c).after 4 t) = _
  rw [after0_4]
  unfold out0_4
  rw [View.canon_unit_zero zero_offsets]
  simp only [View.ld_unit_zero (S := S2000x32) zero_offsets, View.ld_unit_zero (S := S2000x1) zero_offsets,
    View.ld_unit_zero (S := S1x32) zero_offsets, View.ld_unit_zero (S := S32x41) zero_offsets]
  obtain ⟨-, -, -, -, -, -, -, -, e8, e9⟩ := block_places t
  funext j
  obtain ⟨p, q, rfl⟩ : ∃ (p : Fin 2000) (q : Fin 41), j = ix2 p q := ⟨j 0, j 1, eq_ix2 j⟩
  have ht : t.val < 50 := lt_of_lt_of_eq t.isLt N_0
  have hr : t.val * 2000 + p.val < 100000 := by have := p.isLt; omega
  have hj : ((cfg0.win 4).blk t).view.emb (ix2 p q) = (ix2 (⟨t.val * 2000 + p.val, hr⟩ : Fin 100000) q : S100000x41.Idx) := by
    funext a
    apply Fin.ext
    match a with
    | ⟨0, _⟩ => show win0_4.index t (0 : Fin 2) * 2000 + 1 * p.val = t.val * 2000 + p.val; rw [e8]; omega
    | ⟨1, _⟩ => show win0_4.index t (1 : Fin 2) * 41 + 1 * q.val = q.val; rw [e9]; omega
  show k0_pay1 (F := Ideal) (iblk0 V c 0 t) (iblk0 V c 1 t) (iblk0 V c 2 t) (iblk0 V c 3 t) (iblk0 V c 1 t) (ix2 p q)
      = Cert.Model.layer (V c main_v38) (V c main_v16) (V c main_v39) (V c main_v40) (((cfg0.win 4).blk t).view.emb (ix2 p q))
  rw [hj]
  exact stored_is_layer (V c main_v38) (V c main_v16) (V c main_v39) (V c main_v40)
    (iblk0 V c 0 t) (iblk0 V c 1 t) (iblk0 V c 2 t) (iblk0 V c 3 t) p q ⟨t.val * 2000 + p.val, hr⟩
    (fun k => messages_block V c t p k ⟨t.val * 2000 + p.val, hr⟩ rfl)
    (factors_block V c t p ⟨t.val * 2000 + p.val, hr⟩ rfl)
    (fun k => bias_block V c t k)
    (fun k => weights_block V c t k q)
/-! ## From the blocks to the array -/

/-- An index of the output array is in point `t`'s block iff each coordinate is in the block's range on its axis. -/
theorem mem_block (t : Fin cfg0.N) (i : S100000x41.Idx) :
    i ∈ ((cfg0.win 4).blk t).view.set ↔ ∀ a : Fin 2, win0_4.index t a * S2000x41.size a ≤ (i a).val ∧ (i a).val < win0_4.index t a * S2000x41.size a + S2000x41.size a := by
  show i ∈ ((View.whole main_v41).slice (win0_4.rect t)).set ↔ _
  rw [View.set_slice_whole, Rect.mem_set_unit]
  exact Iff.rfl

/-- Row `r` of the output array lies in the block of grid point `r / 2000`. -/
theorem rows_covered (i : S100000x41.Idx) :
    ∃ t : Fin cfg0.N, (cfg0.win 4).flush t = true ∧ i ∈ ((cfg0.win 4).blk t).view.set := by
  have hi0 : (i 0).val < 100000 := (i 0).isLt
  have hi1 : (i 1).val < 41 := (i 1).isLt
  have hN : cfg0.N = 50 := N_0
  have hlt : (i 0).val / 2000 < cfg0.N := by rw [hN]; omega
  obtain ⟨-, -, -, -, -, -, -, -, e8, e9⟩ := block_places ⟨(i 0).val / 2000, hlt⟩
  refine ⟨⟨(i 0).val / 2000, hlt⟩, flush0_4 _, ?_⟩
  rw [mem_block]
  intro a
  match a with
  | ⟨0, _⟩ =>
    show win0_4.index ⟨(i 0).val / 2000, hlt⟩ (0 : Fin 2) * 2000 ≤ (i 0).val ∧ (i 0).val < win0_4.index ⟨(i 0).val / 2000, hlt⟩ (0 : Fin 2) * 2000 + 2000
    rw [e8]; show (i 0).val / 2000 * 2000 ≤ (i 0).val ∧ (i 0).val < (i 0).val / 2000 * 2000 + 2000; omega
  | ⟨1, _⟩ =>
    show win0_4.index ⟨(i 0).val / 2000, hlt⟩ (1 : Fin 2) * 41 ≤ (i 1).val ∧ (i 1).val < win0_4.index ⟨(i 0).val / 2000, hlt⟩ (1 : Fin 2) * 41 + 41
    rw [e9]; omega

/-- THE OUTPUT ARRAY after the region: the first dense stage of the arrays the region finds, every row. -/
theorem region0_value (c : Dev nD) :
    (dat0 (F := Ideal) V c).arrAt 4 cfg0.N
      = Cert.Model.layer (V c main_v38) (V c main_v16) (V c main_v39) (V c main_v40) :=
  (dat0 (F := Ideal) V c).arrAt_eq_of_cover 4 (Cert.Model.layer (V c main_v38) (V c main_v16) (V c main_v39) (V c main_v40))
    (fun t _ => written_block V c t) rows_covered

end Cert.KernelIdeal.K1

end
-- ==== Proof.K2Value.lean ====
import proofs.«406518_j76175539962263_2_alg».proof.Proof.Gen.KernelIdeal.Frame
import proofs.«406518_j76175539962263_2_alg».proof.Proof.Model
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-!
  What the pooling region leaves in its output array.

  The region walks a grid of 2 × 25 points; point `t = 25 h + s` reads rows `2000 t … 2000 t + 1999` of the graph
  numbers, of the aggregated node rows and of the inverse root degrees, and the bias row. The output array has one
  [256, 41] block per half `h`, kept in place over the 25 points of the half and written back after the last.

  At the first point of a half the block is set to zero and then updated; at every other point it is only updated.
  The update adds, to entry `(g, f)`, the product of the transposed one-hot matrix of the block's graph numbers with
  the block's rows scaled by the inverse root degree and shifted by the bias: over the extended reals this is the sum
  over the block's rows of (one if the row's graph number is `g`, else zero) times (row entry `f` · inverse root
  degree + bias entry `f`). A product into a zero accumulator is the bare sum, and `0 + x = x`, so after point
  `25 h + s` the block holds the sum of the terms of blocks `0 … s` of half `h` (induction on the point), and after
  the last point of the half the sum over all 25 blocks: the half's partial pool. The two halves' blocks tile the
  array, so the array ends holding the two partial pools.
-/

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.K2

open Cert.KernelIdeal Cert.KernelIdeal.Gen

variable {F : FTy → Type} [FloatOps F]

/-- The zero offsets of a rank-3 block, as a constant function. -/
theorem hz3 : (![0, 0, 0] : Fin 3 → Nat) = fun _ => 0 := funext fun a => by fin_cases a <;> rfl
/-- The zero offsets of a rank-2 block, as a constant function. -/
theorem hz2 : (![0, 0] : Fin 2 → Nat) = fun _ => 0 := funext fun a => by fin_cases a <;> rfl

/-! ## What each kind of point leaves in the output block, as one term over the blocks it read -/

/-- A point that only accumulates leaves, in the output block holding `xo`, the update of `xo` by the point's
    input blocks. -/
theorem out_B (c : Dev nD) (i : grid1.Coords) (a2 : Memref sig .tc .vmem S2000x1 .i32) (h2 : a2.IsWhole)
    (a3 : Memref sig .tc .vmem S2000x41 .f32) (h3 : a3.IsWhole) (a4 : Memref sig .tc .vmem S2000x1 .f32) (h4 : a4.IsWhole)
    (a5 : Memref sig .tc .vmem S1x41 .f32) (h5 : a5.IsWhole) (a6 : Memref sig .tc .vmem S1x256x41 .f32) (h6 : a6.IsWhole)
    (hc : ¬cond1_0 i) (x0 : Vec F S2000x1 .i32) (x1 : Vec F S2000x41 .f32) (x2 : Vec F S2000x1 .f32) (x3 : Vec F S1x41 .f32)
    (xo : Vec F S1x256x41 .f32) :
    out1_B_4 c i a2 h2 a3 h3 a4 h4 a5 h5 a6 h6 hc x0 x1 x2 x3 xo = k1_pay2 x0 x1 x2 x3 xo := by
  unfold out1_B_4
  rw [View.read_writes_eq_canon _ _ _ (cover1_B_4 c i a2 h2 a3 h3 a4 h4 a5 h5 a6 h6 hc x0 x1 x2 x3 xo)]
  unfold kernelRun1_B
  dsimp only
  sl_unfold_words
  rw [View.canon_unit_zero hz3]
  simp only [View.readAt_eq_ld, h2.read_unread, h3.read_unread, h4.read_unread, h5.read_unread, h6.read_unread,
    View.ld_unit_zero (S := S2000x1) hz2, View.ld_unit_zero (S := S2000x41) hz2, View.ld_unit_zero (S := S1x41) hz2,
    View.ld_unit_zero (S := S1x256x41) hz3]

/-- A first point of a half stores the zero block, reads it back, and leaves the update of the zero block by the
    point's input blocks. -/
theorem out_A (c : Dev nD) (i : grid1.Coords) (a2 : Memref sig .tc .vmem S2000x1 .i32) (h2 : a2.IsWhole)
    (a3 : Memref sig .tc .vmem S2000x41 .f32) (h3 : a3.IsWhole) (a4 : Memref sig .tc .vmem S2000x1 .f32) (h4 : a4.IsWhole)
    (a5 : Memref sig .tc .vmem S1x41 .f32) (h5 : a5.IsWhole) (a6 : Memref sig .tc .vmem S1x256x41 .f32) (h6 : a6.IsWhole)
    (hc : cond1_0 i) (x0 : Vec F S2000x1 .i32) (x1 : Vec F S2000x41 .f32) (x2 : Vec F S2000x1 .f32) (x3 : Vec F S1x41 .f32) :
    out1_A_4 c i a2 h2 a3 h3 a4 h4 a5 h5 a6 h6 hc x0 x1 x2 x3 = k1_pay2 x0 x1 x2 x3 (k1_pay1 (F := F)) := by
  unfold out1_A_4
  rw [View.read_writes_eq_canon _ _ _ (cover1_A_4 c i a2 h2 a3 h3 a4 h4 a5 h5 a6 h6 hc x0 x1 x2 x3)]
  unfold kernelRun1_A
  dsimp only
  sl_unfold_words
  rw [View.canon_cons_unit_zero (S := S1x256x41) hz3, View.readCov_unit_zero (S := S1x256x41) _ hz3]
  simp only [View.readAt_eq_ld, h2.read_unread, h3.read_unread, h4.read_unread, h5.read_unread,
    View.ld_unit_zero (S := S2000x1) hz2, View.ld_unit_zero (S := S2000x41) hz2, View.ld_unit_zero (S := S1x41) hz2]

/-! ## The update at an index, over the extended reals -/

/-- A column broadcast over many columns reads the column's row. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The zero block at an index. -/
theorem pay1_apply (g : Fin 256) (f : Fin 41) : (k1_pay1 (F := Ideal)) (ix3 (0 : Fin 1) g f) = 0 := by
  unfold k1_pay1
  refine (shapeCast_ab_1ab_apply _ _ (0 : Fin 1) g f).trans ?_
  show Ideal.ofBits .f32 0x00000000#32 = 0
  exact Ideal.ofBits_zero_f32

/-- The word a comparison for equality leaves, widened and read as a number, is one where the two words agree and
    zero where they do not. -/
theorem hot_word (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · have e : IntOp.cmpi .eq a b = 1#1 := by simp [IntOp.cmpi, h]
    rw [if_pos h, e]
    have : ((1#1 : BitVec 1).setWidth 32).toInt = 1 := by decide
    rw [this]; norm_num
  · have hb : (a == b) = false := beq_eq_false_iff_ne.mpr h
    have e : IntOp.cmpi .eq a b = 0#1 := by simp [IntOp.cmpi, hb]
    rw [if_neg h, e]
    have : ((0#1 : BitVec 1).setWidth 32).toInt = 0 := by decide
    rw [this]; norm_num

/-- The operand indices of the product that contracts axis 0 of both operands, axis by axis: the contracted axis reads
    the contraction position, the other axis the result's coordinate. -/
theorem lhs_pool_0 (j : S256x41.Idx) (q : dot_S2000x256_S2000x41_S256x41_0_0_1_1_n_n.contr.Idx) :
    (dot_S2000x256_S2000x41_S256x41_0_0_1_1_n_n.lhsIdx j q 0).val = (q ⟨0, by decide⟩).val :=
  dot_S2000x256_S2000x41_S256x41_0_0_1_1_n_n.lhsIdx_val_of_single rfl j q
theorem lhs_pool_1 (j : S256x41.Idx) (q : dot_S2000x256_S2000x41_S256x41_0_0_1_1_n_n.contr.Idx) :
    (dot_S2000x256_S2000x41_S256x41_0_0_1_1_n_n.lhsIdx j q 1).val = (j 0).val := by
  unfold DotDims.lhsIdx
  rw [dif_neg (show ¬(1 : Fin S2000x256.rank) ∈ dot_S2000x256_S2000x41_S256x41_0_0_1_1_n_n.lhsBatch by decide), dif_pos (show (1 : Fin S2000x256.rank) ∈ dot_S2000x256_S2000x41_S256x41_0_0_1_1_n_n.lhsNonContracting by decide)]
  rfl
theorem rhs_pool_0 (j : S256x41.Idx) (q : dot_S2000x256_S2000x41_S256x41_0_0_1_1_n_n.contr.Idx) :
    (dot_S2000x256_S2000x41_S256x41_0_0_1_1_n_n.rhsIdx j q 0).val = (q ⟨0, by decide⟩).val :=
  dot_S2000x256_S2000x41_S256x41_0_0_1_1_n_n.rhsIdx_val_of_single rfl j q
theorem rhs_pool_1 (j : S256x41.Idx) (q : dot_S2000x256_S2000x41_S256x41_0_0_1_1_n_n.contr.Idx) :
    (dot_S2000x256_S2000x41_S256x41_0_0_1_1_n_n.rhsIdx j q 1).val = (j 1).val := by
  unfold DotDims.rhsIdx
  rw [dif_neg (show ¬(1 : Fin S2000x41.rank) ∈ dot_S2000x256_S2000x41_S256x41_0_0_1_1_n_n.rhsBatch by decide), dif_pos (show (1 : Fin S2000x41.rank) ∈ dot_S2000x256_S2000x41_S256x41_0_0_1_1_n_n.rhsNonContracting by decide)]
  rfl

/-- The product that contracts the 2000 rows of both operands, into the zero block: entry `(g, f)` is the sum over the
    rows of the left operand's column `g` times the right operand's column `f`. -/
theorem pool_matmul_apply (l : FVec Ideal S2000x256 .bf16) (r : FVec Ideal S2000x41 .bf16) (g : Fin 256) (f : Fin 41) :
    matmul dot_S2000x256_S2000x41_S256x41_0_0_1_1_n_n none l r (constant S256x41 .f32 0x00000000#32) (ix2 g f)
      = ∑ k : Fin 2000, l (ix2 k g) * r (ix2 k f) := by
  simp only [matmul]
  rw [Ideal.matmul_constant_zero_apply, ← Equiv.sum_comp (contrEquiv1 dot_S2000x256_S2000x41_S256x41_0_0_1_1_n_n 2000 rfl rfl).symm]
  refine Finset.sum_congr rfl fun k _ => ?_
  have hk := contrEquiv1_symm_val dot_S2000x256_S2000x41_S256x41_0_0_1_1_n_n 2000 rfl rfl k
  have el : dot_S2000x256_S2000x41_S256x41_0_0_1_1_n_n.lhsIdx (ix2 g f) ((contrEquiv1 dot_S2000x256_S2000x41_S256x41_0_0_1_1_n_n 2000 rfl rfl).symm k) = ix2 k g := funext fun a => Fin.ext (by
    match a with
    | ⟨0, _⟩ => exact (lhs_pool_0 _ _).trans hk
    | ⟨1, _⟩ => exact lhs_pool_1 _ _)
  have er : dot_S2000x256_S2000x41_S256x41_0_0_1_1_n_n.rhsIdx (ix2 g f) ((contrEquiv1 dot_S2000x256_S2000x41_S256x41_0_0_1_1_n_n 2000 rfl rfl).symm k) = ix2 k f := funext fun a => Fin.ext (by
    match a with
    | ⟨0, _⟩ => exact (rhs_pool_0 _ _).trans hk
    | ⟨1, _⟩ => exact rhs_pool_1 _ _)
  rw [el, er]

/-- The update at entry `(g, f)`: the old entry plus, over the block's 2000 rows, one-or-zero (does the row's graph
    number equal `g`) times the row's scaled and shifted entry `f`. -/
theorem pay2_apply (x0 : Vec Ideal S2000x1 .i32) (x1 : Vec Ideal S2000x41 .f32) (x2 : Vec Ideal S2000x1 .f32)
    (x3 : Vec Ideal S1x41 .f32) (xo : Vec Ideal S1x256x41 .f32) (g : Fin 256) (f : Fin 41) :
    k1_pay2 (F := Ideal) x0 x1 x2 x3 xo (ix3 (0 : Fin 1) g f)
      = xo (ix3 (0 : Fin 1) g f) + ∑ r : Fin 2000, Cert.Model.hot (x0 (ix2 r (0 : Fin 1))) g
          * (x1 (ix2 r f) * x2 (ix2 r (0 : Fin 1)) + x3 (ix2 (0 : Fin 1) f)) := by
  unfold k1_pay2
  refine (shapeCast_ab_1ab_apply _ _ (0 : Fin 1) g f).trans ?_
  refine congrArg₂ (fun a b : EReal => a + b) (shapeCast_1ab_ab_apply xo _ g f) ?_
  refine (pool_matmul_apply _ _ g f).trans ?_
  refine Finset.sum_congr rfl fun k _ => ?_
  refine congrArg₂ (fun a b : EReal => a * b) ?_ ?_
  · have e1 : iota .tc S2000x256 32 [1] iota_S2000x256_d1_w32 (ix2 k g) = BitVec.ofNat 32 g.val :=
      iota_single_apply .tc S2000x256 32 1 iota_S2000x256_d1_w32 (ix2 k g)
    have e2 : broadcastTo S2000x256 (shapeCast S2000x1 x0 shapeCasts_S2000x1_S2000x1) broadcasts_S2000x1_S2000x256 (ix2 k g)
        = x0 (ix2 k (0 : Fin 1)) :=
      (broadcastTo_a1_ab_apply _ _ k g).trans (congrFun (shapeCast_self x0 _) _)
    exact (congrArg₂ (fun a b => (FloatOps.sitofp (F := Ideal) .f32 ((IntOp.cmpi .eq a b).setWidth 32) : EReal)) e1 e2).trans
      (hot_word _ _)
  · refine congrArg₂ (fun a b : EReal => a + b) (congrArg₂ (fun a b : EReal => a * b) ?_ ?_) ?_
    · exact congrFun (shapeCast_self x1 _) _
    · exact (broadcastTo_a1_ab_apply _ _ k f).trans (congrFun (shapeCast_self x2 _) _)
    · exact (broadcastTo_1b_ab_apply _ _ k f).trans (congrFun (shapeCast_self x3 _) _)

/-! ## The region's arrays and blocks, by their literal types -/

section Region

variable (V : (c : Dev nD) → (b : Ref sig .tc) → Buf (Elt Ideal) ((c : Thread nD τ).loc b))

/-- The graph numbers, the aggregated rows, the inverse root degrees and the bias, as the region finds them. -/
abbrev barr (c : Dev nD) : (⟨2, ![100000, 1]⟩ : Shape).Idx → BitVec 32 := V c main_v0
abbrev xarr (c : Dev nD) : Cert.Model.Arr2 100000 41 := V c main_v52
abbrev darr (c : Dev nD) : Cert.Model.Arr2 100000 1 := V c main_v16
abbrev carr (c : Dev nD) : Cert.Model.Arr2 1 41 := V c main_v53

/-- Their blocks of 2000 rows at point `t` (the bias whole). -/
abbrev bblk (c : Dev nD) (t : Fin cfg1.N) : Vec Ideal S2000x1 .i32 := iblk1 V c 0 t
abbrev xblk (c : Dev nD) (t : Fin cfg1.N) : Vec Ideal S2000x41 .f32 := iblk1 V c 1 t
abbrev dblk (c : Dev nD) (t : Fin cfg1.N) : Vec Ideal S2000x1 .f32 := iblk1 V c 2 t
abbrev cblk (c : Dev nD) (t : Fin cfg1.N) : Vec Ideal S1x41 .f32 := iblk1 V c 3 t

/-- The block indices at point `t`: the three row-blocked inputs are at block `t`, the bias at its one block, the
    output at block `t / 25`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 3) = t.val / 25 ∧ win1_4.index t (1 : Fin 3) = 0 ∧ win1_4.index t (2 : Fin 3) = 0 :=
  (by decide +kernel : ∀ t : Fin grid1.N, _)

/-- Row `r` of block `t` is row `2000 t + r` of the array. -/
theorem bblk_apply (c : Dev nD) (t : Fin cfg1.N) (r : Fin 2000) (n : Fin 100000) (hn : n.val = t.val * 2000 + r.val) :
    bblk V c t (ix2 r (0 : Fin 1)) = barr V c (ix2 n (0 : Fin 1)) := by
  obtain ⟨e0, e1, -⟩ := idx_facts t
  show V c main_v0 (((cfg1.win 0).blk t).view.emb (ix2 r (0 : Fin 1))) = V c main_v0 (ix2 n (0 : Fin 1))
  congr 1
  funext a
  apply Fin.ext
  match a with
  | ⟨0, _⟩ => show win1_0.index t 0 * 2000 + 1 * r.val = n.val; rw [e0, hn]; omega
  | ⟨1, _⟩ => show win1_0.index t 1 * 1 + 1 * 0 = 0; rw [e1]

theorem xblk_apply (c : Dev nD) (t : Fin cfg1.N) (r : Fin 2000) (f : Fin 41) (n : Fin 100000) (hn : n.val = t.val * 2000 + r.val) :
    xblk V c t (ix2 r f) = xarr V c (ix2 n f) := by
  obtain ⟨-, -, e0, e1, -⟩ := idx_facts t
  show V c main_v52 (((cfg1.win 1).blk t).view.emb (ix2 r f)) = V c main_v52 (ix2 n f)
  congr 1
  funext a
  apply Fin.ext
  match a with
  | ⟨0, _⟩ => show win1_1.index t 0 * 2000 + 1 * r.val = n.val; rw [e0, hn]; omega
  | ⟨1, _⟩ => show win1_1.index t 1 * 41 + 1 * f.val = f.val; rw [e1]; omega

theorem dblk_apply (c : Dev nD) (t : Fin cfg1.N) (r : Fin 2000) (n : Fin 100000) (hn : n.val = t.val * 2000 + r.val) :
    dblk V c t (ix2 r (0 : Fin 1)) = darr V c (ix2 n (0 : Fin 1)) := by
  obtain ⟨-, -, -, -, e0, e1, -⟩ := idx_facts t
  show V c main_v16 (((cfg1.win 2).blk t).view.emb (ix2 r (0 : Fin 1))) = V c main_v16 (ix2 n (0 : Fin 1))
  congr 1
  funext a
  apply Fin.ext
  match a with
  | ⟨0, _⟩ => show win1_2.index t 0 * 2000 + 1 * r.val = n.val; rw [e0, hn]; omega
  | ⟨1, _⟩ => show win1_2.index t 1 * 1 + 1 * 0 = 0; rw [e1]

theorem cblk_apply (c : Dev nD) (t : Fin cfg1.N) (f : Fin 41) :
    cblk V c t (ix2 (0 : Fin 1) f) = carr V c (ix2 (0 : Fin 1) f) := by
  obtain ⟨-, -, -, -, -, -, e0, e1, -⟩ := idx_facts t
  show V c main_v53 (((cfg1.win 3).blk t).view.emb (ix2 (0 : Fin 1) f)) = V c main_v53 (ix2 (0 : Fin 1) f)
  congr 1
  funext a
  apply Fin.ext
  match a with
  | ⟨0, _⟩ => show win1_3.index t 0 * 1 + 1 * 0 = 0; rw [e0]
  | ⟨1, _⟩ => show win1_3.index t 1 * 41 + 1 * f.val = f.val; rw [e1]; omega

/-! ## The accumulation, point by point -/

/-- What block `s` of half `h` adds to entry `(g, f)`: over the block's rows, one-or-zero (is the row's graph number
    `g`) times the row's contribution. -/
def term (c : Dev nD) (h s : ℕ) (g : Fin 256) (f : Fin 41) : EReal :=
  if hh : h < 2 ∧ s < 25 then
    ∑ r : Fin 2000, Cert.Model.hot (barr V c (ix2 (Cert.Model.node ⟨h, hh.1⟩ ⟨s, hh.2⟩ r) (0 : Fin 1))) g
      * Cert.Model.contrib (xarr V c) (darr V c) (carr V c) (Cert.Model.node ⟨h, hh.1⟩ ⟨s, hh.2⟩ r) f
  else 0

/-- Point `t` reads block `t % 25` of half `t / 25`: the rows of its input blocks add that block's term. -/
theorem block_term (c : Dev nD) (t : Fin cfg1.N) (g : Fin 256) (f : Fin 41) :
    ∑ r : Fin 2000, Cert.Model.hot (bblk V c t (ix2 r (0 : Fin 1))) g
        * (xblk V c t (ix2 r f) * dblk V c t (ix2 r (0 : Fin 1)) + cblk V c t (ix2 (0 : Fin 1) f))
      = term V c (t.val / 25) (t.val % 25) g f := by
  have hN : t.val < 50 := lt_of_lt_of_eq t.isLt (show cfg1.N = 50 from N_1)
  unfold term
  rw [dif_pos ⟨by omega, by omega⟩]
  refine Finset.sum_congr rfl fun r _ => ?_
  have hr := r.isLt
  have hn : (Cert.Model.node ⟨t.val / 25, by omega⟩ ⟨t.val % 25, by omega⟩ r).val = t.val * 2000 + r.val := by
    show (t.val / 25 * 25 + t.val % 25) * 2000 + r.val = _
    omega
  rw [bblk_apply V c t r _ hn, xblk_apply V c t r f _ hn, dblk_apply V c t r _ hn, cblk_apply V c t f]
  rfl

/-- A first point of a half leaves its block's term alone. -/
theorem outs_A (c : Dev nD) (t : Fin cfg1.N) (h0 : t.val % 25 = 0) (g : Fin 256) (f : Fin 41) :
    outsAt1 V c t.val t.isLt (ix3 (0 : Fin 1) g f) = term V c (t.val / 25) 0 g f := by
  rw [outsAt1_A V c t h0]
  refine (congrFun (out_A c (grid1.coords t) (ms1_0 t) (hs1_0 t) (ms1_1 t) (hs1_1 t) (ms1_2 t) (hs1_2 t) (ms1_3 t) (hs1_3 t)
    (ms1_4 t) (hs1_4 t) ((hcond1_0 t).mpr h0) (bblk V c t) (xblk V c t) (dblk V c t) (cblk V c t)) (ix3 (0 : Fin 1) g f)).trans ?_
  refine (pay2_apply (bblk V c t) (xblk V c t) (dblk V c t) (cblk V c t) (k1_pay1 (F := Ideal)) g f).trans ?_
  rw [pay1_apply, zero_add, block_term V c t g f, h0]

/-- Every other point adds its block's term to what the point before left. -/
theorem outs_B (c : Dev nD) (t : Fin cfg1.N) (h0 : ¬t.val % 25 = 0) (g : Fin 256) (f : Fin 41) :
    outsAt1 V c t.val t.isLt (ix3 (0 : Fin 1) g f)
      = outsAt1 V c (t.val - 1) (Nat.lt_of_le_of_lt (Nat.sub_le _ _) t.isLt) (ix3 (0 : Fin 1) g f)
        + term V c (t.val / 25) (t.val % 25) g f := by
  rw [outsAt1_B V c t h0]
  refine (congrFun (out_B c (grid1.coords t) (ms1_0 t) (hs1_0 t) (ms1_1 t) (hs1_1 t) (ms1_2 t) (hs1_2 t) (ms1_3 t) (hs1_3 t)
    (ms1_4 t) (hs1_4 t) (fun h => h0 ((hcond1_0 t).mp h)) (bblk V c t) (xblk V c t) (dblk V c t) (cblk V c t)
    (outsAt1 V c (t.val - 1) (Nat.lt_of_le_of_lt (Nat.sub_le _ _) t.isLt))) (ix3 (0 : Fin 1) g f)).trans ?_
  refine (pay2_apply (bblk V c t) (xblk V c t) (dblk V c t) (cblk V c t)
    (outsAt1 V c (t.val - 1) (Nat.lt_of_le_of_lt (Nat.sub_le _ _) t.isLt)) g f).trans ?_
  rw [block_term V c t g f]

/-- After point `n` the output block holds the terms of the blocks `0 … n % 25` of half `n / 25`. -/
theorem outs_eq (c : Dev nD) : ∀ (n : ℕ) (hn : n < cfg1.N) (g : Fin 256) (f : Fin 41),
    outsAt1 V c n hn (ix3 (0 : Fin 1) g f) = ∑ s ∈ Finset.range (n % 25 + 1), term V c (n / 25) s g f
  | 0, hn, g, f => by
    rw [show 0 % 25 + 1 = 1 from rfl, Finset.sum_range_one]
    exact outs_A V c ⟨0, hn⟩ rfl g f
  | n + 1, hn, g, f => by
    by_cases h0 : (n + 1) % 25 = 0
    · rw [h0, show 0 + 1 = 1 from rfl, Finset.sum_range_one]
      exact outs_A V c ⟨n + 1, hn⟩ h0 g f
    · have e1 : n / 25 = (n + 1) / 25 := by omega
      have e2 : n % 25 + 1 = (n + 1) % 25 := by omega
      rw [Finset.sum_range_succ, outs_B V c ⟨n + 1, hn⟩ h0 g f]
      show outsAt1 V c n _ _ + _ = _
      rw [outs_eq c n (Nat.lt_of_succ_lt hn) g f, e1, e2]

/-- The 25 terms of half `h` are the pooled entry. -/
theorem sum_terms (c : Dev nD) (h : Fin 2) (g : Fin 256) (f : Fin 41) :
    ∑ s ∈ Finset.range 25, term V c h.val s g f
      = Cert.Model.pool (barr V c) (xarr V c) (darr V c) (carr V c) (ix3 h g f) := by
  rw [Finset.sum_range]
  refine Finset.sum_congr rfl fun s _ => ?_
  unfold term
  rw [dif_pos ⟨h.isLt, s.isLt⟩]

/-! ## From the output's two blocks to the array -/

/-- The two partial pools, as one array. -/
abbrev result (c : Dev nD) : (⟨3, ![2, 256, 41]⟩ : Shape).Idx → EReal :=
  Cert.Model.pool (barr V c) (xarr V c) (darr V c) (carr V c)

/-- The last point of a half writes back that half of the pooled array. -/
theorem flushed_eq (c : Dev nD) (t : Fin cfg1.N) (hf : (cfg1.win 4).flush t = true) :
    (dat1 V c).flushed 4 t = ((cfg1.win 4).blk t).view.read (Elt Ideal) (result V c) := by
  have hN : t.val < 50 := lt_of_lt_of_eq t.isLt (show cfg1.N = 50 from N_1)
  have h24 : t.val % 25 = 24 := (flush1_4 t).mp hf
  obtain ⟨-, -, -, -, -, -, -, -, e0, e1, e2⟩ := idx_facts t
  have key : ∀ j : S1x256x41.Idx, outsAt1 V c t.val t.isLt j
      = result V c (ix3 (⟨t.val / 25, by omega⟩ : Fin 2) (j 1) (j 2)) := by
    intro j
    have hj0 : (j 0).val < 1 := (j 0).isLt
    obtain ⟨g, f, rfl⟩ : ∃ (g : Fin 256) (f : Fin 41), j = ix3 (0 : Fin 1) g f :=
      ⟨j 1, j 2, funext fun a => by
        match a with
        | ⟨0, _⟩ => exact Fin.ext (by show (j 0).val = 0; omega)
        | ⟨1, _⟩ => rfl
        | ⟨2, _⟩ => rfl⟩
    show outsAt1 V c t.val t.isLt (ix3 (0 : Fin 1) g f) = result V c (ix3 (⟨t.val / 25, by omega⟩ : Fin 2) g f)
    rw [outs_eq V c t.val t.isLt g f, h24]
    exact sum_terms V c ⟨t.val / 25, by omega⟩ g f
  show (cfg1.win 4).cut (grid1.coords t) ((dat1 V c).after 4 t) = _
  rw [after1_4]
  funext j
  show outsAt1 V c t.val t.isLt j = result V c (((cfg1.win 4).blk t).view.emb j)
  have hj0 : (j 0).val < 1 := (j 0).isLt
  have he : ((cfg1.win 4).blk t).view.emb j = ix3 (⟨t.val / 25, by omega⟩ : Fin 2) (j 1) (j 2) := by
    funext a; apply Fin.ext
    match a with
    | ⟨0, _⟩ => show win1_4.index t 0 * 1 + 1 * (j 0).val = t.val / 25; rw [e0]; omega
    | ⟨1, _⟩ => show win1_4.index t 1 * 256 + 1 * (j 1).val = (j 1).val; rw [e1]; omega
    | ⟨2, _⟩ => show win1_4.index t 2 * 41 + 1 * (j 2).val = (j 2).val; rw [e2]; omega
  exact (key j).trans (congrArg (result V c) he.symm)

/-- An index of the array is in point `t`'s block iff each coordinate is in the block's range on its axis. -/
theorem mem_blk (t : Fin cfg1.N) (i : S2x256x41.Idx) :
    i ∈ ((cfg1.win 4).blk t).view.set ↔ ∀ a : Fin 3, win1_4.index t a * S1x256x41.size a ≤ (i a).val
      ∧ (i a).val < win1_4.index t a * S1x256x41.size a + S1x256x41.size a := by
  show i ∈ ((View.whole main_v54).slice (win1_4.rect t)).set ↔ _
  rw [View.set_slice_whole, Rect.mem_set_unit]
  exact Iff.rfl

/-- Half `h` of the array is the block the point `25 h + 24` writes back. -/
theorem cover (i : S2x256x41.Idx) :
    ∃ t : Fin cfg1.N, (cfg1.win 4).flush t = true ∧ i ∈ ((cfg1.win 4).blk t).view.set := by
  have hi0 : (i 0).val < 2 := (i 0).isLt
  have hi1 : (i 1).val < 256 := (i 1).isLt
  have hi2 : (i 2).val < 41 := (i 2).isLt
  have hN : cfg1.N = 50 := N_1
  obtain ⟨t, ht⟩ : ∃ t : Fin cfg1.N, t.val = (i 0).val * 25 + 24 := ⟨⟨(i 0).val * 25 + 24, by rw [hN]; omega⟩, rfl⟩
  obtain ⟨-, -, -, -, -, -, -, -, e0, e1, e2⟩ := idx_facts t
  refine ⟨t, (flush1_4 t).mpr (by omega), ?_⟩
  rw [mem_blk]
  intro a
  match a with
  | ⟨0, _⟩ => show win1_4.index t 0 * 1 ≤ (i 0).val ∧ (i 0).val < win1_4.index t 0 * 1 + 1; rw [e0]; omega
  | ⟨1, _⟩ => show win1_4.index t 1 * 256 ≤ (i 1).val ∧ (i 1).val < win1_4.index t 1 * 256 + 256; rw [e1]; omega
  | ⟨2, _⟩ => show win1_4.index t 2 * 41 ≤ (i 2).val ∧ (i 2).val < win1_4.index t 2 * 41 + 41; rw [e2]; omega

/-- What the region leaves in its output array: the two partial pools of the arrays it found. -/
theorem region1_value (c : Dev nD) : (dat1 (F := Ideal) V c).arrAt 4 cfg1.N
    = Cert.Model.pool (V c main_v0) (V c main_v52) (V c main_v16) (V c main_v53) :=
  (dat1 V c).arrAt_eq_of_cover 4 (result V c) (flushed_eq V c) cover

end Region

end Cert.KernelIdeal.K2

end
-- ==== Proof.KHost.lean ====
import proofs.«406518_j76175539962263_2_alg».proof.Proof.Gen.KernelIdeal.Frame
import proofs.«406518_j76175539962263_2_alg».proof.Proof.KStages
import proofs.«406518_j76175539962263_2_alg».proof.Proof.K1Value
import proofs.«406518_j76175539962263_2_alg».proof.Proof.K2Value
import Idealize.ShloMosaic.Lib.StableHlo.Run

/-!
  The kernel program's result buffer, read back to its eight arguments through the fold of buffer contents at the
  boundaries between its stretches of host operations and its two regions.

  After the first stretch: the edge list's two rows with the self loops appended, the per-node edge count and its two
  readings. After the selection: the inverse root degree (zero where the count is zero). At the first region's entry:
  the inverse root degrees as a column, the first layer's aggregated messages (the scaled embeddings gathered along the
  edge list's first row and added up along its second), the bias as a row and the second weight matrix rounded. The
  first region leaves the dense stage of the first layer; the host gathers and adds up once more; the second region
  leaves the two partial pools; the last host operation adds them.
-/

set_option maxRecDepth 16384

noncomputable section

namespace Cert.KernelIdeal.KHost

open Idealize.ShloMosaic Idealize.ShloMosaic.TcCoe Idealize.ShloMosaic.Tactic
open Idealize.ShloMosaic.StableHlo (after_cons after_nil)
open Cert.KernelIdeal Cert.KernelIdeal.Gen

variable (m : (ℓ : Loc nD τ sig) → Buf (Elt Ideal) ℓ) (ρ : Dev nD → PrngReg) (c : Dev nD)

set_option quotPrecheck false
local notation "A0" => m ((c.tc : Thread nD τ).loc main_arg0)
local notation "A1" => m ((c.tc : Thread nD τ).loc main_arg1)
local notation "A2" => m ((c.tc : Thread nD τ).loc main_arg2)
local notation "A3" => m ((c.tc : Thread nD τ).loc main_arg3)
local notation "A4" => m ((c.tc : Thread nD τ).loc main_arg4)
local notation "A5" => m ((c.tc : Thread nD τ).loc main_arg5)
local notation "A6" => m ((c.tc : Thread nD τ).loc main_arg6)
local notation "A7" => m ((c.tc : Thread nD τ).loc main_arg7)

/-- A buffer that no operation of a stretch (or of a run of consecutive operations cut out of one) writes holds
    after it what it held before. -/
macro "carried" ops:ident : tactic =>
  `(tactic| (refine StableHlo.after_of_forall_not_mem _ _ (List.forall_iff_forall_mem.mp ?_)
             simp only [$ops:ident, List.take_succ_cons, List.take_zero, List.drop_succ_cons, List.drop_zero,
               List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- A line of operations is its first `n` followed by the rest. -/
theorem after_split (n : ℕ) (l : List (HloOp τ sig (Elt Ideal))) (V : Valuation τ sig (Elt Ideal)) :
    StableHlo.after l V = StableHlo.after (l.drop n) (StableHlo.after (l.take n) V) := by
  induction n generalizing l V with
  | zero => rfl
  | succ n ih =>
    cases l with
    | nil => rfl
    | cons op l => exact ih l (op.result V)

/-! ## After the first stretch: the edge rows, the degree count and its two readings -/

open Idealize.ShloMosaic.StableHlo in
theorem W1_v4 : W1 (F := Ideal) m ρ c (Proc.devRef .tc main_v4) = KStages.row A1 := by
  show StableHlo.after hostOps0 _ (Proc.devRef .tc main_v4) = _
  after_results
  rfl

open Idealize.ShloMosaic.StableHlo in
theorem W1_v7 : W1 (F := Ideal) m ρ c (Proc.devRef .tc main_v7) = KStages.col A1 := by
  show StableHlo.after hostOps0 _ (Proc.devRef .tc main_v7) = _
  after_results
  rfl

open Idealize.ShloMosaic.StableHlo in
theorem W1_v0 : W1 (F := Ideal) m ρ c (Proc.devRef .tc main_v0) = shapeCast _ A2 shapeCasts_S100000_S100000x1 := by
  show StableHlo.after hostOps0 _ (Proc.devRef .tc main_v0) = _
  after_results
  rfl

open Idealize.ShloMosaic.StableHlo in
theorem W1_v13 : W1 (F := Ideal) m ρ c (Proc.devRef .tc main_v13)
    = cmpf (F := Ideal) .ogt (KStages.deg A1) (broadcastInDim S100000 ![] bcast_S_S100000 (constant (F := Ideal) S_ .f32 0x00000000#32)) := by
  show StableHlo.after hostOps0 _ (Proc.devRef .tc main_v13) = _
  after_results
  rfl

open Idealize.ShloMosaic.StableHlo in
theorem W1_v14 : W1 (F := Ideal) m ρ c (Proc.devRef .tc main_v14) = Host.rsqrt (F := Ideal) (KStages.deg A1) := by
  show StableHlo.after hostOps0 _ (Proc.devRef .tc main_v14) = _
  after_results
  rfl

open Idealize.ShloMosaic.StableHlo in
theorem W1_cst_2 : W1 (F := Ideal) m ρ c (Proc.devRef .tc main_cst_2) = constant (F := Ideal) S_ .f32 0x00000000#32 := by
  show StableHlo.after hostOps0 _ (Proc.devRef .tc main_cst_2) = _
  after_results

theorem W1_arg0 : W1 (F := Ideal) m ρ c (Proc.devRef .tc main_arg0) = A0 := by
  show StableHlo.after hostOps0 (W0 m ρ c) (Proc.devRef .tc main_arg0) = W0 m ρ c (Proc.devRef .tc main_arg0)
  carried hostOps0
theorem W1_arg3 : W1 (F := Ideal) m ρ c (Proc.devRef .tc main_arg3) = A3 := by
  show StableHlo.after hostOps0 (W0 m ρ c) (Proc.devRef .tc main_arg3) = W0 m ρ c (Proc.devRef .tc main_arg3)
  carried hostOps0
theorem W1_arg4 : W1 (F := Ideal) m ρ c (Proc.devRef .tc main_arg4) = A4 := by
  show StableHlo.after hostOps0 (W0 m ρ c) (Proc.devRef .tc main_arg4) = W0 m ρ c (Proc.devRef .tc main_arg4)
  carried hostOps0
theorem W1_arg5 : W1 (F := Ideal) m ρ c (Proc.devRef .tc main_arg5) = A5 := by
  show StableHlo.after hostOps0 (W0 m ρ c) (Proc.devRef .tc main_arg5) = W0 m ρ c (Proc.devRef .tc main_arg5)
  carried hostOps0
theorem W1_arg6 : W1 (F := Ideal) m ρ c (Proc.devRef .tc main_arg6) = A6 := by
  show StableHlo.after hostOps0 (W0 m ρ c) (Proc.devRef .tc main_arg6) = W0 m ρ c (Proc.devRef .tc main_arg6)
  carried hostOps0
theorem W1_arg7 : W1 (F := Ideal) m ρ c (Proc.devRef .tc main_arg7) = A7 := by
  show StableHlo.after hostOps0 (W0 m ρ c) (Proc.devRef .tc main_arg7) = W0 m ρ c (Proc.devRef .tc main_arg7)
  carried hostOps0

/-! ## After the selection: the inverse root degree -/

/-! The three operations of the selection are stated over references that carry their value's type; the contents
    move between the carried type and the buffer's own along an equation of equal types, which changes nothing. -/

theorem ofBuf_b (X : (⟨S100000, .i1⟩ : BufTy).Contents (Elt Ideal)) :
    (StableHlo.TRef.of (sig := sig) (T := ⟨S100000, .i1⟩) main_v13).ofBuf (Val := Elt Ideal) X = X := rfl
theorem ofBuf_v (X : (⟨S100000, .f32⟩ : BufTy).Contents (Elt Ideal)) :
    (StableHlo.TRef.of (sig := sig) (T := ⟨S100000, .f32⟩) main_v14).ofBuf (Val := Elt Ideal) X = X := rfl
theorem toBuf_v (X : (⟨S100000, .f32⟩ : BufTy).Contents (Elt Ideal)) :
    (StableHlo.TRef.of (sig := sig) (T := ⟨S100000, .f32⟩) main_v15).toBuf (Val := Elt Ideal) X = X := rfl
theorem ofBuf_s (X : (⟨S_, .f32⟩ : BufTy).Contents (Elt Ideal)) :
    (StableHlo.TRef.of (sig := sig) (T := ⟨S_, .f32⟩) main_cst_2).ofBuf (Val := Elt Ideal) X = X := rfl
theorem toBuf_s (X : (⟨S_, .f32⟩ : BufTy).Contents (Elt Ideal)) :
    (StableHlo.TRef.of (sig := sig) (T := ⟨S_, .f32⟩) main_call0_v0).toBuf (Val := Elt Ideal) X = X := rfl

open Idealize.ShloMosaic.StableHlo in
theorem W2_v15 : W2 (F := Ideal) m ρ c (Proc.devRef .tc main_v15) = KStages.dinv A1 := by
  show StableHlo.after hostOps0_1 (W1 m ρ c) (Proc.devRef .tc main_v15) = _
  generalize hW : W1 (F := Ideal) m ρ c = W
  after_results
  subst hW
  rw [W1_v13 m ρ c, W1_v14 m ρ c, W1_cst_2 m ρ c]
  rw [ofBuf_b, ofBuf_v, ofBuf_s, ofBuf_s, toBuf_s, ofBuf_v, toBuf_v, toBuf_v]
  unfold KStages.dinv
  rfl

theorem W2_v4 : W2 (F := Ideal) m ρ c (Proc.devRef .tc main_v4) = KStages.row A1 :=
  (show StableHlo.after hostOps0_1 (W1 m ρ c) (Proc.devRef .tc main_v4) = W1 m ρ c (Proc.devRef .tc main_v4) by carried hostOps0_1).trans (W1_v4 m ρ c)
theorem W2_v7 : W2 (F := Ideal) m ρ c (Proc.devRef .tc main_v7) = KStages.col A1 :=
  (show StableHlo.after hostOps0_1 (W1 m ρ c) (Proc.devRef .tc main_v7) = W1 m ρ c (Proc.devRef .tc main_v7) by carried hostOps0_1).trans (W1_v7 m ρ c)
theorem W2_v0 : W2 (F := Ideal) m ρ c (Proc.devRef .tc main_v0) = shapeCast _ A2 shapeCasts_S100000_S100000x1 :=
  (show StableHlo.after hostOps0_1 (W1 m ρ c) (Proc.devRef .tc main_v0) = W1 m ρ c (Proc.devRef .tc main_v0) by carried hostOps0_1).trans (W1_v0 m ρ c)
theorem W2_arg0 : W2 (F := Ideal) m ρ c (Proc.devRef .tc main_arg0) = A0 :=
  (show StableHlo.after hostOps0_1 (W1 m ρ c) (Proc.devRef .tc main_arg0) = W1 m ρ c (Proc.devRef .tc main_arg0) by carried hostOps0_1).trans (W1_arg0 m ρ c)
theorem W2_arg3 : W2 (F := Ideal) m ρ c (Proc.devRef .tc main_arg3) = A3 :=
  (show StableHlo.after hostOps0_1 (W1 m ρ c) (Proc.devRef .tc main_arg3) = W1 m ρ c (Proc.devRef .tc main_arg3) by carried hostOps0_1).trans (W1_arg3 m ρ c)
theorem W2_arg4 : W2 (F := Ideal) m ρ c (Proc.devRef .tc main_arg4) = A4 :=
  (show StableHlo.after hostOps0_1 (W1 m ρ c) (Proc.devRef .tc main_arg4) = W1 m ρ c (Proc.devRef .tc main_arg4) by carried hostOps0_1).trans (W1_arg4 m ρ c)
theorem W2_arg5 : W2 (F := Ideal) m ρ c (Proc.devRef .tc main_arg5) = A5 :=
  (show StableHlo.after hostOps0_1 (W1 m ρ c) (Proc.devRef .tc main_arg5) = W1 m ρ c (Proc.devRef .tc main_arg5) by carried hostOps0_1).trans (W1_arg5 m ρ c)
theorem W2_arg6 : W2 (F := Ideal) m ρ c (Proc.devRef .tc main_arg6) = A6 :=
  (show StableHlo.after hostOps0_1 (W1 m ρ c) (Proc.devRef .tc main_arg6) = W1 m ρ c (Proc.devRef .tc main_arg6) by carried hostOps0_1).trans (W1_arg6 m ρ c)
theorem W2_arg7 : W2 (F := Ideal) m ρ c (Proc.devRef .tc main_arg7) = A7 :=
  (show StableHlo.after hostOps0_1 (W1 m ρ c) (Proc.devRef .tc main_arg7) = W1 m ρ c (Proc.devRef .tc main_arg7) by carried hostOps0_1).trans (W1_arg7 m ρ c)

/-! ## At the first region's entry: the region's other three operands, and what the stretch carries through -/

open Idealize.ShloMosaic.StableHlo in
theorem W3_v16 : W3 (F := Ideal) m ρ c (Proc.devRef .tc main_v16) = KStages.dinv2 A1 := by
  show StableHlo.after hostOps0_2 (W2 m ρ c) (Proc.devRef .tc main_v16) = _
  generalize hW : W2 (F := Ideal) m ρ c = W
  after_results
  subst hW
  rw [W2_v15 m ρ c]
  rfl

open Idealize.ShloMosaic.StableHlo in
theorem W3_v39 : W3 (F := Ideal) m ρ c (Proc.devRef .tc main_v39) = shapeCast _ A5 shapeCasts_S32_S1x32 := by
  show StableHlo.after hostOps0_2 (W2 m ρ c) (Proc.devRef .tc main_v39) = _
  generalize hW : W2 (F := Ideal) m ρ c = W
  after_results
  subst hW
  rw [W2_arg5 m ρ c]
  rfl

open Idealize.ShloMosaic.StableHlo in
theorem W3_v40 : W3 (F := Ideal) m ρ c (Proc.devRef .tc main_v40) = truncf (F := Ideal) .bf16 A6 bitsLt_bf16_f32 := by
  show StableHlo.after hostOps0_2 (W2 m ρ c) (Proc.devRef .tc main_v40) = _
  generalize hW : W2 (F := Ideal) m ρ c = W
  after_results
  subst hW
  rw [W2_arg6 m ρ c]

theorem W3_v4 : W3 (F := Ideal) m ρ c (Proc.devRef .tc main_v4) = KStages.row A1 :=
  (show StableHlo.after hostOps0_2 (W2 m ρ c) (Proc.devRef .tc main_v4) = W2 m ρ c (Proc.devRef .tc main_v4) by carried hostOps0_2).trans (W2_v4 m ρ c)
theorem W3_v7 : W3 (F := Ideal) m ρ c (Proc.devRef .tc main_v7) = KStages.col A1 :=
  (show StableHlo.after hostOps0_2 (W2 m ρ c) (Proc.devRef .tc main_v7) = W2 m ρ c (Proc.devRef .tc main_v7) by carried hostOps0_2).trans (W2_v7 m ρ c)
theorem W3_v0 : W3 (F := Ideal) m ρ c (Proc.devRef .tc main_v0) = shapeCast _ A2 shapeCasts_S100000_S100000x1 :=
  (show StableHlo.after hostOps0_2 (W2 m ρ c) (Proc.devRef .tc main_v0) = W2 m ρ c (Proc.devRef .tc main_v0) by carried hostOps0_2).trans (W2_v0 m ρ c)
theorem W3_arg7 : W3 (F := Ideal) m ρ c (Proc.devRef .tc main_arg7) = A7 :=
  (show StableHlo.after hostOps0_2 (W2 m ρ c) (Proc.devRef .tc main_arg7) = W2 m ρ c (Proc.devRef .tc main_arg7) by carried hostOps0_2).trans (W2_arg7 m ρ c)

/-! ## At the first region's entry: the first layer's aggregated messages

The thirty operations of this stretch are read in six runs of consecutive operations, each from what the run before
leaves. -/

/-- After the stretch's first two operations. -/
def X3a : Valuation τ sig (Elt Ideal) := StableHlo.after ((hostOps0_2 (F := Ideal)).take 2) (W2 m ρ c)
/-- After the next eight: the index column of the embedding gather. -/
def X3b : Valuation τ sig (Elt Ideal) := StableHlo.after (((hostOps0_2 (F := Ideal)).drop 2).take 8) (X3a m ρ c)
/-- After the next four: the scaled embeddings. -/
def X3c : Valuation τ sig (Elt Ideal) := StableHlo.after ((((hostOps0_2 (F := Ideal)).drop 2).drop 8).take 4) (X3b m ρ c)
/-- After the next eight: the index column of the gather along the edge list's first row. -/
def X3d : Valuation τ sig (Elt Ideal) := StableHlo.after (((((hostOps0_2 (F := Ideal)).drop 2).drop 8).drop 4).take 8) (X3c m ρ c)
/-- After the next six: the aggregated messages. -/
def X3e : Valuation τ sig (Elt Ideal) := StableHlo.after ((((((hostOps0_2 (F := Ideal)).drop 2).drop 8).drop 4).drop 8).take 6) (X3d m ρ c)
/-- The last two operations end the stretch. -/
theorem W3_eq : W3 (F := Ideal) m ρ c = StableHlo.after ((((((hostOps0_2 (F := Ideal)).drop 2).drop 8).drop 4).drop 8).drop 6) (X3e m ρ c) :=
  (after_split 2 _ _).trans <| (after_split 8 _ _).trans <| (after_split 4 _ _).trans <| (after_split 8 _ _).trans <|
    after_split 6 _ _

open Idealize.ShloMosaic.StableHlo in
theorem X3a_v16 : X3a m ρ c (Proc.devRef .tc main_v16) = KStages.dinv2 A1 := by
  show StableHlo.after ((hostOps0_2 (F := Ideal)).take 2) (W2 m ρ c) (Proc.devRef .tc main_v16) = _
  generalize hW : W2 (F := Ideal) m ρ c = W
  simp only [hostOps0_2, List.take_succ_cons, List.take_zero, List.drop_succ_cons, List.drop_zero]
  after_results
  subst hW
  rw [W2_v15 m ρ c]
  rfl

open Idealize.ShloMosaic.StableHlo in
theorem X3a_v17 : X3a m ρ c (Proc.devRef .tc main_v17) = Host.dotGeneral (F := Ideal) (φ₁ := .f32) (φ₂ := .f32) dot_S1500x16_S16x32_S1500x32_1_0_0_1_n_n none A3 A4 := by
  show StableHlo.after ((hostOps0_2 (F := Ideal)).take 2) (W2 m ρ c) (Proc.devRef .tc main_v17) = _
  generalize hW : W2 (F := Ideal) m ρ c = W
  simp only [hostOps0_2, List.take_succ_cons, List.take_zero, List.drop_succ_cons, List.drop_zero]
  after_results
  subst hW
  rw [W2_arg3 m ρ c, W2_arg4 m ρ c]

theorem X3a_arg0 : X3a m ρ c (Proc.devRef .tc main_arg0) = A0 :=
  (show StableHlo.after ((hostOps0_2 (F := Ideal)).take 2) (W2 m ρ c) (Proc.devRef .tc main_arg0) = W2 m ρ c (Proc.devRef .tc main_arg0) by carried hostOps0_2).trans (W2_arg0 m ρ c)
theorem X3a_v4 : X3a m ρ c (Proc.devRef .tc main_v4) = KStages.row A1 :=
  (show StableHlo.after ((hostOps0_2 (F := Ideal)).take 2) (W2 m ρ c) (Proc.devRef .tc main_v4) = W2 m ρ c (Proc.devRef .tc main_v4) by carried hostOps0_2).trans (W2_v4 m ρ c)
theorem X3a_v7 : X3a m ρ c (Proc.devRef .tc main_v7) = KStages.col A1 :=
  (show StableHlo.after ((hostOps0_2 (F := Ideal)).take 2) (W2 m ρ c) (Proc.devRef .tc main_v7) = W2 m ρ c (Proc.devRef .tc main_v7) by carried hostOps0_2).trans (W2_v7 m ρ c)
open Idealize.ShloMosaic.StableHlo in
theorem X3b_v23 : X3b m ρ c (Proc.devRef .tc main_v23) = KStages.idG A0 := by
  show StableHlo.after (((hostOps0_2 (F := Ideal)).drop 2).take 8) (X3a m ρ c) (Proc.devRef .tc main_v23) = _
  generalize hW : X3a m ρ c = W
  simp only [hostOps0_2, List.take_succ_cons, List.take_zero, List.drop_succ_cons, List.drop_zero]
  after_results
  subst hW
  rw [X3a_arg0 m ρ c]
  rfl

theorem X3b_v16 : X3b m ρ c (Proc.devRef .tc main_v16) = KStages.dinv2 A1 :=
  (show StableHlo.after (((hostOps0_2 (F := Ideal)).drop 2).take 8) (X3a m ρ c) (Proc.devRef .tc main_v16) = X3a m ρ c (Proc.devRef .tc main_v16) by carried hostOps0_2).trans (X3a_v16 m ρ c)
theorem X3b_v17 : X3b m ρ c (Proc.devRef .tc main_v17) = Host.dotGeneral (F := Ideal) (φ₁ := .f32) (φ₂ := .f32) dot_S1500x16_S16x32_S1500x32_1_0_0_1_n_n none A3 A4 :=
  (show StableHlo.after (((hostOps0_2 (F := Ideal)).drop 2).take 8) (X3a m ρ c) (Proc.devRef .tc main_v17) = X3a m ρ c (Proc.devRef .tc main_v17) by carried hostOps0_2).trans (X3a_v17 m ρ c)
theorem X3b_v4 : X3b m ρ c (Proc.devRef .tc main_v4) = KStages.row A1 :=
  (show StableHlo.after (((hostOps0_2 (F := Ideal)).drop 2).take 8) (X3a m ρ c) (Proc.devRef .tc main_v4) = X3a m ρ c (Proc.devRef .tc main_v4) by carried hostOps0_2).trans (X3a_v4 m ρ c)
theorem X3b_v7 : X3b m ρ c (Proc.devRef .tc main_v7) = KStages.col A1 :=
  (show StableHlo.after (((hostOps0_2 (F := Ideal)).drop 2).take 8) (X3a m ρ c) (Proc.devRef .tc main_v7) = X3a m ρ c (Proc.devRef .tc main_v7) by carried hostOps0_2).trans (X3a_v7 m ρ c)
open Idealize.ShloMosaic.StableHlo in
theorem X3c_v27 : X3c m ρ c (Proc.devRef .tc main_v27) = KStages.pre1 A0 A1 A3 A4 := by
  show StableHlo.after ((((hostOps0_2 (F := Ideal)).drop 2).drop 8).take 4) (X3b m ρ c) (Proc.devRef .tc main_v27) = _
  generalize hW : X3b m ρ c = W
  simp only [hostOps0_2, List.take_succ_cons, List.take_zero, List.drop_succ_cons, List.drop_zero]
  after_results
  subst hW
  rw [X3b_v17 m ρ c, X3b_v23 m ρ c, X3b_v16 m ρ c]
  unfold KStages.pre1
  rfl

theorem X3c_v4 : X3c m ρ c (Proc.devRef .tc main_v4) = KStages.row A1 :=
  (show StableHlo.after ((((hostOps0_2 (F := Ideal)).drop 2).drop 8).take 4) (X3b m ρ c) (Proc.devRef .tc main_v4) = X3b m ρ c (Proc.devRef .tc main_v4) by carried hostOps0_2).trans (X3b_v4 m ρ c)
theorem X3c_v7 : X3c m ρ c (Proc.devRef .tc main_v7) = KStages.col A1 :=
  (show StableHlo.after ((((hostOps0_2 (F := Ideal)).drop 2).drop 8).take 4) (X3b m ρ c) (Proc.devRef .tc main_v7) = X3b m ρ c (Proc.devRef .tc main_v7) by carried hostOps0_2).trans (X3b_v7 m ρ c)
open Idealize.ShloMosaic.StableHlo in
theorem X3d_v33 : X3d m ρ c (Proc.devRef .tc main_v33) = KStages.rowG A1 := by
  show StableHlo.after (((((hostOps0_2 (F := Ideal)).drop 2).drop 8).drop 4).take 8) (X3c m ρ c) (Proc.devRef .tc main_v33) = _
  generalize hW : X3c m ρ c = W
  simp only [hostOps0_2, List.take_succ_cons, List.take_zero, List.drop_succ_cons, List.drop_zero]
  after_results
  subst hW
  rw [X3c_v4 m ρ c]
  unfold KStages.rowG
  rfl

theorem X3d_v27 : X3d m ρ c (Proc.devRef .tc main_v27) = KStages.pre1 A0 A1 A3 A4 :=
  (show StableHlo.after (((((hostOps0_2 (F := Ideal)).drop 2).drop 8).drop 4).take 8) (X3c m ρ c) (Proc.devRef .tc main_v27) = X3c m ρ c (Proc.devRef .tc main_v27) by carried hostOps0_2).trans (X3c_v27 m ρ c)
theorem X3d_v7 : X3d m ρ c (Proc.devRef .tc main_v7) = KStages.col A1 :=
  (show StableHlo.after (((((hostOps0_2 (F := Ideal)).drop 2).drop 8).drop 4).take 8) (X3c m ρ c) (Proc.devRef .tc main_v7) = X3c m ρ c (Proc.devRef .tc main_v7) by carried hostOps0_2).trans (X3c_v7 m ρ c)
open Idealize.ShloMosaic.StableHlo in
theorem X3e_v38 : X3e m ρ c (Proc.devRef .tc main_v38) = KStages.tmp1 A0 A1 A3 A4 := by
  show StableHlo.after ((((((hostOps0_2 (F := Ideal)).drop 2).drop 8).drop 4).drop 8).take 6) (X3d m ρ c) (Proc.devRef .tc main_v38) = _
  generalize hW : X3d m ρ c = W
  simp only [hostOps0_2, List.take_succ_cons, List.take_zero, List.drop_succ_cons, List.drop_zero]
  after_results
  subst hW
  rw [X3d_v27 m ρ c, X3d_v33 m ρ c, X3d_v7 m ρ c]
  unfold KStages.tmp1 KStages.colI
  rfl

theorem W3_v38 : W3 (F := Ideal) m ρ c (Proc.devRef .tc main_v38) = KStages.tmp1 A0 A1 A3 A4 :=
  (congrFun (W3_eq m ρ c) _).trans <|
    (show StableHlo.after ((((((hostOps0_2 (F := Ideal)).drop 2).drop 8).drop 4).drop 8).drop 6) (X3e m ρ c) (Proc.devRef .tc main_v38) = X3e m ρ c (Proc.devRef .tc main_v38) by carried hostOps0_2).trans (X3e_v38 m ρ c)

/-! ## At the first region's exit: the dense stage of the first layer -/

theorem W4_v41 : W4 (F := Ideal) m ρ c (Proc.devRef .tc main_v41) = KStages.pre2 A0 A1 A3 A4 A5 A6 := by
  refine (W4_arr m ρ c 4).trans ((K1.region0_value (V3 m ρ) c).trans ?_)
  show Cert.Model.layer (W3 (F := Ideal) m ρ c (Proc.devRef .tc main_v38)) (W3 (F := Ideal) m ρ c (Proc.devRef .tc main_v16))
    (W3 (F := Ideal) m ρ c (Proc.devRef .tc main_v39)) (W3 (F := Ideal) m ρ c (Proc.devRef .tc main_v40)) = _
  rw [W3_v38 m ρ c, W3_v16 m ρ c, W3_v39 m ρ c, W3_v40 m ρ c]
  unfold KStages.pre2
  rfl

theorem W4_v4 : W4 (F := Ideal) m ρ c (Proc.devRef .tc main_v4) = KStages.row A1 :=
  (W4_of_ne m ρ c main_v4 (by decide)).trans (W3_v4 m ρ c)
theorem W4_v7 : W4 (F := Ideal) m ρ c (Proc.devRef .tc main_v7) = KStages.col A1 :=
  (W4_of_ne m ρ c main_v7 (by decide)).trans (W3_v7 m ρ c)
/-- The inverse root degrees are an input of the first region: it leaves them as it finds them. -/
theorem W4_v16 : W4 (F := Ideal) m ρ c (Proc.devRef .tc main_v16) = KStages.dinv2 A1 :=
  (W4_arr m ρ c 1).trans <| ((dat0 (V3 m ρ) c).arrAt_in 1 rfl cfg0.N).trans <| (A_eq0 (V3 m ρ) c 1).trans (W3_v16 m ρ c)
theorem W4_v0 : W4 (F := Ideal) m ρ c (Proc.devRef .tc main_v0) = shapeCast _ A2 shapeCasts_S100000_S100000x1 :=
  (W4_of_ne m ρ c main_v0 (by decide)).trans (W3_v0 m ρ c)
theorem W4_arg7 : W4 (F := Ideal) m ρ c (Proc.devRef .tc main_arg7) = A7 :=
  (W4_of_ne m ρ c main_arg7 (by decide)).trans (W3_arg7 m ρ c)

/-! ## At the second region's entry: the second layer's aggregated messages -/

/-- After the stretch's first eight operations: the index column of the gather along the edge list's first row. -/
def X5a : Valuation τ sig (Elt Ideal) := StableHlo.after ((hostOps1 (F := Ideal)).take 8) (W4 m ρ c)
/-- The last seven operations end the stretch. -/
theorem W5_eq : W5 (F := Ideal) m ρ c = StableHlo.after ((hostOps1 (F := Ideal)).drop 8) (X5a m ρ c) := after_split 8 _ _

open Idealize.ShloMosaic.StableHlo in
theorem X5a_v47 : X5a m ρ c (Proc.devRef .tc main_v47) = KStages.rowG A1 := by
  show StableHlo.after ((hostOps1 (F := Ideal)).take 8) (W4 m ρ c) (Proc.devRef .tc main_v47) = _
  generalize hW : W4 (F := Ideal) m ρ c = W
  simp only [hostOps1, List.take_succ_cons, List.take_zero, List.drop_succ_cons, List.drop_zero]
  after_results
  subst hW
  rw [W4_v4 m ρ c]
  unfold KStages.rowG
  rfl

theorem X5a_v41 : X5a m ρ c (Proc.devRef .tc main_v41) = KStages.pre2 A0 A1 A3 A4 A5 A6 :=
  (show StableHlo.after ((hostOps1 (F := Ideal)).take 8) (W4 m ρ c) (Proc.devRef .tc main_v41) = W4 m ρ c (Proc.devRef .tc main_v41) by carried hostOps1).trans (W4_v41 m ρ c)
theorem X5a_v7 : X5a m ρ c (Proc.devRef .tc main_v7) = KStages.col A1 :=
  (show StableHlo.after ((hostOps1 (F := Ideal)).take 8) (W4 m ρ c) (Proc.devRef .tc main_v7) = W4 m ρ c (Proc.devRef .tc main_v7) by carried hostOps1).trans (W4_v7 m ρ c)
theorem X5a_arg7 : X5a m ρ c (Proc.devRef .tc main_arg7) = A7 :=
  (show StableHlo.after ((hostOps1 (F := Ideal)).take 8) (W4 m ρ c) (Proc.devRef .tc main_arg7) = W4 m ρ c (Proc.devRef .tc main_arg7) by carried hostOps1).trans (W4_arg7 m ρ c)
open Idealize.ShloMosaic.StableHlo in
theorem W5_v52 : W5 (F := Ideal) m ρ c (Proc.devRef .tc main_v52) = KStages.tmp2 A0 A1 A3 A4 A5 A6 := by
  refine (congrFun (W5_eq m ρ c) _).trans ?_
  generalize hW : X5a m ρ c = W
  simp only [hostOps1, List.take_succ_cons, List.take_zero, List.drop_succ_cons, List.drop_zero]
  after_results
  subst hW
  rw [X5a_v41 m ρ c, X5a_v47 m ρ c, X5a_v7 m ρ c]
  unfold KStages.tmp2 KStages.colI
  rfl

open Idealize.ShloMosaic.StableHlo in
theorem W5_v53 : W5 (F := Ideal) m ρ c (Proc.devRef .tc main_v53) = shapeCast _ A7 shapeCasts_S41_S1x41 := by
  refine (congrFun (W5_eq m ρ c) _).trans ?_
  generalize hW : X5a m ρ c = W
  simp only [hostOps1, List.take_succ_cons, List.take_zero, List.drop_succ_cons, List.drop_zero]
  after_results
  subst hW
  rw [X5a_arg7 m ρ c]
  rfl

theorem W5_v0 : W5 (F := Ideal) m ρ c (Proc.devRef .tc main_v0) = shapeCast _ A2 shapeCasts_S100000_S100000x1 :=
  (show StableHlo.after hostOps1 (W4 m ρ c) (Proc.devRef .tc main_v0) = W4 m ρ c (Proc.devRef .tc main_v0) by carried hostOps1).trans (W4_v0 m ρ c)
theorem W5_v16 : W5 (F := Ideal) m ρ c (Proc.devRef .tc main_v16) = KStages.dinv2 A1 :=
  (show StableHlo.after hostOps1 (W4 m ρ c) (Proc.devRef .tc main_v16) = W4 m ρ c (Proc.devRef .tc main_v16) by carried hostOps1).trans (W4_v16 m ρ c)

/-! ## At the second region's exit: the two partial pools; and their sum -/

theorem W6_v54 : W6 (F := Ideal) m ρ c (Proc.devRef .tc main_v54) = KStages.part A0 A1 A2 A3 A4 A5 A6 A7 := by
  refine (W6_arr m ρ c 4).trans ((K2.region1_value (V5 m ρ) c).trans ?_)
  show Cert.Model.pool (W5 (F := Ideal) m ρ c (Proc.devRef .tc main_v0)) (W5 (F := Ideal) m ρ c (Proc.devRef .tc main_v52))
    (W5 (F := Ideal) m ρ c (Proc.devRef .tc main_v16)) (W5 (F := Ideal) m ρ c (Proc.devRef .tc main_v53)) = _
  rw [W5_v0 m ρ c, W5_v52 m ρ c, W5_v16 m ρ c, W5_v53 m ρ c]
  unfold KStages.part
  rfl

/-- The kernel program's result buffer, read back through the whole fold to the eight arguments. -/
theorem kvalue : W7 (F := Ideal) m ρ c (Proc.devRef .tc main_v55) = KStages.out A0 A1 A2 A3 A4 A5 A6 A7 := by
  show StableHlo.after hostOps2 (W6 m ρ c) (Proc.devRef .tc main_v55) = _
  generalize hW : W6 (F := Ideal) m ρ c = W
  after_results
  subst hW
  rw [W6_v54 m ρ c]
  unfold KStages.out
  rfl

end Cert.KernelIdeal.KHost

end
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

/-!
  Extended reals that are real numbers.

  At the ideal instance a float value is an extended real.  The arithmetic of `EReal` is
  not a ring (`⊤ + ⊥`, `0 * ⊤` have conventional values), but on the image of `ℝ` every
  operation is the real one.  This file names that image (`IsReal`), shows it closed under
  the operations used, and proves the expansion of a squared distance
  `Σ (e - c)² = Σ e² - 2 Σ e c + Σ c²` for real entries, all operations being `EReal`'s.
-/

open scoped BigOperators

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

/-- The quotient of a real by a NONZERO real is real (by zero the total division returns an
    infinity). -/
theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

/-- `Σ (e - c)² = Σ e² - 2 · Σ e c + Σ c²` on real entries, every operation `EReal`'s. -/
theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

/-- Division by one is the identity on a real. -/
theorem div_one_of_isReal {x : EReal} : IsReal x → Ideal.div x 1 = x := by
  rintro ⟨a, rfl⟩
  rw [← EReal.coe_one, Ideal.div_coe one_ne_zero, ← EReal.coe_mul]
  congr 1
  rw [div_one, mul_one]

/-- The power one is the identity on a real. -/
theorem pow_one_of_isReal {x : EReal} : IsReal x → Ideal.pow x 1 = x := by
  rintro ⟨a, rfl⟩
  rw [← EReal.coe_one, Ideal.pow_coe_coe]
  congr 1
  exact Real.rpow_one a

/-- The power one is the identity on every extended real: `⊥` stays `⊥`, `⊤` stays `⊤` since
    `0 < 1`, and a real is `Real.rpow_one`. -/
theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.Graph.lean ====
import Idealize.ShloMosaic.PureOps.Ideal
import Idealize.ShloMosaic.Lib.ValueIdx
import Mathlib.Logic.Equiv.Fin.Basic
import Mathlib.Algebra.BigOperators.Group.Finset.Basic
import Mathlib.Algebra.BigOperators.Fin
import proofs.«406518_j76175539962263_2_alg».proof.Proof.LibReal
import proofs.«406518_j76175539962263_2_alg».proof.Proof.Model

/-!
  The two-layer graph convolution with pooling, in plain mathematics, written twice.

  Data: 100000 nodes, 3300000 edges (the edge list followed by one self loop per node).
  Edge `e` carries a destination WORD `cw e` (it lands on node `n` when the word, read as a
  signed integer, is `n`; otherwise nowhere), a source node `src e` and a destination node
  `dst e` (both already clamped into range); node `n` carries a scale `D n` (the inverse root
  of its degree), a vocabulary entry `idn n` and a graph WORD `bw n`.

  * The "factored" form scales a node's features by `D` before they are gathered along the
    edges and scales the sum by `D` of the destination afterwards; it pools through a
    one-hot product over two halves of 25 blocks of 2000 nodes.
  * The "edgewise" form multiplies every message by `D (src e) · D (dst e)` and pools by
    adding up the nodes whose graph word is `g`.

  They agree when every float is a real number, `D` is real, and `dst e` is the node the
  edge lands on whenever it lands.
-/

noncomputable section

open scoped BigOperators

namespace Cert.Graph

open Idealize.ShloMosaic Idealize.ShloMosaic.ValueIdx Cert.LibReal Cert.Model

abbrev NN : ℕ := 100000
abbrev NE : ℕ := 3300000

/-- The network's data. -/
structure Data where
  cw : Fin NE → BitVec 32
  src : Fin NE → Fin NN
  dst : Fin NE → Fin NN
  D : Fin NN → EReal
  idn : Fin NN → Fin 1500
  bw : Fin NN → BitVec 32
  emb : Arr2 1500 16
  w1 : Arr2 16 32
  b1 : Fin 32 → EReal
  w2 : Arr2 32 41
  b2 : Fin 41 → EReal

variable (d : Data)

/-- The edges that land on node `n`. -/
def lands (n : Fin NN) : Finset (Fin NE) := Finset.univ.filter fun e => (d.cw e).toInt = (n.val : ℤ)

/-- A node's embedded features times the first weight matrix. -/
def h1 (n : Fin NN) (k : Fin 32) : EReal := ∑ j : Fin 16, d.emb (ix2 (d.idn n) j) * d.w1 (ix2 j k)

/-! ### The factored form -/

def kPre1 (n : Fin NN) (k : Fin 32) : EReal := h1 d n k * d.D n
def kTmp1 (n : Fin NN) (k : Fin 32) : EReal := 0 + ∑ e ∈ lands d n, kPre1 d (d.src e) k
def kPre2 (n : Fin NN) (f : Fin 41) : EReal :=
  (∑ k : Fin 32, max (kTmp1 d n k * d.D n + d.b1 k) 0 * d.w2 (ix2 k f)) * d.D n
def kTmp2 (n : Fin NN) (f : Fin 41) : EReal := 0 + ∑ e ∈ lands d n, kPre2 d (d.src e) f
def kPart (c : Fin 2) (g : Fin 256) (f : Fin 41) : EReal :=
  ∑ t : Fin 25, ∑ r : Fin 2000, hot (d.bw (node c t r)) g * (kTmp2 d (node c t r) f * d.D (node c t r) + d.b2 f)
def kOut (g : Fin 256) (f : Fin 41) : EReal := 0 + ∑ c : Fin 2, kPart d c g f

/-! ### The edgewise form -/

def rNorm (e : Fin NE) : EReal := d.D (d.src e) * d.D (d.dst e)
def rOut1 (n : Fin NN) (k : Fin 32) : EReal := (0 + ∑ e ∈ lands d n, h1 d (d.src e) k * rNorm d e) + d.b1 k
def rH2 (n : Fin NN) (f : Fin 41) : EReal := ∑ k : Fin 32, max (rOut1 d n k) 0 * d.w2 (ix2 k f)
def rOut2 (n : Fin NN) (f : Fin 41) : EReal := (0 + ∑ e ∈ lands d n, rH2 d (d.src e) f * rNorm d e) + d.b2 f
def rOut (g : Fin 256) (f : Fin 41) : EReal :=
  0 + ∑ n ∈ Finset.univ.filter (fun n : Fin NN => (d.bw n).toInt = (g.val : ℤ)), rOut2 d n f

/-! ### Real entries -/

/-- On real numbers multiplication distributes over addition. -/
theorem add_mul_real {x y z : EReal} : IsReal x → IsReal y → IsReal z → (x + y) * z = x * z + y * z := by
  rintro ⟨a, rfl⟩ ⟨b, rfl⟩ ⟨c, rfl⟩
  rw [← EReal.coe_add, ← EReal.coe_mul, ← EReal.coe_mul, ← EReal.coe_mul, ← EReal.coe_add, add_mul]

/-- A finite sum of reals times a real is the sum of the products. -/
theorem sum_mul_real {ι : Type} (s : Finset ι) (a : ι → EReal) (z : EReal) (ha : ∀ i ∈ s, IsReal (a i))
    (hz : IsReal z) : (∑ i ∈ s, a i) * z = ∑ i ∈ s, a i * z := by
  classical
  induction s using Finset.induction_on with
  | empty => rw [Finset.sum_empty, Finset.sum_empty, zero_mul]
  | insert x t hx ih =>
    rw [Finset.sum_insert hx, Finset.sum_insert hx,
      add_mul_real (ha x (Finset.mem_insert_self x t))
        (IsReal.sum t a fun i hi => ha i (Finset.mem_insert_of_mem hi)) hz,
      ih fun i hi => ha i (Finset.mem_insert_of_mem hi)]

/-- ONE LAYER'S AGGREGATION. Messages `H (src e) · (D (src e) · D (dst e))` added up over the edges landing on `n`
    are the messages `H (src e) · D (src e)` added up, times `D n`: on those edges `dst e = n`, and a real
    factor moves out of a finite sum of reals. -/
theorem aggregate_eq (hdst : ∀ e n, e ∈ lands d n → d.dst e = n) (hD : ∀ n, IsReal (d.D n))
    (H : Fin NN → EReal) (hH : ∀ n, IsReal (H n)) (n : Fin NN) :
    (0 + ∑ e ∈ lands d n, H (d.src e) * rNorm d e) = (0 + ∑ e ∈ lands d n, H (d.src e) * d.D (d.src e)) * d.D n := by
  rw [zero_add, zero_add,
    sum_mul_real _ _ _ (fun e _ => IsReal.mul (hH _) (hD _)) (hD n)]
  refine Finset.sum_congr rfl fun e he => ?_
  rw [rNorm, hdst e n he, mul_assoc]

theorem h1_real (hemb : ∀ i, IsReal (d.emb i)) (hw1 : ∀ i, IsReal (d.w1 i)) (n : Fin NN) (k : Fin 32) :
    IsReal (h1 d n k) :=
  IsReal.sum _ _ fun j _ => IsReal.mul (hemb _) (hw1 _)

/-- The first layer: the edgewise sum plus bias is the factored sum scaled by `D n`, plus bias. -/
theorem rOut1_eq (hdst : ∀ e n, e ∈ lands d n → d.dst e = n) (hD : ∀ n, IsReal (d.D n))
    (hemb : ∀ i, IsReal (d.emb i)) (hw1 : ∀ i, IsReal (d.w1 i)) (n : Fin NN) (k : Fin 32) :
    rOut1 d n k = kTmp1 d n k * d.D n + d.b1 k := by
  have h := aggregate_eq d hdst hD (fun m => h1 d m k) (fun m => h1_real d hemb hw1 m k) n
  show (0 + ∑ e ∈ lands d n, h1 d (d.src e) k * rNorm d e) + d.b1 k
    = (0 + ∑ e ∈ lands d n, h1 d (d.src e) k * d.D (d.src e)) * d.D n + d.b1 k
  rw [h]

theorem rOut1_real (hD : ∀ n, IsReal (d.D n))
    (hemb : ∀ i, IsReal (d.emb i)) (hw1 : ∀ i, IsReal (d.w1 i)) (hb1 : ∀ k, IsReal (d.b1 k)) (n : Fin NN) (k : Fin 32) :
    IsReal (rOut1 d n k) := by
  have hs : IsReal (∑ e ∈ lands d n, h1 d (d.src e) k * rNorm d e) :=
    IsReal.sum _ _ fun e _ => IsReal.mul (h1_real d hemb hw1 _ k) (IsReal.mul (hD _) (hD _))
  exact IsReal.add (IsReal.add IsReal.zero hs) (hb1 k)

theorem rH2_real (hD : ∀ n, IsReal (d.D n))
    (hemb : ∀ i, IsReal (d.emb i)) (hw1 : ∀ i, IsReal (d.w1 i)) (hb1 : ∀ k, IsReal (d.b1 k))
    (hw2 : ∀ i, IsReal (d.w2 i)) (n : Fin NN) (f : Fin 41) : IsReal (rH2 d n f) :=
  IsReal.sum _ _ fun k _ => IsReal.mul (IsReal.max (rOut1_real d hD hemb hw1 hb1 n k) IsReal.zero) (hw2 _)

/-- The dense stage between the layers: the factored form's row is the edgewise form's, times `D n`. -/
theorem kPre2_eq (hdst : ∀ e n, e ∈ lands d n → d.dst e = n) (hD : ∀ n, IsReal (d.D n))
    (hemb : ∀ i, IsReal (d.emb i)) (hw1 : ∀ i, IsReal (d.w1 i)) (n : Fin NN) (f : Fin 41) :
    kPre2 d n f = rH2 d n f * d.D n := by
  have h : (∑ k : Fin 32, max (kTmp1 d n k * d.D n + d.b1 k) 0 * d.w2 (ix2 k f)) = rH2 d n f :=
    Finset.sum_congr rfl fun k _ => by rw [rOut1_eq d hdst hD hemb hw1 n k]
  show (∑ k : Fin 32, max (kTmp1 d n k * d.D n + d.b1 k) 0 * d.w2 (ix2 k f)) * d.D n = rH2 d n f * d.D n
  rw [h]

/-- The second layer, likewise. -/
theorem rOut2_eq (hdst : ∀ e n, e ∈ lands d n → d.dst e = n) (hD : ∀ n, IsReal (d.D n))
    (hemb : ∀ i, IsReal (d.emb i)) (hw1 : ∀ i, IsReal (d.w1 i)) (hb1 : ∀ k, IsReal (d.b1 k))
    (hw2 : ∀ i, IsReal (d.w2 i)) (n : Fin NN) (f : Fin 41) :
    rOut2 d n f = kTmp2 d n f * d.D n + d.b2 f := by
  have h := aggregate_eq d hdst hD (fun m => rH2 d m f) (fun m => rH2_real d hD hemb hw1 hb1 hw2 m f) n
  have h' : (∑ e ∈ lands d n, kPre2 d (d.src e) f) = ∑ e ∈ lands d n, rH2 d (d.src e) f * d.D (d.src e) :=
    Finset.sum_congr rfl fun e _ => kPre2_eq d hdst hD hemb hw1 _ f
  show (0 + ∑ e ∈ lands d n, rH2 d (d.src e) f * rNorm d e) + d.b2 f
    = (0 + ∑ e ∈ lands d n, kPre2 d (d.src e) f) * d.D n + d.b2 f
  rw [h, h']

/-! ### Pooling -/

/-- A graph number below 256 is the word's signed value exactly when it is the word. -/
theorem ofNat_eq_iff_toInt (b : BitVec 32) (g : Fin 256) : BitVec.ofNat 32 g.val = b ↔ b.toInt = (g.val : ℤ) := by
  have hg : ∀ g : Fin 256, (BitVec.ofNat 32 g.val).toInt = (g.val : ℤ) := by decide
  constructor
  · rintro rfl; exact hg g
  · intro h; exact BitVec.eq_of_toInt_eq (by rw [hg g, h])

/-- The one-hot factor keeps the rows of graph `g` and drops the others. -/
theorem hot_mul (b : BitVec 32) (g : Fin 256) (y : EReal) : hot b g * y = if b.toInt = (g.val : ℤ) then y else 0 := by
  unfold hot
  by_cases h : BitVec.ofNat 32 g.val = b
  · rw [if_pos h, if_pos ((ofNat_eq_iff_toInt b g).mp h), one_mul]
  · rw [if_neg h, if_neg (fun h' => h ((ofNat_eq_iff_toInt b g).mpr h')), zero_mul]

/-- The 2 · 25 · 2000 block rows are the 100000 nodes, each once. -/
def nodeEquiv : (Fin 2 × Fin 25) × Fin 2000 ≃ Fin NN where
  toFun p := node p.1.1 p.1.2 p.2
  invFun n := ((⟨n.val / 50000, by have hn : n.val < 100000 := n.isLt; omega⟩, ⟨n.val / 2000 % 25, by omega⟩), ⟨n.val % 2000, by omega⟩)
  left_inv := by
    rintro ⟨⟨c, t⟩, r⟩
    have hc := c.isLt; have ht := t.isLt; have hr := r.isLt
    refine Prod.ext (Prod.ext (Fin.ext ?_) (Fin.ext ?_)) (Fin.ext ?_) <;> simp only [node] <;> omega
  right_inv := by
    intro n
    have hn : n.val < 100000 := n.isLt
    refine Fin.ext ?_
    simp only [node]
    omega

/-- A sum over halves, blocks and rows is the sum over the nodes. -/
theorem sum_blocks (F : Fin NN → EReal) : ∑ c : Fin 2, ∑ t : Fin 25, ∑ r : Fin 2000, F (node c t r) = ∑ n : Fin NN, F n := by
  rw [← Equiv.sum_comp nodeEquiv F, Fintype.sum_prod_type, Fintype.sum_prod_type]
  rfl

/-- The one-hot pooling over the blocks adds up the nodes of graph `g`. -/
theorem pool_eq (bw : Fin NN → BitVec 32) (Y : Fin NN → EReal) (g : Fin 256) :
    ∑ c : Fin 2, ∑ t : Fin 25, ∑ r : Fin 2000, hot (bw (node c t r)) g * Y (node c t r)
      = ∑ n ∈ Finset.univ.filter (fun n : Fin NN => (bw n).toInt = (g.val : ℤ)), Y n := by
  rw [sum_blocks (fun n => hot (bw n) g * Y n), Finset.sum_filter]
  exact Finset.sum_congr rfl fun n _ => hot_mul _ _ _

/-- The two forms agree on real data. -/
theorem out_eq (hdst : ∀ e n, e ∈ lands d n → d.dst e = n) (hD : ∀ n, IsReal (d.D n))
    (hemb : ∀ i, IsReal (d.emb i)) (hw1 : ∀ i, IsReal (d.w1 i)) (hb1 : ∀ k, IsReal (d.b1 k))
    (hw2 : ∀ i, IsReal (d.w2 i)) (g : Fin 256) (f : Fin 41) : kOut d g f = rOut d g f := by
  have hp := pool_eq d.bw (fun n => kTmp2 d n f * d.D n + d.b2 f) g
  have hr : (∑ n ∈ Finset.univ.filter (fun n : Fin NN => (d.bw n).toInt = (g.val : ℤ)), rOut2 d n f)
      = ∑ n ∈ Finset.univ.filter (fun n : Fin NN => (d.bw n).toInt = (g.val : ℤ)), (kTmp2 d n f * d.D n + d.b2 f) :=
    Finset.sum_congr rfl fun n _ => rOut2_eq d hdst hD hemb hw1 hb1 hw2 n f
  show 0 + ∑ c : Fin 2, ∑ t : Fin 25, ∑ r : Fin 2000,
      hot (d.bw (node c t r)) g * (kTmp2 d (node c t r) f * d.D (node c t r) + d.b2 f)
    = 0 + ∑ n ∈ Finset.univ.filter (fun n : Fin NN => (d.bw n).toInt = (g.val : ℤ)), rOut2 d n f
  rw [hp, hr]

end Cert.Graph

end
-- ==== Proof.LibRowOps.lean ====
import Idealize.ShloMosaic.PureOps.Ideal
import Idealize.ShloMosaic.PureOps.Ideal.Laws
import Idealize.ShloMosaic.PureOps.Contract
import Idealize.ShloMosaic.Lib.ValueIdx

/-!
  Row gathers and row scatter-adds read at an index.

  A table of `N` rows of `C` entries, and a column of `E` index words.
  * The gather of rows (`table[idx]`): row `e` of the result is the table's row at the word
    `idx e` read as a signed integer and clamped into `[0, N - 1]`.
  * The accumulating scatter of rows (`zeros.at[idx].add(upd)`): row `n` of the result is the
    operand's row plus the sum of the update rows `e` whose word, read as a signed integer and
    NOT clamped, is `n`; a row whose word is negative or `≥ N` lands nowhere.
-/

noncomputable section

open scoped BigOperators

namespace Cert.LibRowOps

open Idealize.ShloMosaic Idealize.ShloMosaic.ValueIdx

/-- The row a gather reads for the index word `b`: `b` as a signed integer, clamped into `[0, N - 1]`. -/
def clampRow {w : ℕ} (N : ℕ) (hN : 0 < N) (b : BitVec w) : Fin N := ⟨min b.toInt.toNat (N - 1), by omega⟩

/-- A one-element list read at any valid position is its element. -/
theorem getElem_of_eq_singleton {α : Type} {l : List α} {x : α} (hl : l = [x]) (i : Nat) (h : i < l.length) :
    l[i] = x := by
  subst hl
  have : i = 0 := by simpa using h
  subst this; rfl

/-- Of two axes, the ones outside `[1]` are `[0]`. -/
theorem kept2_of_1 (n0 n1 : ℕ) : (⟨2, ![n0, n1]⟩ : Shape).kept [1] = [0] := by
  simp [Shape.kept, List.finRange]

/-- Of two axes, the ones outside `[0]` are `[1]`. -/
theorem kept2_of_0 (n0 n1 : ℕ) : (⟨2, ![n0, n1]⟩ : Shape).kept [0] = [1] := by
  simp [Shape.kept, List.finRange]

/-- THE ROW GATHER READ AT `(e, k)`: on the row axis (collapsed, the one the start index names) the operand index is
    the clamped start; on the column axis (the one offset axis) it is the result's column. -/
theorem gather_rows_apply {α : Type} {N E C w : ℕ} (hN : 0 < N)
    (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![E, 1]⟩ w) (e : Fin E) (k : Fin C) :
    Host.gather d x idx (ix2 e k) = x (ix2 (clampRow N hN (idx (ix2 e (0 : Fin 1)))) k) := by
  unfold Host.gather
  congr 1
  funext a
  apply Fin.ext
  have hb : ∀ a : Fin 2, a ∉ d.operandBatchingDims := fun a => by rw [hob]; exact List.not_mem_nil
  have hbd : d.batchDims = [0] := by
    show (⟨2, ![E, C]⟩ : Shape).kept d.offsetDims = [0]
    rw [hoff]; exact kept2_of_1 E C
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    have hsi : ∀ c, d.siIdx (ix2 e k) c = ix2 e (0 : Fin 1) := by
      intro c
      funext b
      apply Fin.ext
      match b with
      | ⟨0, _⟩ =>
        unfold GatherDims.siIdx
        rw [dif_neg (by rw [hivd]; simp)]
        unfold GatherDims.siCoord
        simp only [Fin.val_cast]
        rw [getElem_of_eq_singleton hbd]
        rfl
      | ⟨1, _⟩ =>
        unfold GatherDims.siIdx
        rw [dif_pos (by rw [hivd])]
        have hc : c.val < d.startIndexMap.length := c.isLt
        have hl : d.startIndexMap.length = 1 := by rw [hsim]; rfl
        show c.val = 0
        omega
    show d.start (ix2 e k) idx 0 + d.batchCoord (ix2 e k) 0 + d.offCoord (ix2 e k) 0 = _
    rw [GatherDims.batchCoord_eq_zero _ _ _ (hb _), GatherDims.offCoord_eq_zero _ _ _ hk]
    unfold GatherDims.start
    rw [dif_pos hm, hsi, hsl]
    rfl
  | ⟨1, _⟩ =>
    have hk : (1 : Fin 2) ∈ d.sKept := by rw [GatherDims.mem_sKept, hcoll, hob]; simp
    have hm : (1 : Fin 2) ∉ d.startIndexMap := by rw [hsim]; simp
    show d.start (ix2 e k) idx 1 + d.batchCoord (ix2 e k) 1 + d.offCoord (ix2 e k) 1 = k.val
    rw [GatherDims.batchCoord_eq_zero _ _ _ (hb _)]
    unfold GatherDims.start GatherDims.offCoord
    rw [dif_neg hm, dif_pos hk, getElem_of_eq_singleton hoff]
    show 0 + 0 + k.val = k.val
    omega

/-- An update lands at `i` exactly when, on every axis, its signed start plus its window coordinate is `i`'s coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · next h =>
    rw [Option.some.injEq, funext_iff]
    refine forall_congr' fun a => ?_
    rw [Fin.ext_iff]
    have := h a
    show (d.start j idx a + (d.window j a : ℤ)).toNat = (i a).val ↔ _
    omega
  · next h =>
    refine iff_of_false (by simp) fun hall => h fun a => ?_
    have := hall a
    have := (i a).isLt
    omega

section Rows
variable {N E C w : ℕ} (d : ScatterDims ⟨2, ![N, C]⟩ ⟨2, ![E, 1]⟩ ⟨2, ![E, C]⟩)

/-- Every component of an update's scatter index is read at the update's row, column 0 of the index column. -/
theorem scatter_siIdx_rows (huw : d.updateWindowDims = [1]) (hsd : d.scatterDimsToOperandDims = [0])
    (hiv : d.indexVectorDim = 1) (j : (⟨2, ![E, C]⟩ : Shape).Idx) (c : Fin d.scatterDimsToOperandDims.length) :
    d.siIdx j c = ix2 (j 0) (0 : Fin 1) := by
  have hus : d.uScatter = [0] := by
    show (⟨2, ![E, C]⟩ : Shape).kept d.updateWindowDims = [0]
    rw [huw]; exact kept2_of_1 E C
  funext b
  apply Fin.ext
  match b with
  | ⟨0, _⟩ =>
    unfold ScatterDims.siIdx
    rw [dif_neg (by rw [hiv]; simp)]
    unfold ScatterDims.siCoord
    simp only [Fin.val_cast]
    rw [getElem_of_eq_singleton hus]
  | ⟨1, _⟩ =>
    unfold ScatterDims.siIdx
    rw [dif_pos (by rw [hiv])]
    have hc : c.val < d.scatterDimsToOperandDims.length := c.isLt
    have hl : d.scatterDimsToOperandDims.length = 1 := by rw [hsd]; rfl
    show c.val = 0
    omega

/-- On the row axis the window starts at the update row's index word, read signed. -/
theorem scatter_start_row (huw : d.updateWindowDims = [1]) (hsd : d.scatterDimsToOperandDims = [0])
    (hiv : d.indexVectorDim = 1) (j : (⟨2, ![E, C]⟩ : Shape).Idx) (idx : IVec ⟨2, ![E, 1]⟩ w) :
    d.start j idx 0 = (idx (ix2 (j 0) (0 : Fin 1))).toInt := by
  have hm : (0 : Fin 2) ∈ d.scatterDimsToOperandDims := by rw [hsd]; exact List.mem_singleton.mpr rfl
  unfold ScatterDims.start
  rw [dif_pos hm, scatter_siIdx_rows d huw hsd hiv]
  rfl

/-- On the column axis the window starts at 0. -/
theorem scatter_start_col (hsd : d.scatterDimsToOperandDims = [0])
    (j : (⟨2, ![E, C]⟩ : Shape).Idx) (idx : IVec ⟨2, ![E, 1]⟩ w) :
    d.start j idx 1 = 0 := by
  have hm : (1 : Fin 2) ∉ d.scatterDimsToOperandDims := by rw [hsd]; simp
  unfold ScatterDims.start
  rw [dif_neg hm]

/-- The row axis is inserted: its window coordinate is 0. -/
theorem scatter_window_row (hiw : d.insertedWindowDims = [0]) (j : (⟨2, ![E, C]⟩ : Shape).Idx) :
    d.window j 0 = 0 := by
  have hk : (0 : Fin 2) ∉ d.sKept := by
    show (0 : Fin 2) ∉ (⟨2, ![N, C]⟩ : Shape).kept d.insertedWindowDims
    rw [hiw, kept2_of_0]; simp
  unfold ScatterDims.window
  rw [dif_neg hk]

/-- The column axis carries the update's column. -/
theorem scatter_window_col (huw : d.updateWindowDims = [1]) (hiw : d.insertedWindowDims = [0])
    (j : (⟨2, ![E, C]⟩ : Shape).Idx) :
    d.window j 1 = (j 1).val := by
  have hk : (1 : Fin 2) ∈ d.sKept := by
    show (1 : Fin 2) ∈ (⟨2, ![N, C]⟩ : Shape).kept d.insertedWindowDims
    rw [hiw, kept2_of_0]; simp
  unfold ScatterDims.window
  rw [dif_pos hk, getElem_of_eq_singleton huw]

/-- An update `(e, k')` lands at `(n, k)` exactly when row `e`'s word, read signed, is `n`, and `k' = k`. -/
theorem resultIdx?_rows (huw : d.updateWindowDims = [1]) (hiw : d.insertedWindowDims = [0])
    (hsd : d.scatterDimsToOperandDims = [0]) (hiv : d.indexVectorDim = 1)
    (j : (⟨2, ![E, C]⟩ : Shape).Idx) (idx : IVec ⟨2, ![E, 1]⟩ w) (i : (⟨2, ![N, C]⟩ : Shape).Idx) :
    d.resultIdx? j idx = some i ↔ (idx (ix2 (j 0) (0 : Fin 1))).toInt = ((i 0).val : ℤ) ∧ (j 1).val = (i 1).val := by
  rw [resultIdx?_eq_some_iff, Fin.forall_fin_two, scatter_start_row d huw hsd hiv, scatter_start_col d hsd,
    scatter_window_row d hiw, scatter_window_col d huw hiw]
  constructor
  · rintro ⟨h0, h1⟩; exact ⟨by simpa using h0, by exact_mod_cast (by simpa using h1)⟩
  · rintro ⟨h0, h1⟩; exact ⟨by simpa using h0, by simpa using congrArg (Nat.cast (R := ℤ)) h1⟩

end Rows

/-- THE ROW SCATTER-ADD READ AT `(n, k)`, at the ideal instance. -/
theorem scatterAdd_rows_apply {N E C w : ℕ}
    (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![E, 1]⟩ w) (upd : (⟨2, ![E, C]⟩ : Shape).Idx → EReal)
    (n : Fin N) (k : Fin C) :
    Ideal.hostScatterAdd d x idx upd (ix2 n k)
      = x (ix2 n k) + ∑ e ∈ Finset.univ.filter (fun e : Fin E => (idx (ix2 e (0 : Fin 1))).toInt = (n.val : ℤ)),
          upd (ix2 e k) := by
  unfold Ideal.hostScatterAdd
  congr 1
  rw [Finset.sum_filter, Finset.sum_filter, sum_idx2]
  refine Finset.sum_congr rfl fun e _ => ?_
  simp only [resultIdx?_rows d huw hiw hsd hiv]
  by_cases hq : (idx (ix2 e (0 : Fin 1))).toInt = (n.val : ℤ)
  · rw [if_pos hq, Finset.sum_eq_single k]
    · exact if_pos ⟨hq, rfl⟩
    · intro b _ hbk
      exact if_neg fun h => hbk (Fin.ext h.2)
    · intro h; exact absurd (Finset.mem_univ k) h
  · rw [if_neg hq]
    exact Finset.sum_eq_zero fun b _ => if_neg fun h => hq h.1

end Cert.LibRowOps

end
-- ==== Proof.NetData.lean ====
import proofs.«406518_j76175539962263_2_alg».proof.Proof.KStages
import proofs.«406518_j76175539962263_2_alg».proof.Proof.Graph
import proofs.«406518_j76175539962263_2_alg».proof.Proof.LibRowOps

/-!
  The network's data read off the program's eight arguments: the destination words are the
  scatter's index column, the source and destination nodes are the gathers' index columns
  clamped into range, the scale is the inverse root degree, the vocabulary entry is the
  embedding gather's clamped index, the graph word is the batch array's entry.
-/

noncomputable section

namespace Cert.Net

open Idealize.ShloMosaic Idealize.ShloMosaic.ValueIdx Cert.KernelIdeal Cert.KernelIdeal.KStages Cert.LibRowOps

def netData (a0 : IArr S100000) (a1 : IArr S2x3200000) (a2 : IArr S100000) (a3 : FArr S1500x16) (a4 : FArr S16x32)
    (a5 : FArr S32) (a6 : FArr S32x41) (a7 : FArr S41) : Cert.Graph.Data where
  cw e := colI a1 (ix2 e (0 : Fin 1))
  src e := clampRow 100000 (by decide) (rowG a1 (ix2 e (0 : Fin 1)))
  dst e := clampRow 100000 (by decide) (colG a1 (ix2 e (0 : Fin 1)))
  D n := dinv a1 (ix1 n)
  idn n := clampRow 1500 (by decide) (idG a0 (ix2 n (0 : Fin 1)))
  bw n := a2 (ix1 n)
  emb := a3
  w1 := a4
  b1 k := a5 (ix1 k)
  w2 := a6
  b2 f := a7 (ix1 f)

end Cert.Net

end
-- ==== Proof.KRead.lean ====
import proofs.«406518_j76175539962263_2_alg».proof.Proof.NetData
import Idealize.ShloMosaic.Lib.Pipeline.Value
import Idealize.ShloMosaic.Lib.ValueIdx
import Idealize.ShloMosaic.Lib.ValueLayout
import Idealize.ShloMosaic.PureOps.Ideal.Laws

/-!
  The kernel program's stages read at an index: each stage of the factored form of the
  two-layer graph convolution, at explicit coordinates, is the corresponding plain sum over
  the network's data.
-/

noncomputable section

open scoped BigOperators

namespace Cert.KernelIdeal.KRead

open Idealize.ShloMosaic Idealize.ShloMosaic.ValueIdx Cert.KernelIdeal Cert.KernelIdeal.Gen Cert.KernelIdeal.KStages
  Cert.LibRowOps Cert.Net

variable (a0 : IArr S100000) (a1 : IArr S2x3200000) (a2 : IArr S100000) (a3 : FArr S1500x16) (a4 : FArr S16x32)
  (a5 : FArr S32) (a6 : FArr S32x41) (a7 : FArr S41)

/-- The scale column read at `(n, 0)` is the scale vector at `n`: a reshape keeps the row-major position. -/
theorem dinv2_apply (n : Fin 100000) : dinv2 a1 (ix2 n (0 : Fin 1)) = dinv a1 (ix1 n) := by
  unfold dinv2
  generalize dinv a1 = y
  exact shapeCast_apply y shapeCasts_S100000_S100000x1 (ix2 n (0 : Fin 1)) (ix1 n)
    (by rw [Shape.rowMajor_val_two, Shape.rowMajor_val_one]; show n.val = n.val * 1 + 0; omega)

/-- The scale column broadcast along the 32 features, read at `(n, k)`. -/
theorem dinvB32_apply (n : Fin 100000) (k : Fin 32) :
    broadcastInDim S100000x32 ![0, 1] bcast_S100000x1_S100000x32_0_1 (dinv2 a1) (ix2 n k) = dinv a1 (ix1 n) := by
  rw [← dinv2_apply]
  generalize dinv2 a1 = y
  exact broadcastInDim_apply _ bcast_S100000x1_S100000x32_0_1 y (ix2 n k) (ix2 n (0 : Fin 1)) (fun a => match a with
    | ⟨0, _⟩ => by show n.val = if (100000 : Nat) = 1 then 0 else n.val; rw [if_neg (by decide)]
    | ⟨1, _⟩ => by show 0 = if (1 : Nat) = 1 then 0 else k.val; rw [if_pos rfl])

/-! ### The embedding table times the first weight matrix -/

theorem embW1_lhs0 (i : S1500x32.Idx) (q : dot_S1500x16_S16x32_S1500x32_1_0_0_1_n_n.contr.Idx) : (dot_S1500x16_S16x32_S1500x32_1_0_0_1_n_n.lhsIdx i q 0).val = (i 0).val := by
  unfold DotDims.lhsIdx
  rw [dif_neg (show ¬(0 : Fin S1500x16.rank) ∈ dot_S1500x16_S16x32_S1500x32_1_0_0_1_n_n.lhsBatch by decide),
    dif_pos (show (0 : Fin S1500x16.rank) ∈ dot_S1500x16_S16x32_S1500x32_1_0_0_1_n_n.lhsNonContracting by decide)]
  rfl
theorem embW1_lhs1 (i : S1500x32.Idx) (q : dot_S1500x16_S16x32_S1500x32_1_0_0_1_n_n.contr.Idx) : (dot_S1500x16_S16x32_S1500x32_1_0_0_1_n_n.lhsIdx i q 1).val = (q ⟨0, by decide⟩).val :=
  dot_S1500x16_S16x32_S1500x32_1_0_0_1_n_n.lhsIdx_val_of_single rfl i q
theorem embW1_rhs0 (i : S1500x32.Idx) (q : dot_S1500x16_S16x32_S1500x32_1_0_0_1_n_n.contr.Idx) : (dot_S1500x16_S16x32_S1500x32_1_0_0_1_n_n.rhsIdx i q 0).val = (q ⟨0, by decide⟩).val :=
  dot_S1500x16_S16x32_S1500x32_1_0_0_1_n_n.rhsIdx_val_of_single rfl i q
theorem embW1_rhs1 (i : S1500x32.Idx) (q : dot_S1500x16_S16x32_S1500x32_1_0_0_1_n_n.contr.Idx) : (dot_S1500x16_S16x32_S1500x32_1_0_0_1_n_n.rhsIdx i q 1).val = (i 1).val := by
  unfold DotDims.rhsIdx
  rw [dif_neg (show ¬(1 : Fin S16x32.rank) ∈ dot_S1500x16_S16x32_S1500x32_1_0_0_1_n_n.rhsBatch by decide),
    dif_pos (show (1 : Fin S16x32.rank) ∈ dot_S1500x16_S16x32_S1500x32_1_0_0_1_n_n.rhsNonContracting by decide)]
  rfl

/-- The product read at `(v, k)`: the sum over the 16 embedding coordinates. -/
theorem embW1_apply (v : Fin 1500) (k : Fin 32) :
    Host.dotGeneral (F := Ideal) dot_S1500x16_S16x32_S1500x32_1_0_0_1_n_n none a3 a4 (ix2 v k) = ∑ j : Fin 16, a3 (ix2 v j) * a4 (ix2 j k) := by
  simp only [Host.dotGeneral]
  rw [Ideal.dotGeneral_apply, ← Equiv.sum_comp (contrEquiv1 dot_S1500x16_S16x32_S1500x32_1_0_0_1_n_n 16 rfl rfl).symm]
  refine Finset.sum_congr rfl fun j _ => ?_
  have hj := contrEquiv1_symm_val dot_S1500x16_S16x32_S1500x32_1_0_0_1_n_n 16 rfl rfl j
  have el : dot_S1500x16_S16x32_S1500x32_1_0_0_1_n_n.lhsIdx (ix2 v k) ((contrEquiv1 dot_S1500x16_S16x32_S1500x32_1_0_0_1_n_n 16 rfl rfl).symm j) = ix2 v j := funext fun a => Fin.ext (by
    match a with
    | ⟨0, _⟩ => exact embW1_lhs0 _ _
    | ⟨1, _⟩ => exact (embW1_lhs1 _ _).trans hj)
  have er : dot_S1500x16_S16x32_S1500x32_1_0_0_1_n_n.rhsIdx (ix2 v k) ((contrEquiv1 dot_S1500x16_S16x32_S1500x32_1_0_0_1_n_n 16 rfl rfl).symm j) = ix2 j k := funext fun a => Fin.ext (by
    match a with
    | ⟨0, _⟩ => exact (embW1_rhs0 _ _).trans hj
    | ⟨1, _⟩ => exact embW1_rhs1 _ _)
  rw [el, er]

/-! ### The first stage before the edges -/

/-- A node's embedded features times the first weight matrix, scaled by the node's scale. -/
theorem pre1_apply (n : Fin 100000) (k : Fin 32) :
    pre1 a0 a1 a3 a4 (ix2 n k) = Cert.Graph.kPre1 (netData a0 a1 a2 a3 a4 a5 a6 a7) n k := by
  unfold pre1
  rw [truncf_apply, mulf_apply, dinvB32_apply,
    gather_rows_apply (N := 1500) (E := 100000) (C := 32) (by decide)
      gather_S1500x32_S100000x1_S100000x32_1_0_n_n_0_1_132 rfl rfl rfl rfl rfl rfl,
    embW1_apply]
  unfold Cert.Graph.kPre1 Cert.Graph.h1
  simp only [netData]

/-! ### The first aggregation along the edges -/

/-- A zero array read anywhere is zero. -/
theorem zero32_apply (i : S100000x32.Idx) :
    broadcastInDim S100000x32 ![] bcast_S_S100000x32 (constant (F := Ideal) S_ .f32 0x00000000#32) i = 0 := by
  rw [broadcastInDim_apply _ bcast_S_S100000x32 _ i ix0 (fun a => a.elim0), constant_apply, Ideal.ofBits_zero_f32]

/-- The messages along the edges read at `(e, k)`: the scaled features of the edge's source node. -/
theorem msg1_apply (e : Fin 3300000) (k : Fin 32) :
    extf (F := Ideal) .f32 (Host.gather gather_S100000x32_S3300000x1_S3300000x32_1_0_n_n_0_1_132 (pre1 a0 a1 a3 a4) (rowG a1))
      bitsLt_bf16_f32 (ix2 e k)
      = Cert.Graph.kPre1 (netData a0 a1 a2 a3 a4 a5 a6 a7) ((netData a0 a1 a2 a3 a4 a5 a6 a7).src e) k := by
  rw [extf_apply,
    gather_rows_apply (N := 100000) (E := 3300000) (C := 32) (by decide)
      gather_S100000x32_S3300000x1_S3300000x32_1_0_n_n_0_1_132 rfl rfl rfl rfl rfl rfl,
    pre1_apply a0 a1 a2 a3 a4 a5 a6 a7]
  simp only [netData]

/-- An accumulating row scatter of the host, at the ideal instance, read at `(n, k)`. -/
theorem hostScatterAdd_rows {N E C w : ℕ} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : FVec Ideal ⟨2, ![N, C]⟩ .f32) (idx : IVec ⟨2, ![E, 1]⟩ w) (upd : FVec Ideal ⟨2, ![E, C]⟩ .f32)
    (n : Fin N) (k : Fin C) :
    Host.scatterAdd (F := Ideal) d x idx upd (ix2 n k)
      = x (ix2 n k) + ∑ e ∈ Finset.univ.filter (fun e : Fin E => (idx (ix2 e (0 : Fin 1))).toInt = (n.val : ℤ)),
          upd (ix2 e k) :=
  scatterAdd_rows_apply d huw hiw hsd hiv x idx upd n k

/-- The edges landing on a node: those whose destination word, read signed, is the node. -/
theorem lands_eq (n : Fin 100000) :
    Cert.Graph.lands (netData a0 a1 a2 a3 a4 a5 a6 a7) n
      = Finset.univ.filter (fun e : Fin 3300000 => (colI a1 (ix2 e (0 : Fin 1))).toInt = (n.val : ℤ)) := by
  unfold Cert.Graph.lands
  exact Finset.filter_congr fun e _ => Iff.rfl

/-- The sum, over the edges landing on a node, of the source nodes' scaled features. -/
theorem tmp1_apply (n : Fin 100000) (k : Fin 32) :
    tmp1 a0 a1 a3 a4 (ix2 n k) = Cert.Graph.kTmp1 (netData a0 a1 a2 a3 a4 a5 a6 a7) n k := by
  refine (hostScatterAdd_rows scatter_S100000x32_S3300000x1_S3300000x32_1_0_0_1 rfl rfl rfl rfl _ (colI a1) _ n k).trans ?_
  unfold Cert.Graph.kTmp1
  rw [lands_eq, zero32_apply]
  exact congrArg (fun s => (0 : EReal) + s) (Finset.sum_congr rfl fun e _ => msg1_apply a0 a1 a2 a3 a4 a5 a6 a7 e k)

/-! ### The network's data, field by field -/

theorem nd_D (n : Fin 100000) : (netData a0 a1 a2 a3 a4 a5 a6 a7).D n = dinv a1 (ix1 n) := by simp only [netData]
theorem nd_bw (n : Fin 100000) : (netData a0 a1 a2 a3 a4 a5 a6 a7).bw n = a2 (ix1 n) := by simp only [netData]
theorem nd_b1 (k : Fin 32) : (netData a0 a1 a2 a3 a4 a5 a6 a7).b1 k = a5 (ix1 k) := by simp only [netData]
theorem nd_w2 : (netData a0 a1 a2 a3 a4 a5 a6 a7).w2 = a6 := by simp only [netData]
theorem nd_b2 (f : Fin 41) : (netData a0 a1 a2 a3 a4 a5 a6 a7).b2 f = a7 (ix1 f) := by simp only [netData]

/-! ### The dense stage between the two aggregations -/

/-- The dense stage's row `n`, column `f`, written out at explicit coordinates. -/
theorem layer_apply (tmp : Cert.Model.Arr2 100000 32) (dv : Cert.Model.Arr2 100000 1) (b : Cert.Model.Arr2 1 32)
    (w : Cert.Model.Arr2 32 41) (n : Fin 100000) (f : Fin 41) :
    Cert.Model.layer tmp dv b w (ix2 n f)
      = (∑ k : Fin 32, max (tmp (ix2 n k) * dv (ix2 n (0 : Fin 1)) + b (ix2 (0 : Fin 1) k)) 0 * w (ix2 k f))
          * dv (ix2 n (0 : Fin 1)) := rfl

/-- Scale, bias, cut at zero, second weight matrix, scale again. -/
theorem pre2_apply (n : Fin 100000) (f : Fin 41) :
    pre2 a0 a1 a3 a4 a5 a6 (ix2 n f) = Cert.Graph.kPre2 (netData a0 a1 a2 a3 a4 a5 a6 a7) n f := by
  unfold pre2
  rw [layer_apply, dinv2_apply]
  unfold Cert.Graph.kPre2
  rw [nd_D, nd_w2]
  refine congrArg (fun s => s * dinv a1 (ix1 n)) (Finset.sum_congr rfl fun k _ => ?_)
  rw [tmp1_apply a0 a1 a2 a3 a4 a5 a6 a7, shapeCast_a_1a_apply, nd_b1, truncf_apply]

/-! ### The second aggregation along the edges -/

/-- A zero array read anywhere is zero. -/
theorem zero41_apply (i : S100000x41.Idx) :
    broadcastInDim S100000x41 ![] bcast_S_S100000x41 (constant (F := Ideal) S_ .f32 0x00000000#32) i = 0 := by
  rw [broadcastInDim_apply _ bcast_S_S100000x41 _ i ix0 (fun a => a.elim0), constant_apply, Ideal.ofBits_zero_f32]

/-- The messages along the edges read at `(e, f)`: the dense stage's row of the edge's source node. -/
theorem msg2_apply (e : Fin 3300000) (f : Fin 41) :
    extf (F := Ideal) .f32 (Host.gather gather_S100000x41_S3300000x1_S3300000x41_1_0_n_n_0_1_141 (pre2 a0 a1 a3 a4 a5 a6) (rowG a1))
      bitsLt_bf16_f32 (ix2 e f)
      = Cert.Graph.kPre2 (netData a0 a1 a2 a3 a4 a5 a6 a7) ((netData a0 a1 a2 a3 a4 a5 a6 a7).src e) f := by
  rw [extf_apply,
    gather_rows_apply (N := 100000) (E := 3300000) (C := 41) (by decide)
      gather_S100000x41_S3300000x1_S3300000x41_1_0_n_n_0_1_141 rfl rfl rfl rfl rfl rfl,
    pre2_apply a0 a1 a2 a3 a4 a5 a6 a7]
  simp only [netData]

/-- The sum, over the edges landing on a node, of the source nodes' dense rows. -/
theorem tmp2_apply (n : Fin 100000) (f : Fin 41) :
    tmp2 a0 a1 a3 a4 a5 a6 (ix2 n f) = Cert.Graph.kTmp2 (netData a0 a1 a2 a3 a4 a5 a6 a7) n f := by
  refine (hostScatterAdd_rows scatter_S100000x41_S3300000x1_S3300000x41_1_0_0_1 rfl rfl rfl rfl _ (colI a1) _ n f).trans ?_
  unfold Cert.Graph.kTmp2
  rw [lands_eq, zero41_apply]
  exact congrArg (fun s => (0 : EReal) + s) (Finset.sum_congr rfl fun e _ => msg2_apply a0 a1 a2 a3 a4 a5 a6 a7 e f)

/-! ### The two partial pools and their sum -/

/-- The graph words as a column, read at `(n, 0)`. -/
theorem batch2_apply (n : Fin 100000) :
    shapeCast S100000x1 a2 shapeCasts_S100000_S100000x1 (ix2 n (0 : Fin 1)) = a2 (ix1 n) :=
  shapeCast_apply a2 shapeCasts_S100000_S100000x1 (ix2 n (0 : Fin 1)) (ix1 n)
    (by rw [Shape.rowMajor_val_two, Shape.rowMajor_val_one]; show n.val = n.val * 1 + 0; omega)

/-- The pooling stage at half `c`, graph `g`, feature `f`, written out at explicit coordinates. -/
theorem pool_apply (batch : (⟨2, ![100000, 1]⟩ : Shape).Idx → BitVec 32) (tmp : Cert.Model.Arr2 100000 41)
    (dv : Cert.Model.Arr2 100000 1) (b : Cert.Model.Arr2 1 41) (c : Fin 2) (g : Fin 256) (f : Fin 41) :
    Cert.Model.pool batch tmp dv b (ix3 c g f)
      = ∑ t : Fin 25, ∑ r : Fin 2000,
          Cert.Model.hot (batch (ix2 (Cert.Model.node c t r) (0 : Fin 1))) g
            * (tmp (ix2 (Cert.Model.node c t r) f) * dv (ix2 (Cert.Model.node c t r) (0 : Fin 1)) + b (ix2 (0 : Fin 1) f)) := rfl

/-- One half's pool: over its 25 blocks of 2000 nodes, the nodes of graph `g` contribute their scaled, biased rows. -/
theorem part_apply (c : Fin 2) (g : Fin 256) (f : Fin 41) :
    part a0 a1 a2 a3 a4 a5 a6 a7 (ix3 c g f) = Cert.Graph.kPart (netData a0 a1 a2 a3 a4 a5 a6 a7) c g f := by
  unfold part
  rw [pool_apply]
  unfold Cert.Graph.kPart
  refine Finset.sum_congr rfl fun t _ => Finset.sum_congr rfl fun r _ => ?_
  rw [batch2_apply, tmp2_apply a0 a1 a2 a3 a4 a5 a6 a7, dinv2_apply, shapeCast_a_1a_apply, nd_bw, nd_D, nd_b2]

/-- The three-axis shape with its leading axis summed away. -/
theorem reduces_halves : S2x256x41.Reduces [0] S256x41 := by decide

/-- The index over `(g, f)` with `c` put on the summed axis is `(c, g, f)`. -/
theorem lift_halves (g : Fin 256) (f : Fin 41) (c : Fin 2) :
    reduces_halves.lift (ix2 g f) c = ix3 c g f :=
  funext fun a => Fin.ext (by
    match a with
    | ⟨0, _⟩ => rfl
    | ⟨1, _⟩ => rfl
    | ⟨2, _⟩ => rfl)

/-- THE KERNEL PROGRAM'S RESULT READ AT `(g, f)`: the factored form of the network. -/
theorem out_apply (g : Fin 256) (f : Fin 41) :
    out a0 a1 a2 a3 a4 a5 a6 a7 (ix2 g f) = Cert.Graph.kOut (netData a0 a1 a2 a3 a4 a5 a6 a7) g f := by
  unfold out Host.reduceAdd
  rw [Ideal.hostReduceAdd_def, Ideal.hostReduceAdd_single reducesTo_S2x256x41_S256x41_d0 reduces_halves,
    constant_apply, Ideal.ofBits_zero_f32]
  unfold Cert.Graph.kOut
  refine congrArg (fun s => (0 : EReal) + s) ?_
  show ∑ c : Fin 2, part a0 a1 a2 a3 a4 a5 a6 a7 (reduces_halves.lift (ix2 g f) c) = _
  exact Finset.sum_congr rfl fun c _ => by rw [lift_halves, part_apply]

end Cert.KernelIdeal.KRead

end
-- ==== Proof.RRead.lean ====
import proofs.«406518_j76175539962263_2_alg».proof.Proof.RefRead
import proofs.«406518_j76175539962263_2_alg».proof.Proof.NetData
import Idealize.ShloMosaic.Lib.StableHlo.Predicate

/-!
  The reference program's value, read at an index, is the edgewise form of the two-layer graph
  convolution with pooling, on the network's data read off the eight arguments.

  Bottom up, one stage at a time: the embedded features times the first weight matrix; the
  edge norm (the scale at the source times the scale at the destination); the messages; their
  sum over the edges landing on a node plus the bias; the cut at zero and the second weight
  matrix; the second round of messages and sums; the sum over the nodes of each graph.

  The index columns (the scatter's destination words, the gathers' wrapped source and
  destination words) and the scale are printed twice in the reference and once more in the
  factored program: the same compositions, so equal by unfolding.
-/

noncomputable section

open scoped BigOperators

namespace Cert.ReferenceIdeal.RRead

open Cert.ReferenceIdeal Cert.ReferenceIdeal.Gen Idealize.ShloMosaic Idealize.ShloMosaic.ValueIdx Cert.LibRowOps
open Cert.ReferenceIdeal.ReadP Cert.Graph Cert.Net

/-- A take from a rank-1 table: position `e` reads the table at its index word, signed and clamped. -/
theorem take_apply {α : Type} {N n w : ℕ} (hN : 0 < N) (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) :
    Host.gather d x idx (ix1 e) = x (ix1 (clampRow N hN (idx (ix2 e (0 : Fin 1))))) := by
  have h1 : ∀ {m : ℕ} (p : Fin m), (ix1 p : (⟨1, ![m]⟩ : Shape).Idx) = Shape.Idx.ofFin p := fun p => by
    funext a; match a with | ⟨0, _⟩ => exact Fin.ext rfl
  have h2 : (StableHlo.Predicate.ixP e : (⟨2, ![n, 1]⟩ : Shape).Idx) = ix2 e (0 : Fin 1) := by
    funext a; match a with | ⟨0, _⟩ => rfl | ⟨1, _⟩ => rfl
  rw [h1, h1, StableHlo.Predicate.gather_take d hcoll hob hsim hivd x idx e hN, ← h2]
  rfl

/-- The accumulating row scatter, as the program spells it, read at `(n, k)`. -/
theorem scatterAdd_at {N E C w : ℕ} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : FVec Ideal ⟨2, ![N, C]⟩ .f32) (idx : IVec ⟨2, ![E, 1]⟩ w) (upd : FVec Ideal ⟨2, ![E, C]⟩ .f32)
    (n : Fin N) (k : Fin C) :
    Host.scatterAdd (F := Ideal) d x idx upd (ix2 n k)
      = x (ix2 n k) + ∑ e ∈ Finset.univ.filter (fun e : Fin E => (idx (ix2 e (0 : Fin 1))).toInt = (n.val : ℤ)),
          upd (ix2 e k) :=
  scatterAdd_rows_apply d huw hiw hsd hiv x idx upd n k

/-! ### The index columns and the scale: one composition, printed several times -/

section Same
variable (a0 : IVec S100000 32) (a1 : IVec S2x3200000 32)

theorem colI_eq : Cert.KernelIdeal.KStages.colI a1 = val_main_v17 (F := Ideal) a1 := rfl
theorem v49_eq : val_main_v49 (F := Ideal) a1 = val_main_v17 (F := Ideal) a1 := rfl
theorem v97_eq : val_main_v97 (F := Ideal) a1 = val_main_v17 (F := Ideal) a1 := rfl
theorem rowG_eq : Cert.KernelIdeal.KStages.rowG a1 = val_main_v43 (F := Ideal) a1 := rfl
theorem v28_eq : val_main_v28 (F := Ideal) a1 = val_main_v43 (F := Ideal) a1 := rfl
theorem v76_eq : val_main_v76 (F := Ideal) a1 = val_main_v43 (F := Ideal) a1 := rfl
theorem v91_eq : val_main_v91 (F := Ideal) a1 = val_main_v43 (F := Ideal) a1 := rfl
theorem colG_eq : Cert.KernelIdeal.KStages.colG a1 = val_main_v35 (F := Ideal) a1 := rfl
theorem v83_eq : val_main_v83 (F := Ideal) a1 = val_main_v35 (F := Ideal) a1 := rfl
theorem dinv_eq : Cert.KernelIdeal.KStages.dinv a1 = val_main_v22 (F := Ideal) a1 := rfl
theorem v70_eq : val_main_v70 (F := Ideal) a1 = val_main_v22 (F := Ideal) a1 := rfl
theorem idG_eq : Cert.KernelIdeal.KStages.idG a0 = val_main_v5 (F := Ideal) a0 := rfl

end Same

/-! ### The stages -/

section Stages
variable (a0 : IVec S100000 32) (a1 : IVec S2x3200000 32) (a2 : IVec S100000 32)
  (a3 : FVec Ideal S1500x16 .f32) (a4 : FVec Ideal S16x32 .f32) (a5 : FVec Ideal S32 .f32)
  (a6 : FVec Ideal S32x41 .f32) (a7 : FVec Ideal S41 .f32)

/-- The network's scale is the reference's. -/
theorem nd_D (n : Fin 100000) : (netData a0 a1 a2 a3 a4 a5 a6 a7).D n = val_main_v22 (F := Ideal) a1 (ix1 n) := by
  simp only [netData]
  rw [dinv_eq]

/-- The network's source node is the clamped source word of the reference's gathers. -/
theorem nd_src (e : Fin 3300000) :
    (netData a0 a1 a2 a3 a4 a5 a6 a7).src e = clampRow 100000 (by decide) (val_main_v43 (F := Ideal) a1 (ix2 e (0 : Fin 1))) := by
  simp only [netData]
  rw [rowG_eq]

/-- The network's destination node is the clamped destination word of the reference's gathers. -/
theorem nd_dst (e : Fin 3300000) :
    (netData a0 a1 a2 a3 a4 a5 a6 a7).dst e = clampRow 100000 (by decide) (val_main_v35 (F := Ideal) a1 (ix2 e (0 : Fin 1))) := by
  simp only [netData]
  rw [colG_eq]

/-- The network's destination word is the reference's scatter column. -/
theorem nd_cw (e : Fin 3300000) :
    (netData a0 a1 a2 a3 a4 a5 a6 a7).cw e = val_main_v17 (F := Ideal) a1 (ix2 e (0 : Fin 1)) := by
  simp only [netData]
  rw [colI_eq]

/-- The network's first bias. -/
theorem nd_b1 (k : Fin 32) : (netData a0 a1 a2 a3 a4 a5 a6 a7).b1 k = a5 (ix1 k) := rfl

/-- The network's second bias. -/
theorem nd_b2 (f : Fin 41) : (netData a0 a1 a2 a3 a4 a5 a6 a7).b2 f = a7 (ix1 f) := rfl

/-- The network's second weight matrix. -/
theorem nd_w2 : (netData a0 a1 a2 a3 a4 a5 a6 a7).w2 = a6 := rfl

/-- The network's graph word. -/
theorem nd_bw (n : Fin 100000) : (netData a0 a1 a2 a3 a4 a5 a6 a7).bw n = a2 (ix1 n) := rfl

/-- The edges landing on a node, by the reference's scatter column. -/
theorem lands_eq (n : Fin 100000) :
    lands (netData a0 a1 a2 a3 a4 a5 a6 a7) n = Finset.univ.filter (fun e : Fin 3300000 =>
      (val_main_v17 (F := Ideal) a1 (ix2 e (0 : Fin 1))).toInt = (n.val : ℤ)) := by
  unfold lands
  refine Finset.filter_congr fun e _ => ?_
  rw [nd_cw a0 a1 a2 a3 a4 a5 a6 a7 e]

/-- The embedding gather: node `n` reads the table's row at its clamped vocabulary word. -/
theorem v6_at (n : Fin 100000) (j : Fin 16) :
    val_main_v6 (F := Ideal) a0 a3 (ix2 n j) = a3 (ix2 ((netData a0 a1 a2 a3 a4 a5 a6 a7).idn n) j) := by
  unfold val_main_v6
  exact gather_rows_apply (N := 1500) (by decide) gather_S1500x16_S100000x1_S100000x16_1_0_n_n_0_1_116
    rfl rfl rfl rfl rfl rfl a3 (val_main_v5 (F := Ideal) a0) n j

/-- The embedded features times the first weight matrix. -/
theorem v7_at (n : Fin 100000) (k : Fin 32) :
    val_main_v7 (F := Ideal) a0 a3 a4 (ix2 n k) = h1 (netData a0 a1 a2 a3 a4 a5 a6 a7) n k := by
  rw [val_main_v7_apply]
  unfold h1
  refine Finset.sum_congr rfl fun j _ => ?_
  have el : lidx_main_v7 (ix2 n k) j = ix2 n j := by
    funext a; match a with | ⟨0, _⟩ => rfl | ⟨1, _⟩ => rfl
  have er : ridx_main_v7 (ix2 n k) j = ix2 j k := by
    funext a; match a with | ⟨0, _⟩ => rfl | ⟨1, _⟩ => rfl
  rw [el, er, v6_at a0 a1 a2 a3 a4 a5 a6 a7]
  rfl

/-- The scale gathered along the source column. -/
theorem v29_at (e : Fin 3300000) :
    val_main_v29 (F := Ideal) a1 (ix1 e) = (netData a0 a1 a2 a3 a4 a5 a6 a7).D ((netData a0 a1 a2 a3 a4 a5 a6 a7).src e) := by
  unfold val_main_v29
  rw [take_apply (N := 100000) (by decide) gather_S100000_S3300000x1_S3300000_n_0_n_n_0_1_1 rfl rfl rfl rfl
    (val_main_v22 (F := Ideal) a1) (val_main_v28 (F := Ideal) a1) e, nd_D a0 a1 a2 a3 a4 a5 a6 a7, nd_src a0 a1 a2 a3 a4 a5 a6 a7, v28_eq]

/-- The scale gathered along the destination column. -/
theorem v36_at (e : Fin 3300000) :
    val_main_v36 (F := Ideal) a1 (ix1 e) = (netData a0 a1 a2 a3 a4 a5 a6 a7).D ((netData a0 a1 a2 a3 a4 a5 a6 a7).dst e) := by
  unfold val_main_v36
  rw [take_apply (N := 100000) (by decide) gather_S100000_S3300000x1_S3300000_n_0_n_n_0_1_1 rfl rfl rfl rfl
    (val_main_v22 (F := Ideal) a1) (val_main_v35 (F := Ideal) a1) e, nd_D a0 a1 a2 a3 a4 a5 a6 a7, nd_dst a0 a1 a2 a3 a4 a5 a6 a7]

/-- The edge norm. -/
theorem v37_at (e : Fin 3300000) :
    val_main_v37 (F := Ideal) a1 (ix1 e) = rNorm (netData a0 a1 a2 a3 a4 a5 a6 a7) e := by
  rw [val_main_v37_apply, v29_at a0 a1 a2 a3 a4 a5 a6 a7, v36_at a0 a1 a2 a3 a4 a5 a6 a7, Ideal.mulf_def]
  rfl

/-- The features gathered along the source column. -/
theorem v44_at (e : Fin 3300000) (k : Fin 32) :
    val_main_v44 (F := Ideal) a0 a1 a3 a4 (ix2 e k) = h1 (netData a0 a1 a2 a3 a4 a5 a6 a7) ((netData a0 a1 a2 a3 a4 a5 a6 a7).src e) k := by
  unfold val_main_v44
  rw [gather_rows_apply (N := 100000) (by decide) gather_S100000x32_S3300000x1_S3300000x32_1_0_n_n_0_1_132
    rfl rfl rfl rfl rfl rfl (val_main_v7 (F := Ideal) a0 a3 a4) (val_main_v43 (F := Ideal) a1) e k, ← nd_src a0 a1 a2 a3 a4 a5 a6 a7 e]
  exact v7_at a0 a1 a2 a3 a4 a5 a6 a7 ((netData a0 a1 a2 a3 a4 a5 a6 a7).src e) k

/-- The edge norm laid along the feature axis. -/
theorem v46_at (e : Fin 3300000) (k : Fin 32) :
    val_main_v46 (F := Ideal) a1 (ix2 e k) = rNorm (netData a0 a1 a2 a3 a4 a5 a6 a7) e := by
  rw [val_main_v46_apply, val_main_v45_apply]
  have hi : idx_main_v45 (idx_main_v46 (ix2 e k)) = ix1 e := by
    funext a; match a with | ⟨0, _⟩ => rfl
  rw [hi, v37_at a0 a1 a2 a3 a4 a5 a6 a7]

/-- The first round of messages. -/
theorem v47_at (e : Fin 3300000) (k : Fin 32) :
    val_main_v47 (F := Ideal) a0 a1 a3 a4 (ix2 e k) = h1 (netData a0 a1 a2 a3 a4 a5 a6 a7) ((netData a0 a1 a2 a3 a4 a5 a6 a7).src e) k * rNorm (netData a0 a1 a2 a3 a4 a5 a6 a7) e := by
  rw [val_main_v47_apply, v44_at a0 a1 a2 a3 a4 a5 a6 a7, v46_at a0 a1 a2 a3 a4 a5 a6 a7, Ideal.mulf_def]

/-- The messages added up over the edges landing on a node. -/
theorem v50_at (n : Fin 100000) (k : Fin 32) :
    val_main_v50 (F := Ideal) a0 a1 a3 a4 (ix2 n k)
      = 0 + ∑ e ∈ lands (netData a0 a1 a2 a3 a4 a5 a6 a7) n, h1 (netData a0 a1 a2 a3 a4 a5 a6 a7) ((netData a0 a1 a2 a3 a4 a5 a6 a7).src e) k * rNorm (netData a0 a1 a2 a3 a4 a5 a6 a7) e := by
  unfold val_main_v50
  rw [scatterAdd_at (N := 100000) (E := 3300000) (C := 32)
    scatter_S100000x32_S3300000x1_S3300000x32_1_0_0_1 rfl rfl rfl rfl]
  rw [val_main_v48_apply, val_main_cst_10_apply, Ideal.ofBits_def, Ideal.ofBits_zero_f32, v49_eq,
    lands_eq a0 a1 a2 a3 a4 a5 a6 a7]
  rw [Finset.sum_congr rfl fun e _ => v47_at a0 a1 a2 a3 a4 a5 a6 a7 e k]

/-- The first bias laid along the node axis. -/
theorem v52_at (n : Fin 100000) (k : Fin 32) : val_main_v52 (F := Ideal) a5 (ix2 n k) = a5 (ix1 k) := by
  have hi : idx_main_v51 (idx_main_v52 (ix2 n k)) = ix1 k := by
    funext a; match a with | ⟨0, _⟩ => rfl
  rw [val_main_v52_apply, val_main_v51_apply, hi]

/-- The first layer's output. -/
theorem v53_at (n : Fin 100000) (k : Fin 32) :
    val_main_v53 (F := Ideal) a0 a1 a3 a4 a5 (ix2 n k) = rOut1 (netData a0 a1 a2 a3 a4 a5 a6 a7) n k := by
  rw [val_main_v53_apply, v50_at a0 a1 a2 a3 a4 a5 a6 a7, v52_at, Ideal.addf_def]
  unfold rOut1
  rw [nd_b1 a0 a1 a2 a3 a4 a5 a6 a7]

/-- The cut at zero. -/
theorem v54_at (n : Fin 100000) (k : Fin 32) :
    val_main_v54 (F := Ideal) a0 a1 a3 a4 a5 (ix2 n k) = max (rOut1 (netData a0 a1 a2 a3 a4 a5 a6 a7) n k) 0 := by
  rw [val_main_v54_apply, v53_at a0 a1 a2 a3 a4 a5 a6 a7, val_main_call1_v0_apply, val_main_call1_cst_apply, Ideal.ofBits_def,
    Ideal.ofBits_zero_f32, Ideal.maximumf_def]

/-- The cut features times the second weight matrix. -/
theorem v55_at (n : Fin 100000) (f : Fin 41) :
    val_main_v55 (F := Ideal) a0 a1 a3 a4 a5 a6 (ix2 n f) = rH2 (netData a0 a1 a2 a3 a4 a5 a6 a7) n f := by
  rw [val_main_v55_apply]
  unfold rH2
  refine Finset.sum_congr rfl fun k _ => ?_
  have el : lidx_main_v55 (ix2 n f) k = ix2 n k := by
    funext a; match a with | ⟨0, _⟩ => rfl | ⟨1, _⟩ => rfl
  have er : ridx_main_v55 (ix2 n f) k = ix2 k f := by
    funext a; match a with | ⟨0, _⟩ => rfl | ⟨1, _⟩ => rfl
  rw [el, er, v54_at a0 a1 a2 a3 a4 a5 a6 a7, nd_w2 a0 a1 a2 a3 a4 a5 a6 a7]

/-- The scale gathered along the source column, second printing. -/
theorem v77_at (e : Fin 3300000) :
    val_main_v77 (F := Ideal) a1 (ix1 e) = (netData a0 a1 a2 a3 a4 a5 a6 a7).D ((netData a0 a1 a2 a3 a4 a5 a6 a7).src e) := by
  unfold val_main_v77
  rw [take_apply (N := 100000) (by decide) gather_S100000_S3300000x1_S3300000_n_0_n_n_0_1_1 rfl rfl rfl rfl
    (val_main_v70 (F := Ideal) a1) (val_main_v76 (F := Ideal) a1) e, nd_D a0 a1 a2 a3 a4 a5 a6 a7, nd_src a0 a1 a2 a3 a4 a5 a6 a7, v76_eq, v70_eq]

/-- The scale gathered along the destination column, second printing. -/
theorem v84_at (e : Fin 3300000) :
    val_main_v84 (F := Ideal) a1 (ix1 e) = (netData a0 a1 a2 a3 a4 a5 a6 a7).D ((netData a0 a1 a2 a3 a4 a5 a6 a7).dst e) := by
  unfold val_main_v84
  rw [take_apply (N := 100000) (by decide) gather_S100000_S3300000x1_S3300000_n_0_n_n_0_1_1 rfl rfl rfl rfl
    (val_main_v70 (F := Ideal) a1) (val_main_v83 (F := Ideal) a1) e, nd_D a0 a1 a2 a3 a4 a5 a6 a7, nd_dst a0 a1 a2 a3 a4 a5 a6 a7, v83_eq, v70_eq]

/-- The edge norm, second printing. -/
theorem v85_at (e : Fin 3300000) :
    val_main_v85 (F := Ideal) a1 (ix1 e) = rNorm (netData a0 a1 a2 a3 a4 a5 a6 a7) e := by
  rw [val_main_v85_apply, v77_at a0 a1 a2 a3 a4 a5 a6 a7, v84_at a0 a1 a2 a3 a4 a5 a6 a7, Ideal.mulf_def]
  rfl

/-- The second-layer features gathered along the source column. -/
theorem v92_at (e : Fin 3300000) (f : Fin 41) :
    val_main_v92 (F := Ideal) a0 a1 a3 a4 a5 a6 (ix2 e f) = rH2 (netData a0 a1 a2 a3 a4 a5 a6 a7) ((netData a0 a1 a2 a3 a4 a5 a6 a7).src e) f := by
  unfold val_main_v92
  rw [gather_rows_apply (N := 100000) (by decide) gather_S100000x41_S3300000x1_S3300000x41_1_0_n_n_0_1_141
    rfl rfl rfl rfl rfl rfl (val_main_v55 (F := Ideal) a0 a1 a3 a4 a5 a6) (val_main_v91 (F := Ideal) a1) e f, v91_eq, ← nd_src a0 a1 a2 a3 a4 a5 a6 a7 e]
  exact v55_at a0 a1 a2 a3 a4 a5 a6 a7 ((netData a0 a1 a2 a3 a4 a5 a6 a7).src e) f

/-- The edge norm laid along the second feature axis. -/
theorem v94_at (e : Fin 3300000) (f : Fin 41) :
    val_main_v94 (F := Ideal) a1 (ix2 e f) = rNorm (netData a0 a1 a2 a3 a4 a5 a6 a7) e := by
  rw [val_main_v94_apply, val_main_v93_apply]
  have hi : idx_main_v93 (idx_main_v94 (ix2 e f)) = ix1 e := by
    funext a; match a with | ⟨0, _⟩ => rfl
  rw [hi, v85_at a0 a1 a2 a3 a4 a5 a6 a7]

/-- The second round of messages. -/
theorem v95_at (e : Fin 3300000) (f : Fin 41) :
    val_main_v95 (F := Ideal) a0 a1 a3 a4 a5 a6 (ix2 e f) = rH2 (netData a0 a1 a2 a3 a4 a5 a6 a7) ((netData a0 a1 a2 a3 a4 a5 a6 a7).src e) f * rNorm (netData a0 a1 a2 a3 a4 a5 a6 a7) e := by
  rw [val_main_v95_apply, v92_at a0 a1 a2 a3 a4 a5 a6 a7, v94_at a0 a1 a2 a3 a4 a5 a6 a7, Ideal.mulf_def]

/-- The second round added up over the edges landing on a node. -/
theorem v98_at (n : Fin 100000) (f : Fin 41) :
    val_main_v98 (F := Ideal) a0 a1 a3 a4 a5 a6 (ix2 n f)
      = 0 + ∑ e ∈ lands (netData a0 a1 a2 a3 a4 a5 a6 a7) n, rH2 (netData a0 a1 a2 a3 a4 a5 a6 a7) ((netData a0 a1 a2 a3 a4 a5 a6 a7).src e) f * rNorm (netData a0 a1 a2 a3 a4 a5 a6 a7) e := by
  unfold val_main_v98
  rw [scatterAdd_at (N := 100000) (E := 3300000) (C := 41)
    scatter_S100000x41_S3300000x1_S3300000x41_1_0_0_1 rfl rfl rfl rfl]
  rw [val_main_v96_apply, val_main_cst_21_apply, Ideal.ofBits_def, Ideal.ofBits_zero_f32, v97_eq,
    lands_eq a0 a1 a2 a3 a4 a5 a6 a7]
  rw [Finset.sum_congr rfl fun e _ => v95_at a0 a1 a2 a3 a4 a5 a6 a7 e f]

/-- The second bias laid along the node axis. -/
theorem v100_at (n : Fin 100000) (f : Fin 41) : val_main_v100 (F := Ideal) a7 (ix2 n f) = a7 (ix1 f) := by
  have hi : idx_main_v99 (idx_main_v100 (ix2 n f)) = ix1 f := by
    funext a; match a with | ⟨0, _⟩ => rfl
  rw [val_main_v100_apply, val_main_v99_apply, hi]

/-- The second layer's output. -/
theorem v101_at (n : Fin 100000) (f : Fin 41) :
    val_main_v101 (F := Ideal) a0 a1 a3 a4 a5 a6 a7 (ix2 n f) = rOut2 (netData a0 a1 a2 a3 a4 a5 a6 a7) n f := by
  rw [val_main_v101_apply, v98_at a0 a1 a2 a3 a4 a5 a6 a7, v100_at, Ideal.addf_def]
  unfold rOut2
  rw [nd_b2 a0 a1 a2 a3 a4 a5 a6 a7]

/-- THE REFERENCE'S RESULT: the second layer's output added up over the nodes of each graph. -/
theorem out_apply (g : Fin 256) (f : Fin 41) :
    val_main_v104 (F := Ideal) a0 a1 a2 a3 a4 a5 a6 a7 (ix2 g f) = rOut (netData a0 a1 a2 a3 a4 a5 a6 a7) g f := by
  unfold val_main_v104
  rw [scatterAdd_at (N := 256) (E := 100000) (C := 41)
    scatter_S256x41_S100000x1_S100000x41_1_0_0_1 rfl rfl rfl rfl]
  rw [val_main_v102_apply, val_main_cst_22_apply, Ideal.ofBits_def, Ideal.ofBits_zero_f32]
  unfold rOut
  have hw : ∀ n : Fin 100000, val_main_v103 (F := Ideal) a2 (ix2 n (0 : Fin 1)) = (netData a0 a1 a2 a3 a4 a5 a6 a7).bw n := fun n => by
    have hi : idx_main_v103 (ix2 n (0 : Fin 1)) = ix1 n := by
      funext a; match a with | ⟨0, _⟩ => rfl
    rw [val_main_v103_apply, hi, nd_bw a0 a1 a2 a3 a4 a5 a6 a7]
  have hf : (Finset.univ.filter fun n : Fin 100000 =>
        (val_main_v103 (F := Ideal) a2 (ix2 n (0 : Fin 1))).toInt = (g.val : ℤ))
      = Finset.univ.filter fun n : Fin 100000 => ((netData a0 a1 a2 a3 a4 a5 a6 a7).bw n).toInt = (g.val : ℤ) :=
    Finset.filter_congr fun n _ => by rw [hw n]
  rw [hf, Finset.sum_congr rfl fun n _ => v101_at a0 a1 a2 a3 a4 a5 a6 a7 n f]

end Stages

end Cert.ReferenceIdeal.RRead

end
-- ==== Proof.NetFacts.lean ====
import proofs.«406518_j76175539962263_2_alg».proof.Proof.NetData
import Idealize.ShloMosaic.Lib.Pipeline.Value
import Idealize.ShloMosaic.Lib.ValueIdx
import Idealize.ShloMosaic.Lib.StableHlo.Predicate
import Idealize.ShloMosaic.PureOps.Ideal.Laws

/-!
  Two facts about the network's data.

  * An edge that lands on node `n` (its destination word, read as a signed integer, is `n`)
    has `dst e = n`: the word is not negative, so the negative-index wrap leaves it alone,
    and it is below 100000, so the clamp leaves it alone too.
  * The scale `D n` is a real number: the degree is a finite sum of ones, and where it is
    positive its inverse square root is real; elsewhere the scale is zero.
-/

noncomputable section

open scoped BigOperators

namespace Cert.Net

open Idealize.ShloMosaic Idealize.ShloMosaic.ValueIdx Cert.KernelIdeal Cert.KernelIdeal.KStages Cert.LibRowOps
  Cert.LibReal

variable (a0 : IArr S100000) (a1 : IArr S2x3200000) (a2 : IArr S100000) (a3 : FArr S1500x16) (a4 : FArr S16x32)
  (a5 : FArr S32) (a6 : FArr S32x41) (a7 : FArr S41)

/-- A vector laid out as a column reads, at row `e`, the vector's entry `e`. -/
theorem column_apply {α : Type} (h : S3300000.BroadcastsInDim S3300000x1 ![0]) (v : S3300000.Idx → α) (e : Fin 3300000) :
    broadcastInDim S3300000x1 ![0] h v (ix2 e (0 : Fin 1)) = v (ix1 e) :=
  broadcastInDim_apply _ h v (ix2 e (0 : Fin 1)) (ix1 e) (fun a => match a with
    | ⟨0, _⟩ => by show e.val = if (3300000 : Nat) = 1 then 0 else e.val; rw [if_neg (by decide)])

/-- The scatter's index column at edge `e` is the destination word. -/
theorem colI_apply (e : Fin 3300000) : colI a1 (ix2 e (0 : Fin 1)) = col a1 (ix1 e) := by
  unfold colI
  rw [column_apply]

/-- The wrapped destination column at edge `e`: the word, plus 100000 if it is negative. -/
theorem colG_apply (e : Fin 3300000) :
    colG a1 (ix2 e (0 : Fin 1))
      = Scalar.select (IntOp.cmpi .slt (col a1 (ix1 e)) 0#32) (IntOp.addi (col a1 (ix1 e)) 100000#32) (col a1 (ix1 e)) := by
  unfold colG
  rw [column_apply]
  rfl

/-- An edge that lands on `n` has destination node `n`. -/
theorem dst_of_lands (e : Fin 3300000) (n : Fin 100000)
    (h : e ∈ Cert.Graph.lands (netData a0 a1 a2 a3 a4 a5 a6 a7) n) : (netData a0 a1 a2 a3 a4 a5 a6 a7).dst e = n := by
  have hw : (col a1 (ix1 e)).toInt = (n.val : ℤ) := by
    have h2 := (Finset.mem_filter.mp h).2
    rw [show (netData a0 a1 a2 a3 a4 a5 a6 a7).cw e = colI a1 (ix2 e (0 : Fin 1)) from rfl, colI_apply] at h2
    exact h2
  show clampRow 100000 (by decide) (colG a1 (ix2 e (0 : Fin 1))) = n
  rw [colG_apply]
  have hn := n.isLt
  have hslt : IntOp.cmpi .slt (col a1 (ix1 e)) 0#32 = 0#1 := by
    unfold IntOp.cmpi
    simp only [BitVec.slt, hw]
    have h0 : ¬ ((n.val : ℤ) < 0) := by omega
    simp [h0]
  rw [hslt, select_zero]
  apply Fin.ext
  simp only [clampRow, hw]
  omega

/-- The pattern of the float 1 denotes a real number. -/
theorem one_bits_real : IsReal (Ideal.ofBits .f32 0x3F800000#32) := by
  simp [Ideal.ofBits, Ideal.ieee, IsReal]
  exact ⟨_, (EReal.coe_mul _ _).symm⟩

/-- The zero constant laid out over any shape reads zero. -/
theorem zeros_apply {t : Shape} (h : S_.BroadcastsInDim t ![]) (j : t.Idx) :
    broadcastInDim t ![] h (constant (F := Ideal) S_ .f32 0x00000000#32) j = 0 := by
  rw [StableHlo.Predicate.bcast_scalar h (by decide), constant_apply, Ideal.ofBits_zero_f32]

/-- An accumulating scatter of real updates into a real operand is real: each entry is the operand's plus a finite
    sum of updates. -/
theorem scatterAdd_real {s si su : Shape} (d : ScatterDims s si su) {w : ℕ} (x : FVec Ideal s .f32) (idx : IVec si w)
    (upd : FVec Ideal su .f32) (hx : ∀ i, IsReal (x i)) (hu : ∀ j, IsReal (upd j)) (i : s.Idx) :
    IsReal (Host.scatterAdd (F := Ideal) d x idx upd i) := by
  show IsReal (Ideal.hostScatterAdd d x idx upd i)
  unfold Ideal.hostScatterAdd
  exact IsReal.add (hx i) (IsReal.sum _ _ fun j _ => hu j)

/-- The zero array is real. -/
theorem zeros_real {t : Shape} (h : S_.BroadcastsInDim t ![]) (j : t.Idx) :
    IsReal (broadcastInDim t ![] h (constant (F := Ideal) S_ .f32 0x00000000#32) j) := by
  rw [zeros_apply]; exact IsReal.zero

/-- The array of ones is real. -/
theorem ones_real {t : Shape} (h : S_.BroadcastsInDim t ![]) (j : t.Idx) :
    IsReal (broadcastInDim t ![] h (constant (F := Ideal) S_ .f32 0x3F800000#32) j) := by
  rw [StableHlo.Predicate.bcast_scalar h (by decide), constant_apply]; exact one_bits_real

/-- The degree of a node is a real number: zero plus a finite sum of ones. -/
theorem deg_real (n : Fin 100000) : IsReal (deg a1 (ix1 n)) := by
  unfold deg
  exact scatterAdd_real _ _ _ _ (zeros_real _) (ones_real _) _

/-- Where a real `x` is positive its inverse square root is real; the selection puts zero elsewhere. -/
theorem invsqrt_real {s : Shape} (x z z' : FVec Ideal s .f32) (i : s.Idx) (hx : IsReal (x i)) (hz : z i = 0)
    (hz' : z' i = 0) : IsReal (select (cmpf (F := Ideal) .ogt x z) (Host.rsqrt (F := Ideal) x) z' i) := by
  obtain ⟨r, hr⟩ := hx
  show IsReal (Scalar.select (Ideal.cmp .ogt (x i) (z i)) (Ideal.rsqrt (x i)) (z' i))
  rw [hz, hz', hr]
  unfold Scalar.select
  split
  · next hc =>
    have hpos : (0 : EReal) < (r : EReal) := by
      by_contra hn
      simp [Ideal.cmp, hn] at hc
    have hr0 : 0 < r := by exact_mod_cast hpos
    rw [Ideal.rsqrt_coe, if_neg (not_lt.mpr hr0.le), if_neg hr0.ne']
    exact IsReal.coe _
  · exact IsReal.zero

/-- The scale of a node is a real number. -/
theorem dinv_real (n : Fin 100000) : IsReal (dinv a1 (ix1 n)) := by
  unfold dinv
  exact invsqrt_real _ _ _ _ (deg_real a1 n) (zeros_apply _ _) (zeros_apply _ _)

theorem D_real (n : Fin 100000) : IsReal ((netData a0 a1 a2 a3 a4 a5 a6 a7).D n) := by
  simp only [netData]
  exact dinv_real a1 n

/-- Under the precondition the float data are real. -/
theorem emb_real (h : ∀ i, IsReal (a3 i)) (i : (⟨2, ![1500, 16]⟩ : Shape).Idx) :
    IsReal ((netData a0 a1 a2 a3 a4 a5 a6 a7).emb i) := by
  simp only [netData]
  exact h i

theorem w1_real (h : ∀ i, IsReal (a4 i)) (i : (⟨2, ![16, 32]⟩ : Shape).Idx) :
    IsReal ((netData a0 a1 a2 a3 a4 a5 a6 a7).w1 i) := by
  simp only [netData]
  exact h i

theorem b1_real (h : ∀ i, IsReal (a5 i)) (k : Fin 32) : IsReal ((netData a0 a1 a2 a3 a4 a5 a6 a7).b1 k) := by
  simp only [netData]
  exact h _

theorem w2_real (h : ∀ i, IsReal (a6 i)) (i : (⟨2, ![32, 41]⟩ : Shape).Idx) :
    IsReal ((netData a0 a1 a2 a3 a4 a5 a6 a7).w2 i) := by
  simp only [netData]
  exact h i

end Cert.Net

end
-- ==== Proof.Finite.lean ====
import Idealize.ShloMosaic.PureOps.Ideal
import Idealize.ShloMosaic.Lib.ReduceAll
import Idealize.ShloMosaic.Lib.ValueIdx
import proofs.«406518_j76175539962263_2_alg».proof.Proof.Gen.Pre_finite_inputs
import proofs.«406518_j76175539962263_2_alg».proof.Proof.LibReal

/-!
  From the precondition to "every float input entry is a real number".

  The precondition is the conjunction, over the five float arrays, of "every entry `x` has
  `|x| < +∞`", where `|x| = max x (-x)` in the extended reals and `+∞` is the value of the
  pattern `0x7F800000`.  Each conjunct is an `and`-reduction over all axes of the entrywise
  comparison, so the result being 1 gives the comparison at every entry; and an extended real
  whose absolute value is below `⊤` is neither `⊥` (whose negation is `⊤`) nor `⊤`.
-/

namespace Cert.Finite

open Idealize.ShloMosaic Cert.LibReal

/-- The pattern of positive infinity denotes `⊤`. -/
theorem inf_bits : Ideal.ofBits .f32 0x7F800000#32 = (⊤ : EReal) := by
  simp [Ideal.ofBits, Ideal.ieee]

/-- An entry whose absolute value `max x (-x)` is strictly below `+∞` is a real number:
    at `⊥` the negation is `⊤`, at `⊤` the entry itself is, and in both cases the maximum is `⊤`. -/
theorem isReal_of_abs_lt (x : EReal)
    (h : Ideal.cmp .olt (max x (-x)) (Ideal.ofBits .f32 0x7F800000#32) = 1#1) : IsReal x := by
  rw [inf_bits] at h
  have h' : max x (-x) < ⊤ := by
    by_contra hn
    simp [Ideal.cmp, hn] at h
  induction x using EReal.rec with
  | bot => simp at h'
  | coe r => exact ⟨r, rfl⟩
  | top => simp at h'

/-- The rank-0 shape has one index. -/
instance : Subsingleton Cert.Pre_finite_inputs.S_.Idx := ⟨fun a b => funext fun d => d.elim0⟩

/-- The precondition gives: every entry of each of the five float inputs is a real number.
    The value at the one rank-0 index is a four-fold `and` of five all-axes `and`-reductions;
    each reduction being 1 gives `|x| < +∞` at every entry of its array. -/
theorem real_of_pre [Cert.Pre_finite_inputs.Facts]
    (a0 : IVec Cert.Pre_finite_inputs.S100000 32) (a1 : IVec Cert.Pre_finite_inputs.S2x3200000 32) (a2 : IVec Cert.Pre_finite_inputs.S100000 32)
    (a3 : FVec Ideal Cert.Pre_finite_inputs.S1500x16 .f32) (a4 : FVec Ideal Cert.Pre_finite_inputs.S16x32 .f32) (a5 : FVec Ideal Cert.Pre_finite_inputs.S32 .f32)
    (a6 : FVec Ideal Cert.Pre_finite_inputs.S32x41 .f32) (a7 : FVec Ideal Cert.Pre_finite_inputs.S41 .f32)
    (h : Cert.Pre_finite_inputs.fn (F := Ideal) a0 a1 a2 a3 a4 a5 a6 a7 = fun _ => 1#1) :
    (∀ i, Cert.LibReal.IsReal (a3 i)) ∧ (∀ i, Cert.LibReal.IsReal (a4 i)) ∧ (∀ i, Cert.LibReal.IsReal (a5 i)) ∧ (∀ i, Cert.LibReal.IsReal (a6 i)) ∧ (∀ i, Cert.LibReal.IsReal (a7 i)) := by
  have h0 := congrFun h ValueIdx.ix0
  dsimp only [Cert.Pre_finite_inputs.fn, Cert.Pre_finite_inputs.fn_part1, andi] at h0
  -- the conjunction is nested to the left: (((e3 ∧ e4) ∧ e5) ∧ e6) ∧ e7
  obtain ⟨h1, e7⟩ := IntOp.andi_eq_one.1 h0
  obtain ⟨h2, e6⟩ := IntOp.andi_eq_one.1 h1
  obtain ⟨h3, e5⟩ := IntOp.andi_eq_one.1 h2
  obtain ⟨e3, e4⟩ := IntOp.andi_eq_one.1 h3
  refine ⟨fun i => ?_, fun i => ?_, fun i => ?_, fun i => ?_, fun i => ?_⟩
  · exact isReal_of_abs_lt _ (Host.reduce_andi_all _ _ _ _ _ e3 i)
  · exact isReal_of_abs_lt _ (Host.reduce_andi_all _ _ _ _ _ e4 i)
  · exact isReal_of_abs_lt _ (Host.reduce_andi_all _ _ _ _ _ e5 i)
  · exact isReal_of_abs_lt _ (Host.reduce_andi_all _ _ _ _ _ e6 i)
  · exact isReal_of_abs_lt _ (Host.reduce_andi_all _ _ _ _ _ e7 i)

end Cert.Finite
-- ==== Proof.lean ====
/-
  A two-layer graph convolution network with sum pooling over graphs.

  The kernel program computes it in a FACTORED form: node features are scaled by the inverse
  root degree `D` before they are gathered along the edges, the sums over incoming edges are
  scaled by `D` of the receiving node afterwards (inside the first dense stage, which also
  adds the bias, cuts at zero, multiplies by the second weight matrix and scales by `D` once
  more), and the pooling is a one-hot product accumulated over two halves of 25 blocks of
  2000 nodes, the two halves added at the end.  The reference multiplies every message by
  `D (src) · D (dst)` and pools by adding up the nodes of each graph.

  At the ideal instance every float is an extended real.  The two forms agree because
  * an edge that lands on node `n` has destination `n` (the destination word is then in
    range, so neither the negative-index wrap nor the clamp moves it),
  * `D` is real (a degree is a finite sum of ones) and, under the precondition, so is every
    entry of the embedding table, the weights and the first bias: a real factor moves out of
    a finite sum of reals,
  * the one-hot factor keeps exactly the nodes whose graph word is the graph's number, and
    the 2 · 25 · 2000 block rows are the 100000 nodes, each once.

  `Graph.lean` holds that argument in plain sums; `KRead.lean` and `RRead.lean` read the two
  programs' stages at an index down to those sums; `KHost.lean` reads the kernel program's
  result buffer back to its arguments through the two regions' values (`K1Value.lean`,
  `K2Value.lean`); `NetFacts.lean` has the two facts about the data.
-/
import proofs.«406518_j76175539962263_2_alg».proof.Defs
import proofs.«406518_j76175539962263_2_alg».proof.Proof.Gen.Kernel
import proofs.«406518_j76175539962263_2_alg».proof.Proof.Gen.Kernel.Frame
import proofs.«406518_j76175539962263_2_alg».proof.Proof.Gen.KernelIdeal
import proofs.«406518_j76175539962263_2_alg».proof.Proof.Gen.KernelIdeal.Frame
import proofs.«406518_j76175539962263_2_alg».proof.Proof.Gen.ReferenceIdeal
import proofs.«406518_j76175539962263_2_alg».proof.Proof.Gen.Pre_finite_inputs
import proofs.«406518_j76175539962263_2_alg».proof.Proof.KRun
import proofs.«406518_j76175539962263_2_alg».proof.Proof.KHost
import proofs.«406518_j76175539962263_2_alg».proof.Proof.KRead
import proofs.«406518_j76175539962263_2_alg».proof.Proof.RefRun
import proofs.«406518_j76175539962263_2_alg».proof.Proof.RefRead
import proofs.«406518_j76175539962263_2_alg».proof.Proof.RRead
import proofs.«406518_j76175539962263_2_alg».proof.Proof.Graph
import proofs.«406518_j76175539962263_2_alg».proof.Proof.NetData
import proofs.«406518_j76175539962263_2_alg».proof.Proof.NetFacts
import proofs.«406518_j76175539962263_2_alg».proof.Proof.Finite
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The two programs' results, as functions of the same arguments, are equal under the precondition. -/
theorem values_eq (a0 : IVec Cert.KernelIdeal.S100000 32) (a1 : IVec Cert.KernelIdeal.S2x3200000 32)
    (a2 : IVec Cert.KernelIdeal.S100000 32) (a3 : FVec Ideal Cert.KernelIdeal.S1500x16 .f32)
    (a4 : FVec Ideal Cert.KernelIdeal.S16x32 .f32) (a5 : FVec Ideal Cert.KernelIdeal.S32 .f32)
    (a6 : FVec Ideal Cert.KernelIdeal.S32x41 .f32) (a7 : FVec Ideal Cert.KernelIdeal.S41 .f32)
    (h : Cert.Pre_finite_inputs.fn (F := Ideal) a0 a1 a2 a3 a4 a5 a6 a7 = fun _ => 1#1) :
    Cert.ReferenceIdeal.ReadP.val_main_v104 (F := Ideal) a0 a1 a2 a3 a4 a5 a6 a7
      = Cert.KernelIdeal.KStages.out a0 a1 a2 a3 a4 a5 a6 a7 := by
  obtain ⟨h3, h4, h5, h6, _⟩ := Cert.Finite.real_of_pre a0 a1 a2 a3 a4 a5 a6 a7 h
  funext i
  obtain ⟨g, f, rfl⟩ : ∃ (g : Fin 256) (f : Fin 41), i = ix2 g f := ⟨i 0, i 1, eq_ix2 i⟩
  rw [Cert.ReferenceIdeal.RRead.out_apply, Cert.KernelIdeal.KRead.out_apply]
  exact (Cert.Graph.out_eq _ (fun e n he => Cert.Net.dst_of_lands a0 a1 a2 a3 a4 a5 a6 a7 e n he)
    (fun n => Cert.Net.D_real a0 a1 a2 a3 a4 a5 a6 a7 n) (Cert.Net.emb_real a0 a1 a2 a3 a4 a5 a6 a7 h3)
    (Cert.Net.w1_real a0 a1 a2 a3 a4 a5 a6 a7 h4) (Cert.Net.b1_real a0 a1 a2 a3 a4 a5 a6 a7 h5)
    (Cert.Net.w2_real a0 a1 a2 a3 a4 a5 a6 a7 h6) g f).symm

theorem algebraic : Cert.algebraic_KernelIdeal_ReferenceIdeal := by
  intro m ρ m' ρ' hpre hagree
  refine ⟨fun c => Cert.KernelIdeal.Gen.W7 (F := Ideal) m ρ c (Proc.devRef .tc Cert.KernelIdeal.main_v55),
    Cert.KernelIdeal.KRun.run_value (F := Ideal) m ρ, ?_⟩
  refine (θ_run Cert.ReferenceIdeal.defs _ _).mono (fun r h c => ⟨(h c).1.trans ?_, (h c).2⟩)
    (Cert.ReferenceIdeal.ValueP.run (F := Ideal) m' ρ')
  rw [Cert.ReferenceIdeal.ReadP.val_main_v104_eq]
  show _ = Cert.KernelIdeal.Gen.W7 (F := Ideal) m ρ c (Proc.devRef .tc Cert.KernelIdeal.main_v55)
  rw [Cert.KernelIdeal.KHost.kvalue m ρ c,
    (hagree c).1, (hagree c).2.1, (hagree c).2.2.1, (hagree c).2.2.2.1, (hagree c).2.2.2.2.1,
    (hagree c).2.2.2.2.2.1, (hagree c).2.2.2.2.2.2.1, (hagree c).2.2.2.2.2.2.2]
  exact values_eq _ _ _ _ _ _ _ _ (hpre c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
